-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x32 : Shape := ⟨2, ![500000, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S2x16000000 : Shape := ⟨2, ![2, 16000000]⟩
abbrev S500000 : Shape := ⟨1, ![500000]⟩
abbrev S_ : Shape := ⟨0, ![]⟩

class Facts : Prop where
  bcast_S_S500000x32 : S_.BroadcastsInDim S500000x32 (![] : Fin 0 → Fin S500000x32.rank)
  reducesTo_S500000x32_S_d0_1 : S500000x32.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S500000x32 .f32) (main_arg1 : FVec F S32x16 .f32) (main_arg2 : FVec F S16 .f32) (main_arg3 : FVec F S16x2 .f32) (main_arg4 : FVec F S2 .f32) (main_arg5 : IVec S2x16000000 32) (main_arg6 : IVec S500000 32) : IVec S_ 1 :=
  let main_v0 : FVec F S500000x32 .f32 := Host.absf main_arg0
  let main_cst : FVec F S_ .f32 := constant S_ .f32 0x7F800000#32
  let main_v1 : FVec F S500000x32 .f32 := broadcastInDim S500000x32 ![] bcast_S_S500000x32 main_cst
  let main_v2 : IVec S500000x32 1 := cmpf .olt main_v0 main_v1
  let main_c : IVec S_ 1 := constantI S_ 1 1#1
  let main_v3 : IVec S_ 1 := (fun x v => Host.reduce IntOp.andi x v reducesTo_S500000x32_S_d0_1 h_S_) main_v2 main_c
  let main_v4 : FVec F S32x16 .f32 := Host.absf main_arg1
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S500000x32 : Shape := ⟨2, ![500000, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S2x16000000 : Shape := ⟨2, ![2, 16000000]⟩
abbrev S500000 : Shape := ⟨1, ![500000]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S500000x1 : Shape := ⟨2, ![500000, 1]⟩
abbrev S500000x16 : Shape := ⟨2, ![500000, 16]⟩
abbrev S10000x32 : Shape := ⟨2, ![10000, 32]⟩
abbrev S10000x16 : Shape := ⟨2, ![10000, 16]⟩
abbrev S16000000x16 : Shape := ⟨2, ![16000000, 16]⟩
abbrev S1x16 : Shape := ⟨2, ![1, 16]⟩
abbrev S500000x2 : Shape := ⟨2, ![500000, 2]⟩
abbrev S5000x16 : Shape := ⟨2, ![5000, 16]⟩
abbrev S5000x1 : Shape := ⟨2, ![5000, 1]⟩
abbrev S5000x2 : Shape := ⟨2, ![5000, 2]⟩
abbrev S16000000x2 : Shape := ⟨2, ![16000000, 2]⟩
abbrev S1x2 : Shape := ⟨2, ![1, 2]⟩
abbrev S1024x2 : Shape := ⟨2, ![1024, 2]⟩
abbrev S2000x2 : Shape := ⟨2, ![2000, 2]⟩
abbrev S2000x1 : Shape := ⟨2, ![2000, 1]⟩
abbrev S1024x1 : Shape := ⟨2, ![1024, 1]⟩
abbrev S2000x1024 : Shape := ⟨2, ![2000, 1024]⟩
abbrev S1024 : Shape := ⟨1, ![1024]⟩

abbrev nBuf : Space → Nat
  | .hbm => 80
  | .vmem => 27
  | .smem => 0
  | _ => 0

abbrev bufTy : (tb : Table) → Fin (tcTables nBuf tb) → BufTy
  | .hbm, ⟨0, _⟩ => ⟨S500000x32, .f32⟩
  | .hbm, ⟨1, _⟩ => ⟨S32x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x16000000, .i32⟩
  | .hbm, ⟨6, _⟩ => ⟨S500000, .i32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .f32⟩
  | .hbm, ⟨12, _⟩ => ⟨S16000000, .f32⟩
  | .hbm, ⟨13, _⟩ => ⟨S_, .f32⟩
  | .hbm, ⟨14, _⟩ => ⟨S500000, .f32⟩
  | .hbm, ⟨15, _⟩ => ⟨S16000000x1, .i32⟩
  | .hbm, ⟨16, _⟩ => ⟨S500000, .f32⟩
  | .hbm, ⟨17, _⟩ => ⟨S_, .f32⟩
  | .hbm, ⟨18, _⟩ => ⟨S500000, .f32⟩
  | .hbm, ⟨19, _⟩ => ⟨S500000, .f32⟩
  | .hbm, ⟨20, _⟩ => ⟨S500000, .f32⟩
  | .hbm, ⟨21, _⟩ => ⟨S500000, .f32⟩
  | .hbm, ⟨22, _⟩ => ⟨S500000x1, .f32⟩
  | .hbm, ⟨23, _⟩ => ⟨S_, .i32⟩
  | .hbm, ⟨24, _⟩ => ⟨S16000000, .i32⟩
  | .hbm, ⟨25, _⟩ => ⟨S16000000, .i1⟩
  | .hbm, ⟨26, _⟩ => ⟨S_, .i32⟩
  | .hbm, ⟨27, _⟩ => ⟨S16000000, .i32⟩
  | .hbm, ⟨28, _⟩ => ⟨S16000000, .i32⟩
  | .hbm, ⟨29, _⟩ => ⟨S16000000, .i32⟩
  | .hbm, ⟨30, _⟩ => ⟨S16000000x1, .i32⟩
  | .hbm, ⟨31, _⟩ => ⟨S16000000, .f32⟩
  | .hbm, ⟨32, _⟩ => ⟨S_, .i32⟩
  | .hbm, ⟨33, _⟩ => ⟨S16000000, .i32⟩
  | .hbm, ⟨34, _⟩ => ⟨S16000000, .i1⟩
  | .hbm, ⟨35, _⟩ => ⟨S_, .i32⟩
  | .hbm, ⟨36, _⟩ => ⟨S16000000, .i32⟩
  | .hbm, ⟨37, _⟩ => ⟨S16000000, .i32⟩
  | .hbm, ⟨38, _⟩ => ⟨S16000000, .i32⟩
  | .hbm, ⟨39, _⟩ => ⟨S16000000x1, .i32⟩
  | .hbm, ⟨40, _⟩ => ⟨S16000000, .f32⟩
  | .hbm, ⟨41, _⟩ => ⟨S16000000, .f32⟩
  | .hbm, ⟨42, _⟩ => ⟨S500000x16, .f32⟩
  | .hbm, ⟨43, _⟩ => ⟨S_, .i32⟩
  | .hbm, ⟨44, _⟩ => ⟨S16000000, .i32⟩
  | .hbm, ⟨45, _⟩ => ⟨S16000000, .i1⟩
  | .hbm, ⟨46, _⟩ => ⟨S_, .i32⟩
  | .hbm, ⟨47, _⟩ => ⟨S16000000, .i32⟩
  | .hbm, ⟨48, _⟩ => ⟨S16000000, .i32⟩
  | .hbm, ⟨49, _⟩ => ⟨S16000000, .i32⟩
  | .hbm, ⟨50, _⟩ => ⟨S16000000x1, .i32⟩
  | .hbm, ⟨51, _⟩ => ⟨S16000000x16, .f32⟩
  | .hbm, ⟨52, _⟩ => ⟨S16000000x1, .f32⟩
  | .hbm, ⟨53, _⟩ => ⟨S16000000x16, .f32⟩
  | .hbm, ⟨54, _⟩ => ⟨S16000000x16, .f32⟩
  | .hbm, ⟨55, _⟩ => ⟨S_, .f32⟩
  | .hbm, ⟨56, _⟩ => ⟨S500000x16, .f32⟩
  | .hbm, ⟨57, _⟩ => ⟨S16000000x1, .i32⟩
  | .hbm, ⟨58, _⟩ => ⟨S500000x16, .f32⟩
  | .hbm, ⟨59, _⟩ => ⟨S1x16, .f32⟩
  | .hbm, ⟨60, _⟩ => ⟨S500000x2, .f32⟩
  | .hbm, ⟨61, _⟩ => ⟨S_, .i32⟩
  | .hbm, ⟨62, _⟩ => ⟨S16000000, .i32⟩
  | .hbm, ⟨63, _⟩ => ⟨S16000000, .i1⟩
  | .hbm, ⟨64, _⟩ => ⟨S_, .i32⟩
  | .hbm, ⟨65, _⟩ => ⟨S16000000, .i32⟩
  | .hbm, ⟨66, _⟩ => ⟨S16000000, .i32⟩
  | .hbm, ⟨67, _⟩ => ⟨S16000000, .i32⟩
  | .hbm, ⟨68, _⟩ => ⟨S16000000x1, .i32⟩
  | .hbm, ⟨69, _⟩ => ⟨S16000000x2, .f32⟩
  | .hbm, ⟨70, _⟩ => ⟨S16000000x1, .f32⟩
  | .hbm, ⟨71, _⟩ => ⟨S16000000x2, .f32⟩
  | .hbm, ⟨72, _⟩ => ⟨S16000000x2, .f32⟩
  | .hbm, ⟨73, _⟩ => ⟨S_, .f32⟩
  | .hbm, ⟨74, _⟩ => ⟨S500000x2, .f32⟩
  | .hbm, ⟨75, _⟩ => ⟨S16000000x1, .i32⟩
  | .hbm, ⟨76, _⟩ => ⟨S500000x2, .f32⟩
  | .hbm, ⟨77, _⟩ => ⟨S1x2, .f32⟩
  | .hbm, ⟨78, _⟩ => ⟨S500000x1, .i32⟩
  | .hbm, ⟨79, _⟩ => ⟨S1024x2, .f32⟩
  | .local _ .vmem, ⟨0, _⟩ => ⟨S10000x32, .f32⟩
  | .local _ .vmem, ⟨1, _⟩ => ⟨S10000x32, .f32⟩
  | .local _ .vmem, ⟨2, _⟩ => ⟨S32x16, .f32⟩
  | .local _ .vmem, ⟨3, _⟩ => ⟨S10000x16, .f32⟩
  | .local _ .vmem, ⟨4, _⟩ => ⟨S10000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x2, .f32⟩
  | .local _ .vmem, ⟨13, _⟩ => ⟨S5000x2, .f32⟩
  | .local _ .vmem, ⟨14, _⟩ => ⟨S5000x2, .f32⟩
  | .local _ .vmem, ⟨15, _⟩ => ⟨S2000x2, .f32⟩
  | .local _ .vmem, ⟨16, _⟩ => ⟨S2000x2, .f32⟩
  | .local _ .vmem, ⟨17, _⟩ => ⟨S2000x2, .f32⟩
  | .local _ .vmem, ⟨18, _⟩ => ⟨S2000x2, .f32⟩
  | .local _ .vmem, ⟨19, _⟩ => ⟨S2000x1, .f32⟩
  | .local _ .vmem, ⟨20, _⟩ => ⟨S2000x1, .f32⟩
  | .local _ .vmem, ⟨21, _⟩ => ⟨S1x2, .f32⟩
  | .local _ .vmem, ⟨22, _⟩ => ⟨S2000x1, .i32⟩
  | .local _ .vmem, ⟨23, _⟩ => ⟨S2000x1, .i32⟩
  | .local _ .vmem, ⟨24, _⟩ => ⟨S1024x2, .f32⟩
  | .local _ .vmem, ⟨25, _⟩ => ⟨S1024x2, .f32⟩
  | .local _ .vmem, ⟨26, _⟩ => ⟨S1024x1, .f32⟩
  | _, _ => ⟨S500000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![250], ![false]⟩

def k2_cond2 (i : grid2.Coords) : BitVec 1 :=
  let arg0 : BitVec 32 := BitVec.ofNat 32 (i 0).val
  let c249_i32 : BitVec 32 := 249#32
  let v36 : BitVec 1 := Scalar.cmpi .eq arg0 c249_i32
  let v37 : BitVec 32 := Scalar.extui v36
  let c0_i32_20 : BitVec 32 := 0#32
  let v38 : BitVec 1 := Scalar.cmpi .ne v37 c0_i32_20
  v38

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1024x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  shapeCasts_S500000_S500000x1 : S500000.ShapeCasts S500000x1
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S16000000x1_S16000000x16_0_1 : S16000000x1.BroadcastsInDim S16000000x16 (![0, 1] : Fin 2 → Fin S16000000x16.rank)
  bcast_S_S500000x16 : S_.BroadcastsInDim S500000x16 (![] : Fin 0 → Fin S500000x16.rank)
  shapeCasts_S16_S1x16 : S16.ShapeCasts S1x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S16000000x1_S16000000x2_0_1 : S16000000x1.BroadcastsInDim S16000000x2 (![0, 1] : Fin 2 → Fin S16000000x2.rank)
  bcast_S_S500000x2 : S_.BroadcastsInDim S500000x2 (![] : Fin 0 → Fin S500000x2.rank)
  shapeCasts_S2_S1x2 : S2.ShapeCasts S1x2
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x2 : S2000x1.Broadcasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  iota_S2000x1024_d1_w32 : S2000x1024.Iotas .tc 32 [1]
  broadcasts_S2000x1_S2000x1024 : S2000x1.Broadcasts S2000x1024
  natLt_1_32 : 1 < 32
  broadcasts_S1024x1_S1024x2 : S1024x1.Broadcasts S1024x2
  reduces_S1024x2_S1024 : S1024x2.Reduces [1] S1024
  shapeCasts_S1024_S1024x1 : S1024.ShapeCasts S1024x1
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]
  dot_S10000x32_S32x16_S10000x16_1_0_0_1_n_n_wf : DotDims.WF S10000x32 S32x16 S10000x16 [1] [0] [0] [1] [] []
  gather_S500000x16_S16000000x1_S16000000x16_1_0_n_n_0_1_116_wf : GatherDims.WF S500000x16 S16000000x1 S16000000x16 [1] [0] [] [0] [] 1 ![1, 16]
  scatter_S500000x16_S16000000x1_S16000000x16_1_0_0_1_wf : ScatterDims.WF S500000x16 S16000000x1 S16000000x16 [1] [0] [0] 1
  dot_S5000x16_S16x2_S5000x2_1_0_0_1_n_n_wf : DotDims.WF S5000x16 S16x2 S5000x2 [1] [0] [0] [1] [] []
  gather_S500000x2_S16000000x1_S16000000x2_1_0_n_n_0_1_12_wf : GatherDims.WF S500000x2 S16000000x1 S16000000x2 [1] [0] [] [0] [] 1 ![1, 2]
  scatter_S500000x2_S16000000x1_S16000000x2_1_0_0_1_wf : ScatterDims.WF S500000x2 S16000000x1 S16000000x2 [1] [0] [0] 1
  dot_S2000x1024_S2000x2_S1024x2_0_0_1_1_n_n_wf : DotDims.WF S2000x1024 S2000x2 S1024x2 [0] [0] [1] [1] [] []
  dot_S2000x1024_S2000x1_S1024x1_0_0_1_1_n_n_wf : DotDims.WF S2000x1024 S2000x1 S1024x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S500000x32.size a
  hwx0_0 : ∀ i : grid0.Coords, EltTy.bits .f32 = 32 ∨ (Rect.block (s := S500000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .f32 = 32 ∨ (Rect.block (s := S32x16) S32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S500000x16.size a
  hwx0_2 : ∀ i : grid0.Coords, EltTy.bits .f32 = 32 ∨ (Rect.block (s := S500000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S500000x16.size a
  hwx1_0 : ∀ i : grid1.Coords, EltTy.bits .f32 = 32 ∨ (Rect.block (s := S500000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S500000x16.size a
  hwx1_1 : ∀ i : grid1.Coords, EltTy.bits .f32 = 32 ∨ (Rect.block (s := S500000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S500000x1.size a
  hwx1_2 : ∀ i : grid1.Coords, EltTy.bits .f32 = 32 ∨ (Rect.block (s := S500000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x2.size a ≤ S16x2.size a
  hwx1_4 : ∀ i : grid1.Coords, EltTy.bits .f32 = 32 ∨ (Rect.block (s := S16x2) S16x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S500000x2.size a
  hwx1_5 : ∀ i : grid1.Coords, EltTy.bits .f32 = 32 ∨ (Rect.block (s := S500000x2) S5000x2.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2.size a ≤ S500000x2.size a
  hwx2_0 : ∀ i : grid2.Coords, EltTy.bits .f32 = 32 ∨ (Rect.block (s := S500000x2) S2000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x2.size a ≤ S500000x2.size a
  hwx2_1 : ∀ i : grid2.Coords, EltTy.bits .f32 = 32 ∨ (Rect.block (s := S500000x2) S2000x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S500000x1.size a
  hwx2_2 : ∀ i : grid2.Coords, EltTy.bits .f32 = 32 ∨ (Rect.block (s := S500000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S500000x1.size a
  hwx2_4 : ∀ i : grid2.Coords, EltTy.bits .i32 = 32 ∨ (Rect.block (s := S500000x1) S2000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x2.size a ≤ S1024x2.size a
  hwx2_5 : ∀ i : grid2.Coords, EltTy.bits .f32 = 32 ∨ (Rect.block (s := S1024x2) S1024x2.size (cc2_transform_5 i) (hinb2_5 i)).WholeWords (EltTy.packing .f32)

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S500000x16_S16000000x1_S16000000x16_1_0_n_n_0_1_116 : GatherDims S500000x16 S16000000x1 S16000000x16 where
  offsetDims := [1]
  collapsedSliceDims := [0]
  operandBatchingDims := []
  startIndicesBatchingDims := []
  startIndexMap := [0]
  indexVectorDim := 1
  sliceSizes := ![1, 16]
  wf := gather_S500000x16_S16000000x1_S16000000x16_1_0_n_n_0_1_116_wf
def scatter_S500000x16_S16000000x1_S16000000x16_1_0_0_1 : ScatterDims S500000x16 S16000000x1 S16000000x16 where
  updateWindowDims := [1]
  insertedWindowDims := [0]
  scatterDimsToOperandDims := [0]
  indexVectorDim := 1
  wf := scatter_S500000x16_S16000000x1_S16000000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S500000x2_S16000000x1_S16000000x2_1_0_n_n_0_1_12 : GatherDims S500000x2 S16000000x1 S16000000x2 where
  offsetDims := [1]
  collapsedSliceDims := [0]
  operandBatchingDims := []
  startIndicesBatchingDims := []
  startIndexMap := [0]
  indexVectorDim := 1
  sliceSizes := ![1, 2]
  wf := gather_S500000x2_S16000000x1_S16000000x2_1_0_n_n_0_1_12_wf
def scatter_S500000x2_S16000000x1_S16000000x2_1_0_0_1 : ScatterDims S500000x2 S16000000x1 S16000000x2 where
  updateWindowDims := [1]
  insertedWindowDims := [0]
  scatterDimsToOperandDims := [0]
  indexVectorDim := 1
  wf := scatter_S500000x2_S16000000x1_S16000000x2_1_0_0_1_wf
def dot_S2000x1024_S2000x2_S1024x2_0_0_1_1_n_n : DotDims S2000x1024 S2000x2 S1024x2 where
  lhsContracting := [0]
  rhsContracting := [0]
  lhsNonContracting := [1]
  rhsNonContracting := [1]
  lhsBatch := []
  rhsBatch := []
  wf := dot_S2000x1024_S2000x2_S1024x2_0_0_1_1_n_n_wf
def dot_S2000x1024_S2000x1_S1024x1_0_0_1_1_n_n : DotDims S2000x1024 S2000x1 S1024x1 where
  lhsContracting := [0]
  rhsContracting := [0]
  lhsNonContracting := [1]
  rhsNonContracting := [1]
  lhsBatch := []
  rhsBatch := []
  wf := dot_S2000x1024_S2000x1_S1024x1_0_0_1_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S16x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S2000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1024x2.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S500000x32 : Shape := ⟨2, ![500000, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S2x16000000 : Shape := ⟨2, ![2, 16000000]⟩
abbrev S500000 : Shape := ⟨1, ![500000]⟩
abbrev S1x16000000 : Shape := ⟨2, ![1, 16000000]⟩
abbrev S16000000 : Shape := ⟨1, ![16000000]⟩
abbrev S500000x16 : Shape := ⟨2, ![500000, 16]⟩
abbrev S_ : Shape := ⟨0, ![]⟩
abbrev S16000000x1 : Shape := ⟨2, ![16000000, 1]⟩
abbrev S16000000x16 : Shape := ⟨2, ![16000000, 16]⟩
abbrev S500000x1 : Shape := ⟨2, ![500000, 1]⟩
abbrev S1x16 : Shape := ⟨2, ![1, 16]⟩
abbrev S500000x2 : Shape := ⟨2, ![500000, 2]⟩
abbrev S16000000x2 : Shape := ⟨2, ![16000000, 2]⟩
abbrev S1x2 : Shape := ⟨2, ![1, 2]⟩
abbrev S1024 : Shape := ⟨1, ![1024]⟩
abbrev S1024x2 : Shape := ⟨2, ![1024, 2]⟩
abbrev S1024x1 : Shape := ⟨2, ![1024, 1]⟩

abbrev nBuf : Space → Nat
  | .hbm => 153
  | .vmem => 0
  | .smem => 0
  | _ => 0

abbrev hbmTy0_0 (i : Nat) : BufTy := match i % 128 with
  | 0 => ⟨S500000x32, .f32⟩
  | 1 => ⟨S32x16, .f32⟩
  | 2 => ⟨S16, .f32⟩
  | 3 => ⟨S16x2, .f32⟩
  | 4 => ⟨S2, .f32⟩
  | 5 => ⟨S2x16000000, .i32⟩
  | 6 => ⟨S500000, .i32⟩
  | 7 => ⟨S1x16000000, .i32⟩
  | 8 => ⟨S16000000, .i32⟩
  | 9 => ⟨S1x16000000, .i32⟩
  | 10 => ⟨S16000000, .i32⟩
  | 11 => ⟨S500000x16, .f32⟩
  | 12 => ⟨S_, .f32⟩
  | 13 => ⟨S16000000, .f32⟩
  | 14 => ⟨S_, .f32⟩
  | 15 => ⟨S500000, .f32⟩
  | 16 => ⟨S16000000x1, .i32⟩
  | 17 => ⟨S500000, .f32⟩
  | 18 => ⟨S_, .f32⟩
  | 19 => ⟨S500000, .f32⟩
  | 20 => ⟨S500000, .f32⟩
  | 21 => ⟨S500000, .f32⟩
  | 22 => ⟨S_, .i32⟩
  | 23 => ⟨S16000000, .i32⟩
  | 24 => ⟨S16000000, .i1⟩
  | 25 => ⟨S_, .i32⟩
  | 26 => ⟨S16000000, .i32⟩
  | 27 => ⟨S16000000, .i32⟩
  | 28 => ⟨S16000000, .i32⟩
  | 29 => ⟨S16000000x1, .i32⟩
  | 30 => ⟨S16000000, .f32⟩
  | 31 => ⟨S_, .i32⟩
  | 32 => ⟨S16000000, .i32⟩
  | 33 => ⟨S16000000, .i1⟩
  | 34 => ⟨S_, .i32⟩
  | 35 => ⟨S16000000, .i32⟩
  | 36 => ⟨S16000000, .i32⟩
  | 37 => ⟨S16000000, .i32⟩
  | 38 => ⟨S16000000x1, .i32⟩
  | 39 => ⟨S16000000, .f32⟩
  | 40 => ⟨S16000000, .f32⟩
  | 41 => ⟨S_, .i32⟩
  | 42 => ⟨S16000000, .i32⟩
  | 43 => ⟨S16000000, .i1⟩
  | 44 => ⟨S_, .i32⟩
  | 45 => ⟨S16000000, .i32⟩
  | 46 => ⟨S16000000, .i32⟩
  | 47 => ⟨S16000000, .i32⟩
  | 48 => ⟨S16000000x1, .i32⟩
  | 49 => ⟨S16000000x16, .f32⟩
  | 50 => ⟨S16000000x1, .f32⟩
  | 51 => ⟨S16000000x16, .f32⟩
  | 52 => ⟨S16000000x16, .f32⟩
  | 53 => ⟨S_, .f32⟩
  | 54 => ⟨S500000x16, .f32⟩
  | 55 => ⟨S16000000x1, .i32⟩
  | 56 => ⟨S500000x16, .f32⟩
  | 57 => ⟨S500000, .f32⟩
  | 58 => ⟨S500000x1, .f32⟩
  | 59 => ⟨S500000x16, .f32⟩
  | 60 => ⟨S500000x16, .f32⟩
  | 61 => ⟨S500000x16, .f32⟩
  | 62 => ⟨S1x16, .f32⟩
  | 63 => ⟨S500000x16, .f32⟩
  | 64 => ⟨S500000x16, .f32⟩
  | 65 => ⟨S_, .f32⟩
  | 66 => ⟨S500000x16, .f32⟩
  | 67 => ⟨S500000x16, .f32⟩
  | 68 => ⟨S500000x2, .f32⟩
  | 69 => ⟨S_, .f32⟩
  | 70 => ⟨S16000000, .f32⟩
  | 71 => ⟨S_, .f32⟩
  | 72 => ⟨S500000, .f32⟩
  | 73 => ⟨S16000000x1, .i32⟩
  | 74 => ⟨S500000, .f32⟩
  | 75 => ⟨S_, .f32⟩
  | 76 => ⟨S500000, .f32⟩
  | 77 => ⟨S500000, .f32⟩
  | 78 => ⟨S500000, .f32⟩
  | 79 => ⟨S_, .i32⟩
  | 80 => ⟨S16000000, .i32⟩
  | 81 => ⟨S16000000, .i1⟩
  | 82 => ⟨S_, .i32⟩
  | 83 => ⟨S16000000, .i32⟩
  | 84 => ⟨S16000000, .i32⟩
  | 85 => ⟨S16000000, .i32⟩
  | 86 => ⟨S16000000x1, .i32⟩
  | 87 => ⟨S16000000, .f32⟩
  | 88 => ⟨S_, .i32⟩
  | 89 => ⟨S16000000, .i32⟩
  | 90 => ⟨S16000000, .i1⟩
  | 91 => ⟨S_, .i32⟩
  | 92 => ⟨S16000000, .i32⟩
  | 93 => ⟨S16000000, .i32⟩
  | 94 => ⟨S16000000, .i32⟩
  | 95 => ⟨S16000000x1, .i32⟩
  | 96 => ⟨S16000000, .f32⟩
  | 97 => ⟨S16000000, .f32⟩
  | 98 => ⟨S_, .i32⟩
  | 99 => ⟨S16000000, .i32⟩
  | 100 => ⟨S16000000, .i1⟩
  | 101 => ⟨S_, .i32⟩
  | 102 => ⟨S16000000, .i32⟩
  | 103 => ⟨S16000000, .i32⟩
  | 104 => ⟨S16000000, .i32⟩
  | 105 => ⟨S16000000x1, .i32⟩
  | 106 => ⟨S16000000x2, .f32⟩
  | 107 => ⟨S16000000x1, .f32⟩
  | 108 => ⟨S16000000x2, .f32⟩
  | 109 => ⟨S16000000x2, .f32⟩
  | 110 => ⟨S_, .f32⟩
  | 111 => ⟨S500000x2, .f32⟩
  | 112 => ⟨S16000000x1, .i32⟩
  | 113 => ⟨S500000x2, .f32⟩
  | 114 => ⟨S500000, .f32⟩
  | 115 => ⟨S500000x1, .f32⟩
  | 116 => ⟨S500000x2, .f32⟩
  | 117 => ⟨S500000x2, .f32⟩
  | 118 => ⟨S500000x2, .f32⟩
  | 119 => ⟨S1x2, .f32⟩
  | 120 => ⟨S500000x2, .f32⟩
  | 121 => ⟨S500000x2, .f32⟩
  | 122 => ⟨S_, .f32⟩
  | 123 => ⟨S500000, .f32⟩
  | 124 => ⟨S_, .f32⟩
  | 125 => ⟨S1024, .f32⟩
  | 126 => ⟨S500000x1, .i32⟩
  | 127 => ⟨S1024, .f32⟩
  | _ => ⟨S500000x32, .f32⟩

abbrev hbmTy0_1 (i : Nat) : BufTy := match i % 128 with
  | 0 => ⟨S_, .f32⟩
  | 1 => ⟨S1024x2, .f32⟩
  | 2 => ⟨S500000x1, .i32⟩
  | 3 => ⟨S1024x2, .f32⟩
  | 4 => ⟨S_, .f32⟩
  | 5 => ⟨S1024, .f32⟩
  | 6 => ⟨S1024, .f32⟩
  | 7 => ⟨S1024x1, .f32⟩
  | 8 => ⟨S1024x2, .f32⟩
  | 9 => ⟨S1024x2, .f32⟩
  | 10 => ⟨S_, .f32⟩
  | 11 => ⟨S1024, .f32⟩
  | 12 => ⟨S_, .f32⟩
  | 13 => ⟨S1024, .f32⟩
  | 14 => ⟨S1024, .f32⟩
  | 15 => ⟨S1024x1, .f32⟩
  | 16 => ⟨S1024x2, .f32⟩
  | 17 => ⟨S1024x2, .f32⟩
  | 18 => ⟨S1024x2, .f32⟩
  | 19 => ⟨S_, .f32⟩
  | 20 => ⟨S1024, .f32⟩
  | 21 => ⟨S1024x1, .f32⟩
  | 22 => ⟨S1024x1, .f32⟩
  | 23 => ⟨S1024x2, .f32⟩
  | 24 => ⟨S1024x2, .f32⟩
  | _ => ⟨S500000x32, .f32⟩

abbrev hbmTy (i : Nat) : BufTy := match i / 128 with
  | 0 => hbmTy0_0 i
  | 1 => hbmTy0_1 i
  | _ => ⟨S500000x32, .f32⟩

abbrev bufTy : (tb : Table) → Fin (tcTables nBuf tb) → BufTy
  | .hbm, ⟨i, _⟩ => hbmTy i
  | _, _ => ⟨S500000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_18 : Ref sig .tc := ⟨.hbm, 122, rfl⟩
abbrev main_v93 : Ref sig .tc := ⟨.hbm, 123, rfl⟩
abbrev main_cst_19 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_21 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_call1_cst : Ref sig .tc := ⟨.hbm, 138, rfl⟩
abbrev main_call1_v0 : Ref sig .tc := ⟨.hbm, 139, rfl⟩
abbrev main_call1_cst_0 : Ref sig .tc := ⟨.hbm, 140, rfl⟩
abbrev main_call1_v1 : Ref sig .tc := ⟨.hbm, 141, rfl⟩
abbrev main_call1_v2 : Ref sig .tc := ⟨.hbm, 142, rfl⟩
abbrev main_call1_v3 : Ref sig .tc := ⟨.hbm, 143, rfl⟩
abbrev main_call1_v4 : Ref sig .tc := ⟨.hbm, 144, rfl⟩
abbrev main_call1_v5 : Ref sig .tc := ⟨.hbm, 145, rfl⟩
abbrev main_call1_v6 : Ref sig .tc := ⟨.hbm, 146, rfl⟩
abbrev main_call1_cst_1 : Ref sig .tc := ⟨.hbm, 147, rfl⟩
abbrev main_call1_v7 : Ref sig .tc := ⟨.hbm, 148, rfl⟩
abbrev main_call1_v8 : Ref sig .tc := ⟨.hbm, 149, rfl⟩
abbrev main_call1_v9 : Ref sig .tc := ⟨.hbm, 150, rfl⟩
abbrev main_call1_v10 : Ref sig .tc := ⟨.hbm, 151, rfl⟩
abbrev main_v105 : Ref sig .tc := ⟨.hbm, 152, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  bcast_S16000000x1_S16000000x16_0_1 : S16000000x1.BroadcastsInDim S16000000x16 (![0, 1] : Fin 2 → Fin S16000000x16.rank)
  bcast_S_S500000x16 : S_.BroadcastsInDim S500000x16 (![] : Fin 0 → Fin S500000x16.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S16000000x1_S16000000x2_0_1 : S16000000x1.BroadcastsInDim S16000000x2 (![0, 1] : Fin 2 → Fin S16000000x2.rank)
  bcast_S_S500000x2 : S_.BroadcastsInDim S500000x2 (![] : Fin 0 → Fin S500000x2.rank)
  bcast_S500000x1_S500000x2_0_1 : S500000x1.BroadcastsInDim S500000x2 (![0, 1] : Fin 2 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  bcast_S_S1024 : S_.BroadcastsInDim S1024 (![] : Fin 0 → Fin S1024.rank)
  bcast_S_S1024x2 : S_.BroadcastsInDim S1024x2 (![] : Fin 0 → Fin S1024x2.rank)
  bcast_S1024_S1024x1_0 : S1024.BroadcastsInDim S1024x1 (![0] : Fin 1 → Fin S1024x1.rank)
  bcast_S1024x1_S1024x2_0_1 : S1024x1.BroadcastsInDim S1024x2 (![0, 1] : Fin 2 → Fin S1024x2.rank)
  reducesTo_S1024x2_S1024_d1 : S1024x2.ReducesTo [1] S1024
  h_S_ : 0 < S_.numel
  dot_S500000x32_S32x16_S500000x16_1_0_0_1_n_n_wf : DotDims.WF S500000x32 S32x16 S500000x16 [1] [0] [0] [1] [] []
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]
  gather_S500000x16_S16000000x1_S16000000x16_1_0_n_n_0_1_116_wf : GatherDims.WF S500000x16 S16000000x1 S16000000x16 [1] [0] [] [0] [] 1 ![1, 16]
  scatter_S500000x16_S16000000x1_S16000000x16_1_0_0_1_wf : ScatterDims.WF S500000x16 S16000000x1 S16000000x16 [1] [0] [0] 1
  dot_S500000x16_S16x2_S500000x2_1_0_0_1_n_n_wf : DotDims.WF S500000x16 S16x2 S500000x2 [1] [0] [0] [1] [] []
  gather_S500000x2_S16000000x1_S16000000x2_1_0_n_n_0_1_12_wf : GatherDims.WF S500000x2 S16000000x1 S16000000x2 [1] [0] [] [0] [] 1 ![1, 2]
  scatter_S500000x2_S16000000x1_S16000000x2_1_0_0_1_wf : ScatterDims.WF S500000x2 S16000000x1 S16000000x2 [1] [0] [0] 1
  scatter_S1024_S500000x1_S500000_n_0_0_1_wf : ScatterDims.WF S1024 S500000x1 S500000 [] [0] [0] 1
  scatter_S1024x2_S500000x1_S500000x2_1_0_0_1_wf : ScatterDims.WF S1024x2 S500000x1 S500000x2 [1] [0] [0] 1

variable [Facts₀]

def dot_S500000x32_S32x16_S500000x16_1_0_0_1_n_n : DotDims S500000x32 S32x16 S500000x16 where
  lhsContracting := [1]
  rhsContracting := [0]
  lhsNonContracting := [0]
  rhsNonContracting := [1]
  lhsBatch := []
  rhsBatch := []
  wf := dot_S500000x32_S32x16_S500000x16_1_0_0_1_n_n_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def gather_S500000x16_S16000000x1_S16000000x16_1_0_n_n_0_1_116 : GatherDims S500000x16 S16000000x1 S16000000x16 where
  offsetDims := [1]
  collapsedSliceDims := [0]
  operandBatchingDims := []
  startIndicesBatchingDims := []
  startIndexMap := [0]
  indexVectorDim := 1
  sliceSizes := ![1, 16]
  wf := gather_S500000x16_S16000000x1_S16000000x16_1_0_n_n_0_1_116_wf
def scatter_S500000x16_S16000000x1_S16000000x16_1_0_0_1 : ScatterDims S500000x16 S16000000x1 S16000000x16 where
  updateWindowDims := [1]
  insertedWindowDims := [0]
  scatterDimsToOperandDims := [0]
  indexVectorDim := 1
  wf := scatter_S500000x16_S16000000x1_S16000000x16_1_0_0_1_wf
def dot_S500000x16_S16x2_S500000x2_1_0_0_1_n_n : DotDims S500000x16 S16x2 S500000x2 where
  lhsContracting := [1]
  rhsContracting := [0]
  lhsNonContracting := [0]
  rhsNonContracting := [1]
  lhsBatch := []
  rhsBatch := []
  wf := dot_S500000x16_S16x2_S500000x2_1_0_0_1_n_n_wf
def gather_S500000x2_S16000000x1_S16000000x2_1_0_n_n_0_1_12 : GatherDims S500000x2 S16000000x1 S16000000x2 where
  offsetDims := [1]
  collapsedSliceDims := [0]
  operandBatchingDims := []
  startIndicesBatchingDims := []
  startIndexMap := [0]
  indexVectorDim := 1
  sliceSizes := ![1, 2]
  wf := gather_S500000x2_S16000000x1_S16000000x2_1_0_n_n_0_1_12_wf
def scatter_S500000x2_S16000000x1_S16000000x2_1_0_0_1 : ScatterDims S500000x2 S16000000x1 S16000000x2 where
  updateWindowDims := [1]
  insertedWindowDims := [0]
  scatterDimsToOperandDims := [0]
  indexVectorDim := 1
  wf := scatter_S500000x2_S16000000x1_S16000000x2_1_0_0_1_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def scatter_S1024x2_S500000x1_S500000x2_1_0_0_1 : ScatterDims S1024x2 S500000x1 S500000x2 where
  updateWindowDims := [1]
  insertedWindowDims := [0]
  scatterDimsToOperandDims := [0]
  indexVectorDim := 1
  wf := scatter_S1024x2_S500000x1_S500000x2_1_0_0_1_wf

class Facts : Prop extends Facts₀ where

variable [Facts]
-- ==== Proof.K.R0.lean ====
/-
  Region 0, the first feature transform `h1 = x · W1`, one block of 10000 rows per grid point: the body loads the
  row block and the whole weight matrix, multiplies them, and stores the product over its whole output block. Stated
  at any contents `V` of the buffers when the region is entered: each window's block at a point, what each buffer
  holds after the body, and that the body run at a point takes the one to the other (the rows of a product depend on
  the same rows of the left factor only, so a point touches its own rows).
-/
import proofs.«421952_j37563783971339_2_alg».proof.Proof.Gen.Kernel.Launch
import proofs.«421952_j37563783971339_2_alg».proof.Proof.Gen.Kernel.Skeleton
import proofs.«421952_j37563783971339_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: `h1 = x · W1`, one block of 10000 rows per grid point -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_0 : Rect S10000x32 := Rect.unit (s := S10000x32) ![0, 0] S10000x32.size inb_S10000x32_S10000x32_0_0
abbrev r0_1 : Rect S32x16 := Rect.unit (s := S32x16) ![0, 0] S32x16.size inb_S32x16_S32x16_0_0
abbrev r0_2 : Rect S10000x16 := Rect.unit (s := S10000x16) ![0, 0] S10000x16.size inb_S10000x16_S10000x16_0_0

/-- What the body leaves in the output window's buffer: the block product of the row block and the weights. -/
def out0_2 (x0 : Vec F S10000x32 .f32) (x1 : Vec F S32x16 .f32) : Vec F S10000x16 .f32 :=
  View.canon [⟨r0_2, k0_pay1 (View.ld x0 r0_0) (View.ld x1 r0_1)⟩]

/-- The proof data of pipeline 0 on core `c`: the arrays as the region finds them; after the body each input's
    buffer at its block and the output's at the block product; the class-A invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

/-! ## Each input's current staging buffer holds its block -/

/-- Input window 0's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, one block for the whole grid, brought in at the first point only): where it is
    not fetched its block index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The output's one store covers its buffer -/

theorem cover0_2 (p0 : Vec F S10000x16 .f32) (y : S10000x16.Idx) :
    ∃ pc ∈ ([⟨r0_2, p0⟩] : List (View.Piece (Elt F) S10000x16 .f32)), y ∈ pc.1.set :=
  View.cover_of_tiled [⟨r0_2, p0⟩] S10000x16.size (by rfl) y

/-! ## The body's triple -/

set_option maxHeartbeats 1000000 in
/-- The kernel body on whole staging memrefs, the inputs' at read contents `x0`, `x1` and the output's at anything,
    runs to the continuation holding the inputs' as they were and the output's at `out0_2 x0 x1`: it loads the two
    inputs, loads the output buffer (the value is not used), and stores the product over the whole buffer. -/
theorem sound_kernel0 (c : Dev nD) (E : Set ℕ) (i : grid0.Coords)
    (arg1 : Memref sig .tc .vmem S10000x32 .f32) (harg1 : arg1.IsWhole)
    (arg2 : Memref sig .tc .vmem S32x16 .f32) (harg2 : arg2.IsWhole)
    (arg3 : Memref sig .tc .vmem S10000x16 .f32) (harg3 : arg3.IsWhole)
    (x0 : Vec F S10000x32 .f32) (x1 : Vec F S32x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul1_kernel i arg1 harg1 arg2 harg2 arg3 harg3) K := by
  simp only [cc0__matmul1_kernel_eq_skeleton]; unfold cc0__matmul1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1, the first layer's combine and the second feature transform,
  `h2 = max(agg1 + h1 · dinv² + b1, 0) · W2`, one block of 5000 rows per grid point: the body loads the blocks of
  the aggregated messages, of `h1` and of the squared inverse degrees (a column), the bias (a row) and the weights,
  combines them entry by entry, clamps below at zero, multiplies, and stores the product over its whole output block.
  Stated at any contents `V` of the buffers when the region is entered.
-/
import proofs.«421952_j37563783971339_2_alg».proof.Proof.Gen.Kernel.Launch
import proofs.«421952_j37563783971339_2_alg».proof.Proof.Gen.Kernel.Skeleton
import proofs.«421952_j37563783971339_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: `h2 = relu(agg1 + h1 · dinv² + b1) · W2`, one block of 5000 rows per grid point -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_0 : Rect S5000x16 := Rect.unit (s := S5000x16) ![0, 0] S5000x16.size inb_S5000x16_S5000x16_0_0
abbrev r1_2 : Rect S5000x1 := Rect.unit (s := S5000x1) ![0, 0] S5000x1.size inb_S5000x1_S5000x1_0_0
abbrev r1_3 : Rect S1x16 := Rect.unit (s := S1x16) ![0, 0] S1x16.size inb_S1x16_S1x16_0_0
abbrev r1_4 : Rect S16x2 := Rect.unit (s := S16x2) ![0, 0] S16x2.size inb_S16x2_S16x2_0_0
abbrev r1_5 : Rect S5000x2 := Rect.unit (s := S5000x2) ![0, 0] S5000x2.size inb_S5000x2_S5000x2_0_0

/-- What the body leaves in the output window's buffer, from the five input blocks. -/
def out1_5 (x0 : Vec F S5000x16 .f32) (x1 : Vec F S5000x16 .f32) (x2 : Vec F S5000x1 .f32) (x3 : Vec F S1x16 .f32) (x4 : Vec F S16x2 .f32) : Vec F S5000x2 .f32 :=
  View.canon [⟨r1_5, k1_pay1 (View.ld x0 r1_0) (View.ld x1 r1_0) (View.ld x2 r1_2) (View.ld x3 r1_3) (View.ld x4 r1_4)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-! ## Each input's current staging buffer holds its block -/

/-- Input window 0's current staging buffer holds its block at every point, for any proof data whose array is
    `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the bias row, one block for the whole grid, brought in at the first point only): where it is
    not fetched its block index has not moved, so the buffer still holds this point's block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the second layer's weights, one block for the whole grid), likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The output's one store covers its buffer -/

theorem cover1_5 (p0 : Vec F S5000x2 .f32) (y : S5000x2.Idx) :
    ∃ pc ∈ ([⟨r1_5, p0⟩] : List (View.Piece (Elt F) S5000x2 .f32)), y ∈ pc.1.set :=
  View.cover_of_tiled [⟨r1_5, p0⟩] S5000x2.size (by rfl) y

/-! ## The body's triple -/

set_option maxHeartbeats 1000000 in
/-- The kernel body on whole staging memrefs, the five inputs' at read contents `x0` … `x4` and the output's at
    anything, runs to the continuation holding the inputs' as they were and the output's at `out1_5` of them: it
    loads the five inputs, loads the output buffer (the value is not used), and stores the result over the whole
    buffer. -/
theorem sound_kernel1 (c : Dev nD) (E : Set ℕ) (i : grid1.Coords)
    (arg1 : Memref sig .tc .vmem S5000x16 .f32) (harg1 : arg1.IsWhole)
    (arg2 : Memref sig .tc .vmem S5000x16 .f32) (harg2 : arg2.IsWhole)
    (arg3 : Memref sig .tc .vmem S5000x1 .f32) (harg3 : arg3.IsWhole)
    (arg4 : Memref sig .tc .vmem S1x16 .f32) (harg4 : arg4.IsWhole)
    (arg5 : Memref sig .tc .vmem S16x2 .f32) (harg5 : arg5.IsWhole)
    (arg6 : Memref sig .tc .vmem S5000x2 .f32) (harg6 : arg6.IsWhole)
    (x0 : Vec F S5000x16 .f32) (x1 : Vec F S5000x16 .f32) (x2 : Vec F S5000x1 .f32) (x3 : Vec F S1x16 .f32) (x4 : Vec F S16x2 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine1_kernel i arg1 harg1 arg2 harg2 arg3 harg3 arg4 harg4 arg5 harg5 arg6 harg6) K := by
  simp only [cc1__combine1_kernel_eq_skeleton]; unfold cc1__combine1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Runs.lean ====
/-
  Region 2, the per-graph mean pooling and the row-wise log-softmax, over 250 grid points of 2000 nodes each: what
  its three cases share. The body branches twice on the grid position: at the first point it zeroes its two
  accumulators (the per-graph sums, 1024 × 2, and the per-graph counts, 1024 × 1); at every point it adds the
  block's contribution to both; at the last point it divides, normalises each row and stores the one output block.
  So a point is in case A (the first), C (the last) or B (any other); the output window is idle except in case C.
-/
import proofs.«421952_j37563783971339_2_alg».proof.Proof.Gen.Kernel.Launch
import proofs.«421952_j37563783971339_2_alg».proof.Proof.Gen.Kernel.Skeleton
import proofs.«421952_j37563783971339_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what the three cases' runs share

The body has two conditionals on the grid coordinate: the first (taken at the first point only) zeroes the two
accumulators it carries between points; the second (taken at the last point only) normalises them and stores the
output block. So there are three cases: A (first point), C (last point), B (every point between). -/

/-- Window `w`'s block at point `t`, read off its array as the region finds it. -/
def iblk2 (V : (c : Dev nD) → (b : Ref sig .tc) → Buf (Elt F) ((c : Thread nD τ).loc b)) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable (V : (c : Dev nD) → (b : Ref sig .tc) → Buf (Elt F) ((c : Thread nD τ).loc b))

/-! ## The inputs' staging buffers hold their blocks -/

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The first conditional's condition (is this the first point?), from the grid coordinate. -/
abbrev cond2_0 (i : grid2.Coords) : Prop := (Scalar.cmpi .ne (Scalar.extui (Scalar.cmpi .eq (BitVec.ofNat 32 (i 0).val) 0#32)) 0#32) = 1#1
/-- It holds exactly at point 0 — decided over the grid. -/
theorem hcond2_0 : ∀ t : Fin cfg2.N, cond2_0 (grid2.coords t) ↔ t.val % 250 = 0 :=
  (by decide +kernel : ∀ t : Fin grid2.N, cond2_0 (grid2.coords t) ↔ t.val % 250 = 0)

/-- The second conditional's condition (is this the last point?), from the grid coordinate. -/
abbrev cond2_1 (i : grid2.Coords) : Prop := k2_cond2 i = 1#1
/-- It holds exactly at point 249 — decided over the grid. -/
theorem hcond2_1 : ∀ t : Fin cfg2.N, cond2_1 (grid2.coords t) ↔ t.val % 250 = 249 :=
  (by decide +kernel : ∀ t : Fin grid2.N, cond2_1 (grid2.coords t) ↔ t.val % 250 = 249)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- At the point of case A the output window is idle: the case stores nothing into it. -/
theorem idleAt2_5_A : ∀ t : Fin cfg2.N, cond2_0 (grid2.coords t) → ¬cond2_1 (grid2.coords t) → cfg2.idle 5 (grid2.coords t) = true := by decide +kernel
/-- At the point of case A the pipeline does not write the output block back. -/
theorem noFlush2_5_A : ∀ t : Fin cfg2.N, cond2_0 (grid2.coords t) → ¬cond2_1 (grid2.coords t) → (cfg2.win 5).flush t = false := by decide +kernel
/-- At the points of case B the output window is idle: the case stores nothing into it. -/
theorem idleAt2_5_B : ∀ t : Fin cfg2.N, ¬cond2_0 (grid2.coords t) → ¬cond2_1 (grid2.coords t) → cfg2.idle 5 (grid2.coords t) = true := by decide +kernel
/-- At the points of case B the pipeline does not write the output block back. -/
theorem noFlush2_5_B : ∀ t : Fin cfg2.N, ¬cond2_0 (grid2.coords t) → ¬cond2_1 (grid2.coords t) → (cfg2.win 5).flush t = false := by decide +kernel
/-- At the point of case C the output window is live: the case stores into it. -/
theorem liveAt2_5_C : ∀ t : Fin cfg2.N, ¬cond2_0 (grid2.coords t) → cond2_1 (grid2.coords t) → cfg2.idle 5 (grid2.coords t) = false := by decide +kernel

/-! ## The staging and scratch memrefs -/

/-- The output window's staging buffer, through which its contents are stated. -/
abbrev VO2_5 : View sig .tc .vmem S1024x2 .f32 := (Memref.whole cc2_stg5_0 : Memref sig .tc .vmem S1024x2 .f32).view
/-- Each window's current staging memref at point `t`, spelled as the pipeline passes it, and its wholeness. -/
abbrev ms2_0 (t : Fin cfg2.N) : Memref sig .tc .vmem S2000x2 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x2 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x1 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x2 .f32 := win2_5.stage (cfg2.slots t 5)
abbrev hs2_5 (t : Fin cfg2.N) : (ms2_5 t).IsWhole := hstage2_5 ((cfg2.slots t 5).cast nbuf2_5)
/-- The two accumulators: whole scoped buffers of the kernel's own, passed beside the windows. -/
abbrev scM2_0 : Memref sig .tc .vmem S1024x2 .f32 := Memref.whole cc2_scratch0
abbrev scM2_1 : Memref sig .tc .vmem S1024x1 .f32 := Memref.whole cc2_scratch1
/-- The same as views: what each holds is stated through them. -/
abbrev VS2_0 : View sig .tc .vmem S1024x2 .f32 := scM2_0.view
abbrev VS2_1 : View sig .tc .vmem S1024x1 .f32 := scM2_1.view

/-- Every other scoped buffer of the core that is no staging buffer of this region (the other regions' staging
    buffers), at some contents each, unopened. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The region invariant with the two accumulators as memrefs owned at some contents, the remainder of the scoped
    rest unopened: what the body obligation hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA
  rw [Pipeline.scopedRest_split_of_list spec2 c [cc2_scratch0, cc2_scratch1] (by decide) (by decide)]
  simp only [scM2_0, scM2_1, owns_whole, bigSepL_cons_cons, bigSepL_singleton]; try rfl

end Cert.Kernel.Hand

end
-- ==== Proof.K.R2RunA.lean ====
/-
  Region 2's body at the first grid point (case A): both accumulators are zeroed and the block's contribution added;
  nothing is stored into the output block. The pieces each buffer ends with are found by running the body.
-/
import proofs.«421952_j37563783971339_2_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the two accumulators, as pieces (last first),
    IN CASE A (the first conditional taken, the second not: the first point), WITH the proof that on whole memrefs — the five inputs' at
    their contents, the output's buffer, which the case does not store into, at contents `xi5` handed back untouched,
    the two accumulators at anything (the case overwrites them before it reads what it keeps) — the body runs
    to a continuation holding the inputs' as they were and each accumulator with its pieces written (`LS0`, `LS1`).
    The printed function is its skeleton, which is run symbolically, each conditional decided by the case's
    hypotheses; the pieces are the witness the run finds. -/
noncomputable def kernelRun2_A (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) :
    Σ' (L5 : List (View.Piece (Elt F) S1024x2 .f32)) (LS0 : List (View.Piece (Elt F) S1024x2 .f32)), { LS1 : List (View.Piece (Elt F) S1024x1 .f32) //
      ∀ (xi5 : Vec F S1024x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine2_pool_kernel i arg1 harg1 arg2 harg2 arg3 harg3 arg4 harg4 arg5 harg5 arg6 harg6 arg7 harg7 arg8 harg8) K } := by
  refine ⟨[], ?_, ?_, fun xi5 E K => ?run⟩
  case run =>
    simp only [cc2__combine2_pool_kernel_eq_skeleton]; unfold cc2__combine2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.R2RunB.lean ====
/-
  Region 2's body at a middle grid point (case B): the block's contribution is added to both accumulators as the
  point before left them; nothing is stored into the output block.
-/
import proofs.«421952_j37563783971339_2_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the two accumulators, as pieces (last first),
    IN CASE B (neither conditional taken: the points strictly between the first and the last), WITH the proof that on whole memrefs — the five inputs' at
    their contents, the output's buffer, which the case does not store into, at contents `xi5` handed back untouched,
    the two accumulators at what the point before left (`xs0`, `xs1`) — the body runs
    to a continuation holding the inputs' as they were and each accumulator with its pieces written (`LS0`, `LS1`).
    The printed function is its skeleton, which is run symbolically, each conditional decided by the case's
    hypotheses; the pieces are the witness the run finds. -/
noncomputable def kernelRun2_B (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    Σ' (L5 : List (View.Piece (Elt F) S1024x2 .f32)) (LS0 : List (View.Piece (Elt F) S1024x2 .f32)), { LS1 : List (View.Piece (Elt F) S1024x1 .f32) //
      ∀ (xi5 : Vec F S1024x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine2_pool_kernel i arg1 harg1 arg2 harg2 arg3 harg3 arg4 harg4 arg5 harg5 arg6 harg6 arg7 harg7 arg8 harg8) K } := by
  refine ⟨[], ?_, ?_, fun xi5 E K => ?run⟩
  case run =>
    simp only [cc2__combine2_pool_kernel_eq_skeleton]; unfold cc2__combine2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.R2RunC.lean ====
/-
  Region 2's body at the last grid point (case C): the block's contribution is added to both accumulators, then the
  per-graph means are formed, each row normalised, and the output block stored whole.
-/
import proofs.«421952_j37563783971339_2_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the two accumulators, as pieces (last first),
    IN CASE C (the first conditional not taken, the second taken: the last point), WITH the proof that on whole memrefs — the five inputs' at
    their contents, the output's buffer at anything, returned with its pieces written (`L5`),
    the two accumulators at what the point before left (`xs0`, `xs1`) — the body runs
    to a continuation holding the inputs' as they were and each accumulator with its pieces written (`LS0`, `LS1`).
    The printed function is its skeleton, which is run symbolically, each conditional decided by the case's
    hypotheses; the pieces are the witness the run finds. -/
noncomputable def kernelRun2_C (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    Σ' (L5 : List (View.Piece (Elt F) S1024x2 .f32)) (LS0 : List (View.Piece (Elt F) S1024x2 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine2_pool_kernel i arg1 harg1 arg2 harg2 arg3 harg3 arg4 harg4 arg5 harg5 arg6 harg6 arg7 harg7 arg8 harg8) K } := by
  refine ⟨?_, ?_, ?_, fun E K => ?run⟩
  case run =>
    simp only [cc2__combine2_pool_kernel_eq_skeleton]; unfold cc2__combine2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

end Cert.Kernel.Hand

end
-- ==== Proof.K.R2.lean ====
/-
  Region 2 over the whole grid: what the output block and the two accumulators hold after each point, by recursion
  on the point (a case's pieces read back, over what the point before left in the accumulators); the invariant that
  carries the accumulators from point to point; the proof data; and that the body run at a point takes the state
  before it to the state after it, case by case. Stated at any contents `V` of the buffers when the region is
  entered.
-/
import proofs.«421952_j37563783971339_2_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the accumulation over the grid, the proof data and the body obligation -/

/-- Case A stores nothing into the output block (the window is idle at its points and not written back there): no
    pieces — a placeholder that nothing consults. -/
def out2_A_5 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) : Vec F S1024x2 .f32 :=
  VO2_5.read (Elt F) (VO2_5.writes (Elt F) VO2_5.junk (kernelRun2_A c i arg1 harg1 arg2 harg2 arg3 harg3 arg4 harg4 arg5 harg5 arg6 harg6 arg7 harg7 arg8 harg8 hc0 hc1 x0 x1 x2 x3 x4).1)

/-- Case A's pieces for the first accumulator cover it. -/
theorem scover2_A_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) (y : S1024x2.Idx) :
    ∃ pc ∈ (kernelRun2_A c i arg1 harg1 arg2 harg2 arg3 harg3 arg4 harg4 arg5 harg5 arg6 harg6 arg7 harg7 arg8 harg8 hc0 hc1 x0 x1 x2 x3 x4).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4).2.1 S1024x2.size (by sl_kernel_rfl) y

/-- What case A leaves in the first accumulator: its pieces read back over junk. -/
def sout2_A_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) : Vec F S1024x2 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4).2.1)

/-- Case A's pieces for the second accumulator cover it. -/
theorem scover2_A_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) (y : S1024x1.Idx) :
    ∃ pc ∈ (kernelRun2_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4).2.2.1 S1024x1.size (by sl_kernel_rfl) y

/-- What case A leaves in the second accumulator: its pieces read back over junk. -/
def sout2_A_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) : Vec F S1024x1 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2 x3 x4).2.2.1)

/-- Case B stores nothing into the output block (the window is idle at its points and not written back there): no
    pieces — a placeholder that nothing consults. -/
def out2_B_5 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x2 .f32 :=
  VO2_5.read (Elt F) (VO2_5.writes (Elt F) VO2_5.junk (kernelRun2_B c i arg1 harg1 arg2 harg2 arg3 harg3 arg4 harg4 arg5 harg5 arg6 harg6 arg7 harg7 arg8 harg8 hc0 hc1 x0 x1 x2 x3 x4 xs0 xs1).1)

/-- Case B's pieces for the first accumulator cover it. -/
theorem scover2_B_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) (y : S1024x2.Idx) :
    ∃ pc ∈ (kernelRun2_B c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 xs0 xs1).2.1 S1024x2.size (by sl_kernel_rfl) y

/-- What case B leaves in the first accumulator: its pieces read back over junk. -/
def sout2_B_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x2 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 xs0 xs1).2.1)

/-- Case B's pieces for the second accumulator cover it. -/
theorem scover2_B_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) (y : S1024x1.Idx) :
    ∃ pc ∈ (kernelRun2_B c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 xs0 xs1).2.2.1 S1024x1.size (by sl_kernel_rfl) y

/-- What case B leaves in the second accumulator: its pieces read back over junk. -/
def sout2_B_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x1 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 x3 x4 xs0 xs1).2.2.1)

/-- Case C's pieces for the output block cover it (one whole store). -/
theorem cover2_C_5 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) (y : S1024x2.Idx) :
    ∃ pc ∈ (kernelRun2_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 xs0 xs1).1 S1024x2.size (by sl_kernel_rfl) y

/-- What case C leaves in the output's staging buffer: its pieces read back over junk. -/
def out2_C_5 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x2 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 x3 x4 xs0 xs1).1)

/-- Case C's pieces for the first accumulator cover it. -/
theorem scover2_C_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) (y : S1024x2.Idx) :
    ∃ pc ∈ (kernelRun2_C c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 xs0 xs1).2.1 S1024x2.size (by sl_kernel_rfl) y

/-- What case C leaves in the first accumulator: its pieces read back over junk. -/
def sout2_C_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x2 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 xs0 xs1).2.1)

/-- Case C's pieces for the second accumulator cover it. -/
theorem scover2_C_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) (y : S1024x1.Idx) :
    ∃ pc ∈ (kernelRun2_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 xs0 xs1).2.2.1 S1024x1.size (by sl_kernel_rfl) y

/-- What case C leaves in the second accumulator: its pieces read back over junk. -/
def sout2_C_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x1 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 x3 x4 xs0 xs1).2.2.1)

/-! ## What the output's buffer and the accumulators hold after each point -/

/-- THE ACCUMULATION. What the output's staging buffer and the two accumulators hold after the body at position `n`
    (a triple, in that order): the case the closed forms select at `n`, run at the point's memrefs and input blocks,
    the accumulators at what this leaves at `n - 1`. An assignment of the conditions no point meets is no case. -/
def outsAt2 (c : Dev nD) : (n : ℕ) → n < cfg2.N → Vec F S1024x2 .f32 × Vec F S1024x2 .f32 × Vec F S1024x1 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 250 = 0 then
      if h1 : (n + 1) % 250 = 249 then
        False.elim (by have hN : n + 1 < 250 := lt_of_lt_of_eq hn (show cfg2.N = 250 from N_2); omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 250 = 249 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)

/-- `outsAt2` at a point of case A: that case's contents. -/
theorem outsAt2_A (c : Dev nD) (t : Fin cfg2.N) (h0 : t.val % 250 = 0) (h1 : ¬t.val % 250 = 249) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 250 = 0) (h1 : ¬t.val % 250 = 249) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 250 = 0) (h1 : t.val % 250 = 249) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards each accumulator at what the point before left in it, the remainder of the scoped rest unopened, and
    the core's random-number register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2)) ∗ rest2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2)) ∗ rest2 c) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2)) ∗ rest2 c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS2`; nothing
    owed; full shares. -/
def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
/-- The body takes on no new units: the bound on what the core's waits have recorded stays everything. -/
theorem recorded_eq2 (c : Dev nD) (t : Fin (cfg2.N + 1)) : (dat2 V c).recorded t = Set.univ := rfl

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in;
    so that case's run applies. The invariant hands the body the two accumulators at what the point before left (at
    anything at the first point), the unopened remainder and the core's random-number register, and takes the accumulators back
    at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 250 := lt_of_lt_of_eq t.isLt (show cfg2.N = 250 from N_2)
  by_cases h0 : t.val % 250 = 0
  · by_cases h1 : t.val % 250 = 249
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0 sout2_A_1; (try dsimp only)
      by_cases hz : t.val = 0
      · rw [PhiS2_castSucc V c t, PhiS2_zero V c _ _ hz, PhiA2_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 _ _ _ _ _ _ _ _ _ _ _ _ _ _ _ _ _ _ _ _ _ _ _ _ _)
              · unfold owns; iexists _; isplitr
                swap; · iexact HS1
                ipureintro; exact View.read_writes_of_cover _ _ _ _ _ (scover2_A_1 _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 250 = 249
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0 sout2_C_1; (try dsimp only)
      by_cases hz : t.val = 0
      · exfalso; omega
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_C_0 _ _ _ _ _ _ _ _ _ _ _ _ _ _ _ _ _ _ _ _ _ _ _ _ _ _ _)
              · unfold owns; iexists _; isplitr
                swap; · iexact HS1
                ipureintro; exact View.read_writes_of_cover _ _ _ _ _ (scover2_C_1 _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 _ _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0 sout2_B_1; (try dsimp only)
      by_cases hz : t.val = 0
      · exfalso; omega
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_B_0 _ _ _ _ _ _ _ _ _ _ _ _ _ _ _ _ _ _ _ _ _ _ _ _ _ _ _)
              · unfold owns; iexists _; isplitr
                swap; · iexact HS1
                ipureintro; exact View.read_writes_of_cover _ _ _ _ _ (scover2_B_1 _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 250 := N_2; omega)

end Cert.Kernel.Hand

end
-- ==== Proof.K.Run.lean ====
/-
  The whole program as one launch: three host stretches and three kernel regions in turn. The buffers' contents at
  every boundary are a fold from the launch memory — a host stretch applies its operations, a region replaces its
  output array by what its write-backs leave and keeps every other buffer —; no item writes an argument, so each
  argument ends as launched; every weakly fair execution terminates with every buffer at the fold's last contents.
-/
import proofs.«421952_j37563783971339_2_alg».proof.Proof.Gen.Kernel.Launch
import proofs.«421952_j37563783971339_2_alg».proof.Proof.Gen.Kernel.Skeleton
import proofs.«421952_j37563783971339_2_alg».proof.Proof.Gen.Kernel.Points
import proofs.«421952_j37563783971339_2_alg».proof.Proof.Gen.Kernel.Regions
import proofs.«421952_j37563783971339_2_alg».proof.Proof.K.R0
import proofs.«421952_j37563783971339_2_alg».proof.Proof.K.R1
import proofs.«421952_j37563783971339_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's six segments from the launch to the return — three host stretches, three kernel regions

## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev U1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev U2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev U3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev U4 : (c : Dev nD) → (b : Ref sig .tc) → Buf (Elt F) ((c : Thread nD τ).loc b) := fun c b => W4 m ρ c b
/-- At region 1's exit each of its arrays holds what the pipeline leaves, and every other buffer what it held at
    entry. -/
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev U5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev U6 : (c : Dev nD) → (b : Ref sig .tc) → Buf (Elt F) ((c : Thread nD τ).loc b) := fun c b => W6 m ρ c b
/-- At region 2's exit each of its arrays holds what the pipeline leaves, and every other buffer what it held at
    entry. -/
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-! ### A host stretch leaves every buffer it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-! ### The arguments end as launched: no host operation writes one, and a region reads it through an input window
    or bypasses it, so the fold at an argument's buffer walks back to the launch memory -/

/-- `main_arg0` ends as launched. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := W1_of m ρ c main_arg0 (by decide)
    _ = m ((c : Thread nD τ).loc main_arg0) := rfl
/-- `main_arg1` ends as launched. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (U1 m ρ) c).arrAt_in 1 rfl _).trans (A_eq0 (U1 m ρ) c 1))
    _ = W0 m ρ c (Proc.devRef .tc main_arg1) := W1_of m ρ c main_arg1 (by decide)
    _ = m ((c : Thread nD τ).loc main_arg1) := rfl
/-- `main_arg2` ends as launched. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
/-- `main_arg3` ends as launched. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := (W4_arr m ρ c 4).trans (((dat1 (U3 m ρ) c).arrAt_in 4 rfl _).trans (A_eq1 (U3 m ρ) c 4))
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
/-- `main_arg4` ends as launched. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
/-- `main_arg5` ends as launched. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
/-- `main_arg6` ends as launched. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-! ## The proof data family and the thread state -/

/-- Every pipeline's proof data, each at its region's entry contents — a literal `match`, so that
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! ## What a core owes at a region's ends

Between segments the core owes nothing, its waits having recorded some pairs or other. Proof data that owe nothing
at a point and bound the recorded pairs by nothing there say the same of that point. -/

/-- Into the proof data's reading: nothing owed, any recorded pairs. -/
theorem owesAt_zero_intro {cfg : Cfg sig Λ₀} {c : Dev nD} (dat : Dat τ (Elt F) Unit ℕ (UR sig nD τ) ℕ cfg c)
    (t : Fin (cfg.N + 1)) (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩; iexists W
  isplitr; · ipureintro; exact fun _ _ => Or.inl trivial
  iexact HO

/-- And out of it. -/
theorem owesAt_zero_elim {cfg : Cfg sig Λ₀} {c : Dev nD} (dat : Dat τ (Elt F) Unit ℕ (UR sig nD τ) ℕ cfg c)
    (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-! ## The regions as segments -/

-- the library's lemmas are stated over `pin pcs a p`: matching them against the pinned configuration takes unfolding
-- plain definitions in a metavariable's type
set_option backward.isDefEq.respectTransparency.types false in
/-- REGION 0 (custom_call 0) over the thread state: entered from every unscoped buffer at `W1`, left at `W2`.
    Its arrays split out of the unscoped buffers and put back at the exit contents; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun c t => owed_eq0 (U1 m ρ) c t
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full (q_eq0 (U1 m ρ) c)) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_zero_intro (pdats m ρ 0 c) 0 (owed_eq0 (U1 m ρ) c 0) (recorded_eq0 (U1 m ρ) c 0))
      iexact HO
    isplitl [Hp]; · iexact Hp
    iexact Hrest
  hin c := by
    refine .trans ?_ (hin0 (U1 m ρ) c)
    unfold Pipeline.ΦA
    iintro ⟨Hp, -, Hr⟩
    isplitl [Hr]; · iexact Hr
    iexact Hp
  hout c := by
    rw [Pipeline.ownSems0_none]
    refine (hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full (q_eq0 (U1 m ρ) c))
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_zero_elim (pdats m ρ 0 c) (Fin.last _) (owed_eq0 (U1 m ρ) c _))
    iexact HO

-- the library's lemmas are stated over `pin pcs a p`: matching them against the pinned configuration takes unfolding
-- plain definitions in a metavariable's type
set_option backward.isDefEq.respectTransparency.types false in
/-- REGION 1 (custom_call 1) over the thread state: entered from every unscoped buffer at `W3`, left at `W4`.
    Its arrays split out of the unscoped buffers and put back at the exit contents; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun c t => owed_eq1 (U3 m ρ) c t
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full (q_eq1 (U3 m ρ) c)) (U3 m ρ c) (A_eq1 (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_zero_intro (pdats m ρ 1 c) 0 (owed_eq1 (U3 m ρ) c 0) (recorded_eq1 (U3 m ρ) c 0))
      iexact HO
    isplitl [Hp]; · iexact Hp
    iexact Hrest
  hin c := by
    refine .trans ?_ (hin1 (U3 m ρ) c)
    unfold Pipeline.ΦA
    iintro ⟨Hp, -, Hr⟩
    isplitl [Hr]; · iexact Hr
    iexact Hp
  hout c := by
    rw [Pipeline.ownSems0_none]
    refine (hout1 (U3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full (q_eq1 (U3 m ρ) c))
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_zero_elim (pdats m ρ 1 c) (Fin.last _) (owed_eq1 (U3 m ρ) c _))
    iexact HO

-- the library's lemmas are stated over `pin pcs a p`: matching them against the pinned configuration takes unfolding
-- plain definitions in a metavariable's type
set_option backward.isDefEq.respectTransparency.types false in
/-- REGION 2 (custom_call 2) over the thread state: entered from every unscoped buffer at `W5`, left at `W6`.
    Its arrays split out of the unscoped buffers and put back at the exit contents; the generator register into the
    region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun c t => owed_eq2 (U5 m ρ) c t
  pre c := iprop(StableHlo.held (c : Thread nD τ) (Pipeline.ucRefs τ sig) (W5 m ρ c) ∗ Rst c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full (q_eq2 (U5 m ρ) c)) (U5 m ρ c) (A_eq2 (U5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_zero_intro (pdats m ρ 2 c) 0 (owed_eq2 (U5 m ρ) c 0) (recorded_eq2 (U5 m ρ) c 0))
      iexact HO
    isplitl [Hp]; · iexact Hp
    iexact Hrest
  hin c := by
    refine .trans ?_ (hin2 (U5 m ρ) c)
    unfold Pipeline.ΦA
    iintro ⟨Hp, -, Hr⟩
    isplitl [Hr]; · iexact Hr
    iexact Hp
  hout c := by
    rw [Pipeline.ownSems0_none]
    refine (hout2 (U5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full (q_eq2 (U5 m ρ) c))
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owesAt_zero_elim (pdats m ρ 2 c) (Fin.last _) (owed_eq2 (U5 m ρ) c _))
    iexact HO

/-! ## @main as segments, and the launch -/

/-- @main's 6 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the last boundary's
    contents `W6`: the launch over the six segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- THE FRAME: every final state of the run has the seven argument arrays as launched — each argument's buffer is an
    unscoped buffer, whose final contents `run_all` names, and the fold at it walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
   ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c)⟩) (run_all m ρ)

end Cert.Kernel.Hand

end
-- ==== Proof.KI.R0.lean ====
/-
  Region 0, the first feature transform `h1 = x · W1`, one block of 10000 rows per grid point: the body loads the
  row block and the whole weight matrix, multiplies them, and stores the product over its whole output block. Stated
  at any contents `V` of the buffers when the region is entered: each window's block at a point, what each buffer
  holds after the body, and that the body run at a point takes the one to the other (the rows of a product depend on
  the same rows of the left factor only, so a point touches its own rows).
-/
import proofs.«421952_j37563783971339_2_alg».proof.Proof.Gen.KernelIdeal.Launch
import proofs.«421952_j37563783971339_2_alg».proof.Proof.Gen.KernelIdeal.Skeleton
import proofs.«421952_j37563783971339_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: `h1 = x · W1`, one block of 10000 rows per grid point -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_0 : Rect S10000x32 := Rect.unit (s := S10000x32) ![0, 0] S10000x32.size inb_S10000x32_S10000x32_0_0
abbrev r0_1 : Rect S32x16 := Rect.unit (s := S32x16) ![0, 0] S32x16.size inb_S32x16_S32x16_0_0
abbrev r0_2 : Rect S10000x16 := Rect.unit (s := S10000x16) ![0, 0] S10000x16.size inb_S10000x16_S10000x16_0_0

/-- What the body leaves in the output window's buffer: the block product of the row block and the weights. -/
def out0_2 (x0 : Vec F S10000x32 .f32) (x1 : Vec F S32x16 .f32) : Vec F S10000x16 .f32 :=
  View.canon [⟨r0_2, k0_pay1 (View.ld x0 r0_0) (View.ld x1 r0_1)⟩]

/-- The proof data of pipeline 0 on core `c`: the arrays as the region finds them; after the body each input's
    buffer at its block and the output's at the block product; the class-A invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

/-! ## Each input's current staging buffer holds its block -/

/-- Input window 0's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, one block for the whole grid, brought in at the first point only): where it is
    not fetched its block index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The output's one store covers its buffer -/

theorem cover0_2 (p0 : Vec F S10000x16 .f32) (y : S10000x16.Idx) :
    ∃ pc ∈ ([⟨r0_2, p0⟩] : List (View.Piece (Elt F) S10000x16 .f32)), y ∈ pc.1.set :=
  View.cover_of_tiled [⟨r0_2, p0⟩] S10000x16.size (by rfl) y

/-! ## The body's triple -/

set_option maxHeartbeats 1000000 in
/-- The kernel body on whole staging memrefs, the inputs' at read contents `x0`, `x1` and the output's at anything,
    runs to the continuation holding the inputs' as they were and the output's at `out0_2 x0 x1`: it loads the two
    inputs, loads the output buffer (the value is not used), and stores the product over the whole buffer. -/
theorem sound_kernel0 (c : Dev nD) (E : Set ℕ) (i : grid0.Coords)
    (arg1 : Memref sig .tc .vmem S10000x32 .f32) (harg1 : arg1.IsWhole)
    (arg2 : Memref sig .tc .vmem S32x16 .f32) (harg2 : arg2.IsWhole)
    (arg3 : Memref sig .tc .vmem S10000x16 .f32) (harg3 : arg3.IsWhole)
    (x0 : Vec F S10000x32 .f32) (x1 : Vec F S32x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul1_kernel i arg1 harg1 arg2 harg2 arg3 harg3) K := by
  simp only [cc0__matmul1_kernel_eq_skeleton]; unfold cc0__matmul1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1, the first layer's combine and the second feature transform,
  `h2 = max(agg1 + h1 · dinv² + b1, 0) · W2`, one block of 5000 rows per grid point: the body loads the blocks of
  the aggregated messages, of `h1` and of the squared inverse degrees (a column), the bias (a row) and the weights,
  combines them entry by entry, clamps below at zero, multiplies, and stores the product over its whole output block.
  Stated at any contents `V` of the buffers when the region is entered.
-/
import proofs.«421952_j37563783971339_2_alg».proof.Proof.Gen.KernelIdeal.Launch
import proofs.«421952_j37563783971339_2_alg».proof.Proof.Gen.KernelIdeal.Skeleton
import proofs.«421952_j37563783971339_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: `h2 = relu(agg1 + h1 · dinv² + b1) · W2`, one block of 5000 rows per grid point -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_0 : Rect S5000x16 := Rect.unit (s := S5000x16) ![0, 0] S5000x16.size inb_S5000x16_S5000x16_0_0
abbrev r1_2 : Rect S5000x1 := Rect.unit (s := S5000x1) ![0, 0] S5000x1.size inb_S5000x1_S5000x1_0_0
abbrev r1_3 : Rect S1x16 := Rect.unit (s := S1x16) ![0, 0] S1x16.size inb_S1x16_S1x16_0_0
abbrev r1_4 : Rect S16x2 := Rect.unit (s := S16x2) ![0, 0] S16x2.size inb_S16x2_S16x2_0_0
abbrev r1_5 : Rect S5000x2 := Rect.unit (s := S5000x2) ![0, 0] S5000x2.size inb_S5000x2_S5000x2_0_0

/-- What the body leaves in the output window's buffer, from the five input blocks. -/
def out1_5 (x0 : Vec F S5000x16 .f32) (x1 : Vec F S5000x16 .f32) (x2 : Vec F S5000x1 .f32) (x3 : Vec F S1x16 .f32) (x4 : Vec F S16x2 .f32) : Vec F S5000x2 .f32 :=
  View.canon [⟨r1_5, k1_pay1 (View.ld x0 r1_0) (View.ld x1 r1_0) (View.ld x2 r1_2) (View.ld x3 r1_3) (View.ld x4 r1_4)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-! ## Each input's current staging buffer holds its block -/

/-- Input window 0's current staging buffer holds its block at every point, for any proof data whose array is
    `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the bias row, one block for the whole grid, brought in at the first point only): where it is
    not fetched its block index has not moved, so the buffer still holds this point's block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the second layer's weights, one block for the whole grid), likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The output's one store covers its buffer -/

theorem cover1_5 (p0 : Vec F S5000x2 .f32) (y : S5000x2.Idx) :
    ∃ pc ∈ ([⟨r1_5, p0⟩] : List (View.Piece (Elt F) S5000x2 .f32)), y ∈ pc.1.set :=
  View.cover_of_tiled [⟨r1_5, p0⟩] S5000x2.size (by rfl) y

/-! ## The body's triple -/

set_option maxHeartbeats 1000000 in
/-- The kernel body on whole staging memrefs, the five inputs' at read contents `x0` … `x4` and the output's at
    anything, runs to the continuation holding the inputs' as they were and the output's at `out1_5` of them: it
    loads the five inputs, loads the output buffer (the value is not used), and stores the result over the whole
    buffer. -/
theorem sound_kernel1 (c : Dev nD) (E : Set ℕ) (i : grid1.Coords)
    (arg1 : Memref sig .tc .vmem S5000x16 .f32) (harg1 : arg1.IsWhole)
    (arg2 : Memref sig .tc .vmem S5000x16 .f32) (harg2 : arg2.IsWhole)
    (arg3 : Memref sig .tc .vmem S5000x1 .f32) (harg3 : arg3.IsWhole)
    (arg4 : Memref sig .tc .vmem S1x16 .f32) (harg4 : arg4.IsWhole)
    (arg5 : Memref sig .tc .vmem S16x2 .f32) (harg5 : arg5.IsWhole)
    (arg6 : Memref sig .tc .vmem S5000x2 .f32) (harg6 : arg6.IsWhole)
    (x0 : Vec F S5000x16 .f32) (x1 : Vec F S5000x16 .f32) (x2 : Vec F S5000x1 .f32) (x3 : Vec F S1x16 .f32) (x4 : Vec F S16x2 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine1_kernel i arg1 harg1 arg2 harg2 arg3 harg3 arg4 harg4 arg5 harg5 arg6 harg6) K := by
  simp only [cc1__combine1_kernel_eq_skeleton]; unfold cc1__combine1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Runs.lean ====
/-
  Region 2, the per-graph mean pooling and the row-wise log-softmax, over 250 grid points of 2000 nodes each: what
  its three cases share. The body branches twice on the grid position: at the first point it zeroes its two
  accumulators (the per-graph sums, 1024 × 2, and the per-graph counts, 1024 × 1); at every point it adds the
  block's contribution to both; at the last point it divides, normalises each row and stores the one output block.
  So a point is in case A (the first), C (the last) or B (any other); the output window is idle except in case C.
-/
import proofs.«421952_j37563783971339_2_alg».proof.Proof.Gen.KernelIdeal.Launch
import proofs.«421952_j37563783971339_2_alg».proof.Proof.Gen.KernelIdeal.Skeleton
import proofs.«421952_j37563783971339_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what the three cases' runs share

The body has two conditionals on the grid coordinate: the first (taken at the first point only) zeroes the two
accumulators it carries between points; the second (taken at the last point only) normalises them and stores the
output block. So there are three cases: A (first point), C (last point), B (every point between). -/

/-- Window `w`'s block at point `t`, read off its array as the region finds it. -/
def iblk2 (V : (c : Dev nD) → (b : Ref sig .tc) → Buf (Elt F) ((c : Thread nD τ).loc b)) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable (V : (c : Dev nD) → (b : Ref sig .tc) → Buf (Elt F) ((c : Thread nD τ).loc b))

/-! ## The inputs' staging buffers hold their blocks -/

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The first conditional's condition (is this the first point?), from the grid coordinate. -/
abbrev cond2_0 (i : grid2.Coords) : Prop := (Scalar.cmpi .ne (Scalar.extui (Scalar.cmpi .eq (BitVec.ofNat 32 (i 0).val) 0#32)) 0#32) = 1#1
/-- It holds exactly at point 0 — decided over the grid. -/
theorem hcond2_0 : ∀ t : Fin cfg2.N, cond2_0 (grid2.coords t) ↔ t.val % 250 = 0 :=
  (by decide +kernel : ∀ t : Fin grid2.N, cond2_0 (grid2.coords t) ↔ t.val % 250 = 0)

/-- The second conditional's condition (is this the last point?), from the grid coordinate. -/
abbrev cond2_1 (i : grid2.Coords) : Prop := k2_cond2 i = 1#1
/-- It holds exactly at point 249 — decided over the grid. -/
theorem hcond2_1 : ∀ t : Fin cfg2.N, cond2_1 (grid2.coords t) ↔ t.val % 250 = 249 :=
  (by decide +kernel : ∀ t : Fin grid2.N, cond2_1 (grid2.coords t) ↔ t.val % 250 = 249)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- At the point of case A the output window is idle: the case stores nothing into it. -/
theorem idleAt2_5_A : ∀ t : Fin cfg2.N, cond2_0 (grid2.coords t) → ¬cond2_1 (grid2.coords t) → cfg2.idle 5 (grid2.coords t) = true := by decide +kernel
/-- At the point of case A the pipeline does not write the output block back. -/
theorem noFlush2_5_A : ∀ t : Fin cfg2.N, cond2_0 (grid2.coords t) → ¬cond2_1 (grid2.coords t) → (cfg2.win 5).flush t = false := by decide +kernel
/-- At the points of case B the output window is idle: the case stores nothing into it. -/
theorem idleAt2_5_B : ∀ t : Fin cfg2.N, ¬cond2_0 (grid2.coords t) → ¬cond2_1 (grid2.coords t) → cfg2.idle 5 (grid2.coords t) = true := by decide +kernel
/-- At the points of case B the pipeline does not write the output block back. -/
theorem noFlush2_5_B : ∀ t : Fin cfg2.N, ¬cond2_0 (grid2.coords t) → ¬cond2_1 (grid2.coords t) → (cfg2.win 5).flush t = false := by decide +kernel
/-- At the point of case C the output window is live: the case stores into it. -/
theorem liveAt2_5_C : ∀ t : Fin cfg2.N, ¬cond2_0 (grid2.coords t) → cond2_1 (grid2.coords t) → cfg2.idle 5 (grid2.coords t) = false := by decide +kernel

/-! ## The staging and scratch memrefs -/

/-- The output window's staging buffer, through which its contents are stated. -/
abbrev VO2_5 : View sig .tc .vmem S1024x2 .f32 := (Memref.whole cc2_stg5_0 : Memref sig .tc .vmem S1024x2 .f32).view
/-- Each window's current staging memref at point `t`, spelled as the pipeline passes it, and its wholeness. -/
abbrev ms2_0 (t : Fin cfg2.N) : Memref sig .tc .vmem S2000x2 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x2 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x1 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x2 .f32 := win2_5.stage (cfg2.slots t 5)
abbrev hs2_5 (t : Fin cfg2.N) : (ms2_5 t).IsWhole := hstage2_5 ((cfg2.slots t 5).cast nbuf2_5)
/-- The two accumulators: whole scoped buffers of the kernel's own, passed beside the windows. -/
abbrev scM2_0 : Memref sig .tc .vmem S1024x2 .f32 := Memref.whole cc2_scratch0
abbrev scM2_1 : Memref sig .tc .vmem S1024x1 .f32 := Memref.whole cc2_scratch1
/-- The same as views: what each holds is stated through them. -/
abbrev VS2_0 : View sig .tc .vmem S1024x2 .f32 := scM2_0.view
abbrev VS2_1 : View sig .tc .vmem S1024x1 .f32 := scM2_1.view

/-- Every other scoped buffer of the core that is no staging buffer of this region (the other regions' staging
    buffers), at some contents each, unopened. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The region invariant with the two accumulators as memrefs owned at some contents, the remainder of the scoped
    rest unopened: what the body obligation hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA
  rw [Pipeline.scopedRest_split_of_list spec2 c [cc2_scratch0, cc2_scratch1] (by decide) (by decide)]
  simp only [scM2_0, scM2_1, owns_whole, bigSepL_cons_cons, bigSepL_singleton]; try rfl

end Cert.KernelIdeal.Hand

end
-- ==== Proof.KI.R2RunA.lean ====
/-
  Region 2's body at the first grid point (case A): both accumulators are zeroed and the block's contribution added;
  nothing is stored into the output block. The pieces each buffer ends with are found by running the body.
-/
import proofs.«421952_j37563783971339_2_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the two accumulators, as pieces (last first),
    IN CASE A (the first conditional taken, the second not: the first point), WITH the proof that on whole memrefs — the five inputs' at
    their contents, the output's buffer, which the case does not store into, at contents `xi5` handed back untouched,
    the two accumulators at anything (the case overwrites them before it reads what it keeps) — the body runs
    to a continuation holding the inputs' as they were and each accumulator with its pieces written (`LS0`, `LS1`).
    The printed function is its skeleton, which is run symbolically, each conditional decided by the case's
    hypotheses; the pieces are the witness the run finds. -/
noncomputable def kernelRun2_A (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) :
    Σ' (L5 : List (View.Piece (Elt F) S1024x2 .f32)) (LS0 : List (View.Piece (Elt F) S1024x2 .f32)), { LS1 : List (View.Piece (Elt F) S1024x1 .f32) //
      ∀ (xi5 : Vec F S1024x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine2_pool_kernel i arg1 harg1 arg2 harg2 arg3 harg3 arg4 harg4 arg5 harg5 arg6 harg6 arg7 harg7 arg8 harg8) K } := by
  refine ⟨[], ?_, ?_, fun xi5 E K => ?run⟩
  case run =>
    simp only [cc2__combine2_pool_kernel_eq_skeleton]; unfold cc2__combine2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.R2RunB.lean ====
/-
  Region 2's body at a middle grid point (case B): the block's contribution is added to both accumulators as the
  point before left them; nothing is stored into the output block.
-/
import proofs.«421952_j37563783971339_2_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the two accumulators, as pieces (last first),
    IN CASE B (neither conditional taken: the points strictly between the first and the last), WITH the proof that on whole memrefs — the five inputs' at
    their contents, the output's buffer, which the case does not store into, at contents `xi5` handed back untouched,
    the two accumulators at what the point before left (`xs0`, `xs1`) — the body runs
    to a continuation holding the inputs' as they were and each accumulator with its pieces written (`LS0`, `LS1`).
    The printed function is its skeleton, which is run symbolically, each conditional decided by the case's
    hypotheses; the pieces are the witness the run finds. -/
noncomputable def kernelRun2_B (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    Σ' (L5 : List (View.Piece (Elt F) S1024x2 .f32)) (LS0 : List (View.Piece (Elt F) S1024x2 .f32)), { LS1 : List (View.Piece (Elt F) S1024x1 .f32) //
      ∀ (xi5 : Vec F S1024x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine2_pool_kernel i arg1 harg1 arg2 harg2 arg3 harg3 arg4 harg4 arg5 harg5 arg6 harg6 arg7 harg7 arg8 harg8) K } := by
  refine ⟨[], ?_, ?_, fun xi5 E K => ?run⟩
  case run =>
    simp only [cc2__combine2_pool_kernel_eq_skeleton]; unfold cc2__combine2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.R2RunC.lean ====
/-
  Region 2's body at the last grid point (case C): the block's contribution is added to both accumulators, then the
  per-graph means are formed, each row normalised, and the output block stored whole.
-/
import proofs.«421952_j37563783971339_2_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the two accumulators, as pieces (last first),
    IN CASE C (the first conditional not taken, the second taken: the last point), WITH the proof that on whole memrefs — the five inputs' at
    their contents, the output's buffer at anything, returned with its pieces written (`L5`),
    the two accumulators at what the point before left (`xs0`, `xs1`) — the body runs
    to a continuation holding the inputs' as they were and each accumulator with its pieces written (`LS0`, `LS1`).
    The printed function is its skeleton, which is run symbolically, each conditional decided by the case's
    hypotheses; the pieces are the witness the run finds. -/
noncomputable def kernelRun2_C (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    Σ' (L5 : List (View.Piece (Elt F) S1024x2 .f32)) (LS0 : List (View.Piece (Elt F) S1024x2 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine2_pool_kernel i arg1 harg1 arg2 harg2 arg3 harg3 arg4 harg4 arg5 harg5 arg6 harg6 arg7 harg7 arg8 harg8) K } := by
  refine ⟨?_, ?_, ?_, fun E K => ?run⟩
  case run =>
    simp only [cc2__combine2_pool_kernel_eq_skeleton]; unfold cc2__combine2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

end Cert.KernelIdeal.Hand

end
-- ==== Proof.KI.R2.lean ====
/-
  Region 2 over the whole grid: what the output block and the two accumulators hold after each point, by recursion
  on the point (a case's pieces read back, over what the point before left in the accumulators); the invariant that
  carries the accumulators from point to point; the proof data; and that the body run at a point takes the state
  before it to the state after it, case by case. Stated at any contents `V` of the buffers when the region is
  entered.
-/
import proofs.«421952_j37563783971339_2_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the accumulation over the grid, the proof data and the body obligation -/

/-- Case A stores nothing into the output block (the window is idle at its points and not written back there): no
    pieces — a placeholder that nothing consults. -/
def out2_A_5 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) : Vec F S1024x2 .f32 :=
  VO2_5.read (Elt F) (VO2_5.writes (Elt F) VO2_5.junk (kernelRun2_A c i arg1 harg1 arg2 harg2 arg3 harg3 arg4 harg4 arg5 harg5 arg6 harg6 arg7 harg7 arg8 harg8 hc0 hc1 x0 x1 x2 x3 x4).1)

/-- Case A's pieces for the first accumulator cover it. -/
theorem scover2_A_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) (y : S1024x2.Idx) :
    ∃ pc ∈ (kernelRun2_A c i arg1 harg1 arg2 harg2 arg3 harg3 arg4 harg4 arg5 harg5 arg6 harg6 arg7 harg7 arg8 harg8 hc0 hc1 x0 x1 x2 x3 x4).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4).2.1 S1024x2.size (by sl_kernel_rfl) y

/-- What case A leaves in the first accumulator: its pieces read back over junk. -/
def sout2_A_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) : Vec F S1024x2 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4).2.1)

/-- Case A's pieces for the second accumulator cover it. -/
theorem scover2_A_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) (y : S1024x1.Idx) :
    ∃ pc ∈ (kernelRun2_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4).2.2.1 S1024x1.size (by sl_kernel_rfl) y

/-- What case A leaves in the second accumulator: its pieces read back over junk. -/
def sout2_A_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i)
    (x0 : Vec F S2000x2 .f32) (x1 : Vec F S2000x2 .f32) (x2 : Vec F S2000x1 .f32) (x3 : Vec F S1x2 .f32) (x4 : Vec F S2000x1 .i32) : Vec F S1024x1 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2 x3 x4).2.2.1)

/-- Case B stores nothing into the output block (the window is idle at its points and not written back there): no
    pieces — a placeholder that nothing consults. -/
def out2_B_5 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x2 .f32 :=
  VO2_5.read (Elt F) (VO2_5.writes (Elt F) VO2_5.junk (kernelRun2_B c i arg1 harg1 arg2 harg2 arg3 harg3 arg4 harg4 arg5 harg5 arg6 harg6 arg7 harg7 arg8 harg8 hc0 hc1 x0 x1 x2 x3 x4 xs0 xs1).1)

/-- Case B's pieces for the first accumulator cover it. -/
theorem scover2_B_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) (y : S1024x2.Idx) :
    ∃ pc ∈ (kernelRun2_B c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 xs0 xs1).2.1 S1024x2.size (by sl_kernel_rfl) y

/-- What case B leaves in the first accumulator: its pieces read back over junk. -/
def sout2_B_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x2 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 xs0 xs1).2.1)

/-- Case B's pieces for the second accumulator cover it. -/
theorem scover2_B_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) (y : S1024x1.Idx) :
    ∃ pc ∈ (kernelRun2_B c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 xs0 xs1).2.2.1 S1024x1.size (by sl_kernel_rfl) y

/-- What case B leaves in the second accumulator: its pieces read back over junk. -/
def sout2_B_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x1 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 x3 x4 xs0 xs1).2.2.1)

/-- Case C's pieces for the output block cover it (one whole store). -/
theorem cover2_C_5 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) (y : S1024x2.Idx) :
    ∃ pc ∈ (kernelRun2_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 xs0 xs1).1 S1024x2.size (by sl_kernel_rfl) y

/-- What case C leaves in the output's staging buffer: its pieces read back over junk. -/
def out2_C_5 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x2 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 x3 x4 xs0 xs1).1)

/-- Case C's pieces for the first accumulator cover it. -/
theorem scover2_C_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) (y : S1024x2.Idx) :
    ∃ pc ∈ (kernelRun2_C c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 xs0 xs1).2.1 S1024x2.size (by sl_kernel_rfl) y

/-- What case C leaves in the first accumulator: its pieces read back over junk. -/
def sout2_C_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x2 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 xs0 xs1).2.1)

/-- Case C's pieces for the second accumulator cover it. -/
theorem scover2_C_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) (y : S1024x1.Idx) :
    ∃ pc ∈ (kernelRun2_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 xs0 xs1).2.2.1 S1024x1.size (by sl_kernel_rfl) y

/-- What case C leaves in the second accumulator: its pieces read back over junk. -/
def sout2_C_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i)
    (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) : Vec F S1024x1 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 x3 x4 xs0 xs1).2.2.1)

/-! ## What the output's buffer and the accumulators hold after each point -/

/-- THE ACCUMULATION. What the output's staging buffer and the two accumulators hold after the body at position `n`
    (a triple, in that order): the case the closed forms select at `n`, run at the point's memrefs and input blocks,
    the accumulators at what this leaves at `n - 1`. An assignment of the conditions no point meets is no case. -/
def outsAt2 (c : Dev nD) : (n : ℕ) → n < cfg2.N → Vec F S1024x2 .f32 × Vec F S1024x2 .f32 × Vec F S1024x1 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 250 = 0 then
      if h1 : (n + 1) % 250 = 249 then
        False.elim (by have hN : n + 1 < 250 := lt_of_lt_of_eq hn (show cfg2.N = 250 from N_2); omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 250 = 249 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)

/-- `outsAt2` at a point of case A: that case's contents. -/
theorem outsAt2_A (c : Dev nD) (t : Fin cfg2.N) (h0 : t.val % 250 = 0) (h1 : ¬t.val % 250 = 249) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 250 = 0) (h1 : ¬t.val % 250 = 249) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 250 = 0) (h1 : t.val % 250 = 249) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards each accumulator at what the point before left in it, the remainder of the scoped rest unopened, and
    the core's random-number register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2)) ∗ rest2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2)) ∗ rest2 c) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2)) ∗ rest2 c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS2`; nothing
    owed; full shares. -/
def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
/-- The body takes on no new units: the bound on what the core's waits have recorded stays everything. -/
theorem recorded_eq2 (c : Dev nD) (t : Fin (cfg2.N + 1)) : (dat2 V c).recorded t = Set.univ := rfl

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in;
    so that case's run applies. The invariant hands the body the two accumulators at what the point before left (at
    anything at the first point), the unopened remainder and the core's random-number register, and takes the accumulators back
    at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 250 := lt_of_lt_of_eq t.isLt (show cfg2.N = 250 from N_2)
  by_cases h0 : t.val % 250 = 0
  · by_cases h1 : t.val % 250 = 249
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0 sout2_A_1; (try dsimp only)
      by_cases hz : t.val = 0
      · rw [PhiS2_castSucc V c t, PhiS2_zero V c _ _ hz, PhiA2_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 _ _ _ _ _ _ _ _ _ _ _ _ _ _ _ _ _ _ _ _ _ _ _ _ _)
              · unfold owns; iexists _; isplitr
                swap; · iexact HS1
                ipureintro; exact View.read_writes_of_cover _ _ _ _ _ (scover2_A_1 _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 250 = 249
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0 sout2_C_1; (try dsimp only)
      by_cases hz : t.val = 0
      · exfalso; omega
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_C_0 _ _ _ _ _ _ _ _ _ _ _ _ _ _ _ _ _ _ _ _ _ _ _ _ _ _ _)
              · unfold owns; iexists _; isplitr
                swap; · iexact HS1
                ipureintro; exact View.read_writes_of_cover _ _ _ _ _ (scover2_C_1 _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 _ _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0 sout2_B_1; (try dsimp only)
      by_cases hz : t.val = 0
      · exfalso; omega
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_B_0 _ _ _ _ _ _ _ _ _ _ _ _ _ _ _ _ _ _ _ _ _ _ _ _ _ _ _)
              · unfold owns; iexists _; isplitr
                swap; · iexact HS1
                ipureintro; exact View.read_writes_of_cover _ _ _ _ _ (scover2_B_1 _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 250 := N_2; omega)

end Cert.KernelIdeal.Hand

end
-- ==== Proof.KI.Run.lean ====
/-
  The whole program as one launch: three host stretches and three kernel regions in turn. The buffers' contents at
  every boundary are a fold from the launch memory — a host stretch applies its operations, a region replaces its
  output array by what its write-backs leave and keeps every other buffer —; no item writes an argument, so each
  argument ends as launched; every weakly fair execution terminates with every buffer at the fold's last contents.
-/
import proofs.«421952_j37563783971339_2_alg».proof.Proof.Gen.KernelIdeal.Launch
import proofs.«421952_j37563783971339_2_alg».proof.Proof.Gen.KernelIdeal.Skeleton
import proofs.«421952_j37563783971339_2_alg».proof.Proof.Gen.KernelIdeal.Points
import proofs.«421952_j37563783971339_2_alg».proof.Proof.Gen.KernelIdeal.Regions
import proofs.«421952_j37563783971339_2_alg».proof.Proof.KI.R0
import proofs.«421952_j37563783971339_2_alg».proof.Proof.KI.R1
import proofs.«421952_j37563783971339_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's six segments from the launch to the return — three host stretches, three kernel regions

## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev U1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev U2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev U3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev U4 : (c : Dev nD) → (b : Ref sig .tc) → Buf (Elt F) ((c : Thread nD τ).loc b) := fun c b => W4 m ρ c b
/-- At region 1's exit each of its arrays holds what the pipeline leaves, and every other buffer what it held at
    entry. -/
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev U5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev U6 : (c : Dev nD) → (b : Ref sig .tc) → Buf (Elt F) ((c : Thread nD τ).loc b) := fun c b => W6 m ρ c b
/-- At region 2's exit each of its arrays holds what the pipeline leaves, and every other buffer what it held at
    entry. -/
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-! ### A host stretch leaves every buffer it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-! ### The arguments end as launched: no host operation writes one, and a region reads it through an input window
    or bypasses it, so the fold at an argument's buffer walks back to the launch memory -/

/-- `main_arg0` ends as launched. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := W1_of m ρ c main_arg0 (by decide)
    _ = m ((c : Thread nD τ).loc main_arg0) := rfl
/-- `main_arg1` ends as launched. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (U1 m ρ) c).arrAt_in 1 rfl _).trans (A_eq0 (U1 m ρ) c 1))
    _ = W0 m ρ c (Proc.devRef .tc main_arg1) := W1_of m ρ c main_arg1 (by decide)
    _ = m ((c : Thread nD τ).loc main_arg1) := rfl
/-- `main_arg2` ends as launched. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
/-- `main_arg3` ends as launched. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := (W4_arr m ρ c 4).trans (((dat1 (U3 m ρ) c).arrAt_in 4 rfl _).trans (A_eq1 (U3 m ρ) c 4))
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
/-- `main_arg4` ends as launched. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
/-- `main_arg5` ends as launched. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
/-- `main_arg6` ends as launched. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-! ## The proof data family and the thread state -/

/-- Every pipeline's proof data, each at its region's entry contents — a literal `match`, so that
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! ## What a core owes at a region's ends

Between segments the core owes nothing, its waits having recorded some pairs or other. Proof data that owe nothing
at a point and bound the recorded pairs by nothing there say the same of that point. -/

/-- Into the proof data's reading: nothing owed, any recorded pairs. -/
theorem owesAt_zero_intro {cfg : Cfg sig Λ₀} {c : Dev nD} (dat : Dat τ (Elt F) Unit ℕ (UR sig nD τ) ℕ cfg c)
    (t : Fin (cfg.N + 1)) (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩; iexists W
  isplitr; · ipureintro; exact fun _ _ => Or.inl trivial
  iexact HO

/-- And out of it. -/
theorem owesAt_zero_elim {cfg : Cfg sig Λ₀} {c : Dev nD} (dat : Dat τ (Elt F) Unit ℕ (UR sig nD τ) ℕ cfg c)
    (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-! ## The regions as segments -/

-- the library's lemmas are stated over `pin pcs a p`: matching them against the pinned configuration takes unfolding
-- plain definitions in a metavariable's type
set_option backward.isDefEq.respectTransparency.types false in
/-- REGION 0 (custom_call 0) over the thread state: entered from every unscoped buffer at `W1`, left at `W2`.
    Its arrays split out of the unscoped buffers and put back at the exit contents; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun c t => owed_eq0 (U1 m ρ) c t
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full (q_eq0 (U1 m ρ) c)) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_zero_intro (pdats m ρ 0 c) 0 (owed_eq0 (U1 m ρ) c 0) (recorded_eq0 (U1 m ρ) c 0))
      iexact HO
    isplitl [Hp]; · iexact Hp
    iexact Hrest
  hin c := by
    refine .trans ?_ (hin0 (U1 m ρ) c)
    unfold Pipeline.ΦA
    iintro ⟨Hp, -, Hr⟩
    isplitl [Hr]; · iexact Hr
    iexact Hp
  hout c := by
    rw [Pipeline.ownSems0_none]
    refine (hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full (q_eq0 (U1 m ρ) c))
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_zero_elim (pdats m ρ 0 c) (Fin.last _) (owed_eq0 (U1 m ρ) c _))
    iexact HO

-- the library's lemmas are stated over `pin pcs a p`: matching them against the pinned configuration takes unfolding
-- plain definitions in a metavariable's type
set_option backward.isDefEq.respectTransparency.types false in
/-- REGION 1 (custom_call 1) over the thread state: entered from every unscoped buffer at `W3`, left at `W4`.
    Its arrays split out of the unscoped buffers and put back at the exit contents; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun c t => owed_eq1 (U3 m ρ) c t
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full (q_eq1 (U3 m ρ) c)) (U3 m ρ c) (A_eq1 (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_zero_intro (pdats m ρ 1 c) 0 (owed_eq1 (U3 m ρ) c 0) (recorded_eq1 (U3 m ρ) c 0))
      iexact HO
    isplitl [Hp]; · iexact Hp
    iexact Hrest
  hin c := by
    refine .trans ?_ (hin1 (U3 m ρ) c)
    unfold Pipeline.ΦA
    iintro ⟨Hp, -, Hr⟩
    isplitl [Hr]; · iexact Hr
    iexact Hp
  hout c := by
    rw [Pipeline.ownSems0_none]
    refine (hout1 (U3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full (q_eq1 (U3 m ρ) c))
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_zero_elim (pdats m ρ 1 c) (Fin.last _) (owed_eq1 (U3 m ρ) c _))
    iexact HO

-- the library's lemmas are stated over `pin pcs a p`: matching them against the pinned configuration takes unfolding
-- plain definitions in a metavariable's type
set_option backward.isDefEq.respectTransparency.types false in
/-- REGION 2 (custom_call 2) over the thread state: entered from every unscoped buffer at `W5`, left at `W6`.
    Its arrays split out of the unscoped buffers and put back at the exit contents; the generator register into the
    region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun c t => owed_eq2 (U5 m ρ) c t
  pre c := iprop(StableHlo.held (c : Thread nD τ) (Pipeline.ucRefs τ sig) (W5 m ρ c) ∗ Rst c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full (q_eq2 (U5 m ρ) c)) (U5 m ρ c) (A_eq2 (U5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_zero_intro (pdats m ρ 2 c) 0 (owed_eq2 (U5 m ρ) c 0) (recorded_eq2 (U5 m ρ) c 0))
      iexact HO
    isplitl [Hp]; · iexact Hp
    iexact Hrest
  hin c := by
    refine .trans ?_ (hin2 (U5 m ρ) c)
    unfold Pipeline.ΦA
    iintro ⟨Hp, -, Hr⟩
    isplitl [Hr]; · iexact Hr
    iexact Hp
  hout c := by
    rw [Pipeline.ownSems0_none]
    refine (hout2 (U5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full (q_eq2 (U5 m ρ) c))
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owesAt_zero_elim (pdats m ρ 2 c) (Fin.last _) (owed_eq2 (U5 m ρ) c _))
    iexact HO

/-! ## @main as segments, and the launch -/

/-- @main's 6 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the last boundary's
    contents `W6`: the launch over the six segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- THE FRAME: every final state of the run has the seven argument arrays as launched — each argument's buffer is an
    unscoped buffer, whose final contents `run_all` names, and the fold at it walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
   ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c)⟩) (run_all m ρ)

end Cert.KernelIdeal.Hand

end
-- ==== Proof.Spec.lean ====
/-
  The three stages of the graph network as whole-array functions over the extended reals, index by index:
  a node-feature product, a fused self-loop-and-bias combine with ReLU followed by a product, and the
  per-graph mean pooling followed by a row-wise log-softmax. Both programs are shown to compute these.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr (a b : Nat) : Type := (⟨2, ![a, b]⟩ : Shape).Idx → EReal
/-- A rank-2 array of 32-bit words. -/
abbrev IArr (a b : Nat) : Type := (⟨2, ![a, b]⟩ : Shape).Idx → BitVec 32

/-- The first feature transform: row `n` of `x` times column `j` of `w`. -/
def G0 (x : Arr 500000 32) (w : Arr 32 16) : Arr 500000 16 :=
  fun i => ∑ k : Fin 32, x (ix2 (i 0 : Fin 500000) k) * w (ix2 k (i 1 : Fin 16))

/-- One entry of the first convolution's output before the second transform: the aggregated messages plus the
    self-loop term plus the bias, clamped below at zero. -/
def act1 (agg h : Arr 500000 16) (d : Arr 500000 1) (b : Arr 1 16) (n : Fin 500000) (k : Fin 16) : EReal :=
  max ((agg (ix2 n k) + h (ix2 n k) * d (ix2 n (0 : Fin 1))) + b (ix2 (0 : Fin 1) k)) (Ideal.ofBits .f32 0x00000000#32)

/-- The second feature transform applied to the activated first convolution. -/
def G1 (agg h : Arr 500000 16) (d : Arr 500000 1) (b : Arr 1 16) (w : Arr 16 2) : Arr 500000 2 :=
  fun i => ∑ k : Fin 16, act1 agg h d b (i 0 : Fin 500000) k * w (ix2 k (i 1 : Fin 2))

/-- One entry of the second convolution's output: aggregated messages, self-loop term, bias. -/
def conv2 (agg h : Arr 500000 2) (d : Arr 500000 1) (b : Arr 1 2) (n : Fin 500000) (c : Fin 2) : EReal :=
  (agg (ix2 n c) + h (ix2 n c) * d (ix2 n (0 : Fin 1))) + b (ix2 (0 : Fin 1) c)

/-- Node `n` belongs to graph `g` when its batch word is `g`'s 32-bit numeral: the membership weight, one or zero. -/
def oneHot (bw : BitVec 32) (g : Fin 1024) : EReal := if bw = BitVec.ofNat 32 g.val then 1 else 0

/-- The per-graph sum of the second convolution's output. -/
def poolSum (agg h : Arr 500000 2) (d : Arr 500000 1) (b : Arr 1 2) (batch : IArr 500000 1) (g : Fin 1024) (c : Fin 2) : EReal :=
  ∑ n : Fin 500000, oneHot (batch (ix2 n (0 : Fin 1))) g * conv2 agg h d b n c

/-- The number of nodes of graph `g`. -/
def poolCnt (batch : IArr 500000 1) (g : Fin 1024) : EReal :=
  ∑ n : Fin 500000, oneHot (batch (ix2 n (0 : Fin 1))) g * Ideal.ofBits .f32 0x3F800000#32

/-- The per-graph mean (the count clamped below at one). -/
def pooled (agg h : Arr 500000 2) (d : Arr 500000 1) (b : Arr 1 2) (batch : IArr 500000 1) (g : Fin 1024) (c : Fin 2) : EReal :=
  Ideal.div (poolSum agg h d b batch g c) (max (poolCnt batch g) (Ideal.ofBits .f32 0x3F800000#32))

/-- A row of two entries shifted by its maximum. -/
def shifted (p : Fin 1024 → Fin 2 → EReal) (g : Fin 1024) (c : Fin 2) : EReal :=
  p g c - max (p g 0) (p g 1)

/-- The row-wise log-softmax of a two-column table: each shifted entry less the logarithm of the row's summed exponentials. -/
def logSoftmax2 (p : Fin 1024 → Fin 2 → EReal) (g : Fin 1024) (c : Fin 2) : EReal :=
  shifted p g c - Ideal.log (Ideal.exp (shifted p g 0) + Ideal.exp (shifted p g 1))

/-- The pooled, normalised output of the network. -/
def G2 (agg h : Arr 500000 2) (d : Arr 500000 1) (b : Arr 1 2) (batch : IArr 500000 1) : Arr 1024 2 :=
  fun i => logSoftmax2 (pooled agg h d b batch) (i 0 : Fin 1024) (i 1 : Fin 2)

end Cert.Spec

end
-- ==== Proof.KI.Val0.lean ====
/-
  Region 0 at the ideal instance: the output array after the region is the product of the node features and the
  first weight matrix, row by row. First the block product at an index; then each grid point's write-back as a
  block of the whole-array product; then the cover of the rows by the blocks.
-/
import proofs.«421952_j37563783971339_2_alg».proof.Proof.KI.R0
import proofs.«421952_j37563783971339_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The block product at an index -/

theorem lhs_mm0_0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem lhs_mm0_1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
theorem rhs_mm0_0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
theorem rhs_mm0_1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- The block's payload at row p, column q: the sum over the 32 features of the row's entry times the weight's. -/
theorem pay0_apply (x0 : Vec Ideal S10000x32 .f32) (x1 : Vec Ideal S32x16 .f32) (p : Fin 10000) (q : Fin 16) :
    k0_pay1 (F := Ideal) x0 x1 (ix2 p q) = ∑ k : Fin 32, x0 (ix2 p k) * x1 (ix2 k q) := by
  unfold k0_pay1
  simp only [matmul]
  rw [Ideal.matmul_constant_zero_apply, ← Equiv.sum_comp (contrEquiv1 dot_S10000x32_S32x16_S10000x16_1_0_0_1_n_n 32 rfl rfl).symm]
  refine Finset.sum_congr rfl fun k _ => ?_
  have hk := contrEquiv1_symm_val dot_S10000x32_S32x16_S10000x16_1_0_0_1_n_n 32 rfl rfl k
  have el : dot_S10000x32_S32x16_S10000x16_1_0_0_1_n_n.lhsIdx (ix2 p q) ((contrEquiv1 dot_S10000x32_S32x16_S10000x16_1_0_0_1_n_n 32 rfl rfl).symm k) = ix2 p k := funext fun a => Fin.ext (by
    match a with
    | ⟨0, _⟩ => exact lhs_mm0_0 _ _
    | ⟨1, _⟩ => exact (lhs_mm0_1 _ _).trans hk)
  have er : dot_S10000x32_S32x16_S10000x16_1_0_0_1_n_n.rhsIdx (ix2 p q) ((contrEquiv1 dot_S10000x32_S32x16_S10000x16_1_0_0_1_n_n 32 rfl rfl).symm k) = ix2 k q := funext fun a => Fin.ext (by
    match a with
    | ⟨0, _⟩ => exact (rhs_mm0_0 _ _).trans hk
    | ⟨1, _⟩ => exact rhs_mm0_1 _ _)
  rw [truncf_apply, truncf_apply, el, er]

/-- Against the whole arrays: when the row block x0 holds the rows of A that the array index i names and the weight
    block x1 is W, the payload at block index j is the whole-array product at i. -/
theorem pay0_eq_G0 (A : Cert.Spec.Arr 500000 32) (W : Cert.Spec.Arr 32 16)
    (x0 : Vec Ideal S10000x32 .f32) (x1 : Vec Ideal S32x16 .f32) (j : S10000x16.Idx) (i : S500000x16.Idx)
    (h0 : ∀ k : Fin 32, x0 (ix2 (j 0) k) = A (ix2 (i 0) k)) (h1 : ∀ k : Fin 32, x1 (ix2 k (j 1)) = W (ix2 k (i 1))) :
    k0_pay1 (F := Ideal) x0 x1 j = Cert.Spec.G0 A W i := by
  obtain ⟨p, q, rfl⟩ : ∃ (p : Fin 10000) (q : Fin 16), j = ix2 p q := ⟨j 0, j 1, eq_ix2 j⟩
  rw [pay0_apply]
  show _ = ∑ k : Fin 32, A (ix2 (i 0) k) * W (ix2 k (i 1))
  exact Finset.sum_congr rfl fun k _ => by rw [← h0 k, ← h1 k]

/-! ## From blocks to the array -/

variable (V : (c : Dev nD) → (b : Ref sig .tc) → Buf (Elt Ideal) ((c : Thread nD τ).loc b))

theorem hz_r0 : (![0, 0] : Fin 2 → Nat) = fun _ => 0 := funext fun a => by fin_cases a <;> rfl

/-- The index maps over the grid: the row blocks of the features and of the output move together, one block a
    point; the weights stay at block zero; every column index is zero. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point t writes back is block t of the whole-array product. -/
theorem flushed0_eq (c : Dev nD) (t : Fin cfg0.N) :
    (dat0 (F := Ideal) V c).flushed 2 t = ((cfg0.win 2).blk t).view.read (Elt Ideal) (Cert.Spec.G0 (V c main_arg0) (V c main_arg1)) := by
  show (cfg0.win 2).cut (grid0.coords t) ((dat0 V c).after 2 t) = _
  rw [after0_2]
  unfold out0_2
  rw [View.canon_unit_zero hz_r0]
  simp only [View.ld_unit_zero (S := S10000x32) hz_r0, View.ld_unit_zero (S := S32x16) hz_r0]
  obtain ⟨e00, e01, e10, e11, e20, e21⟩ := idx_facts0 t
  funext j
  refine pay0_eq_G0 (V c main_arg0) (V c main_arg1) (iblk0 V c 0 t) (iblk0 V c 1 t) ((cfg0.win 2).xinj (grid0.coords t) j) (((cfg0.win 2).blk t).view.emb j) (fun k => ?_) (fun k => ?_)
  · show V c main_arg0 (((cfg0.win 0).blk t).view.emb (ix2 (⟨(j 0).val, (j 0).isLt⟩ : Fin 10000) k)) = V c main_arg0 (ix2 ((((cfg0.win 2).blk t).view.emb j) 0) k)
    refine congrArg _ (funext fun a => Fin.ext ?_)
    match a with
    | ⟨0, _⟩ => show win0_0.index t (0 : Fin 2) * 10000 + 1 * (j 0).val = win0_2.index t (0 : Fin 2) * 10000 + 1 * (j 0).val; rw [e00, e20]
    | ⟨1, _⟩ => show win0_0.index t (1 : Fin 2) * 32 + 1 * k.val = k.val; rw [e01]; omega
  · show V c main_arg1 (((cfg0.win 1).blk t).view.emb (ix2 k (⟨(j 1).val, (j 1).isLt⟩ : Fin 16))) = V c main_arg1 (ix2 k ((((cfg0.win 2).blk t).view.emb j) 1))
    refine congrArg _ (funext fun a => Fin.ext ?_)
    match a with
    | ⟨0, _⟩ => show win0_1.index t (0 : Fin 2) * 32 + 1 * k.val = k.val; rw [e10]; omega
    | ⟨1, _⟩ => show win0_1.index t (1 : Fin 2) * 16 + 1 * (j 1).val = win0_2.index t (1 : Fin 2) * 16 + 1 * (j 1).val; rw [e11, e21]

/-- An index of the output array is in point t's block iff each coordinate is in the block's range on its axis. -/
theorem mem_blk0 (t : Fin cfg0.N) (i : S500000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v28).slice (win0_2.rect t)).set ↔ _
  rw [View.set_slice_whole, Rect.mem_set_unit]
  exact Iff.rfl

/-- Every row of the output is in the block of the point numbered by the row divided by the block height. -/
theorem cover0 (i : S500000x16.Idx) :
    ∃ t : Fin cfg0.N, (cfg0.win 2).flush t = true ∧ i ∈ ((cfg0.win 2).blk t).view.set := by
  have hN : cfg0.N = 50 := N_0
  have hi0 : (i 0).val < 500000 := (i 0).isLt
  have hi1 : (i 1).val < 16 := (i 1).isLt
  have hlt : (i 0).val / 10000 < cfg0.N := by omega
  refine ⟨⟨(i 0).val / 10000, hlt⟩, flush0_2 _, ?_⟩
  obtain ⟨e00, e01, e10, e11, e20, e21⟩ := idx_facts0 ⟨(i 0).val / 10000, hlt⟩
  have e20' : win0_2.index ⟨(i 0).val / 10000, hlt⟩ (0 : Fin 2) = (i 0).val / 10000 := e20
  rw [mem_blk0]
  intro a
  match a with
  | ⟨0, _⟩ => show win0_2.index _ (0 : Fin 2) * 10000 ≤ (i 0).val ∧ (i 0).val < win0_2.index _ (0 : Fin 2) * 10000 + 10000; rw [e20']; omega
  | ⟨1, _⟩ => show win0_2.index _ (1 : Fin 2) * 16 ≤ (i 1).val ∧ (i 1).val < win0_2.index _ (1 : Fin 2) * 16 + 16; rw [e21]; omega

/-- The output array after region 0 is the product of the features and the first weights. -/
theorem final0 (c : Dev nD) :
    (dat0 (F := Ideal) V c).arrAt 2 cfg0.N = Cert.Spec.G0 (V c main_arg0) (V c main_arg1) :=
  (dat0 (F := Ideal) V c).arrAt_eq_of_cover 2 (Cert.Spec.G0 (V c main_arg0) (V c main_arg1)) (fun t _ => flushed0_eq V c t) cover0

end Cert.KernelIdeal.Hand

end
-- ==== Proof.KI.Val1.lean ====
/-
  Region 1 at the ideal instance: the output array after the region is the activated first convolution (aggregated
  messages plus self-loop term plus bias, clamped below at zero) times the second weight matrix, row by row. First
  the block's payload at an index; then each grid point's write-back as a block of that whole-array function; then
  the cover of the rows by the blocks.
-/
import proofs.«421952_j37563783971339_2_alg».proof.Proof.KI.R1
import proofs.«421952_j37563783971339_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The block's payload at an index -/

theorem lhs_mm1_0 (i : S5000x2.Idx) (q : dot_S5000x16_S16x2_S5000x2_1_0_0_1_n_n.contr.Idx) :
    (dot_S5000x16_S16x2_S5000x2_1_0_0_1_n_n.lhsIdx i q 0).val = (i 0).val := by
  unfold DotDims.lhsIdx
  rw [dif_neg (show ¬(0 : Fin S5000x16.rank) ∈ dot_S5000x16_S16x2_S5000x2_1_0_0_1_n_n.lhsBatch by decide), dif_pos (show (0 : Fin S5000x16.rank) ∈ dot_S5000x16_S16x2_S5000x2_1_0_0_1_n_n.lhsNonContracting by decide)]
  rfl
theorem lhs_mm1_1 (i : S5000x2.Idx) (q : dot_S5000x16_S16x2_S5000x2_1_0_0_1_n_n.contr.Idx) :
    (dot_S5000x16_S16x2_S5000x2_1_0_0_1_n_n.lhsIdx i q 1).val = (q ⟨0, by decide⟩).val :=
  dot_S5000x16_S16x2_S5000x2_1_0_0_1_n_n.lhsIdx_val_of_single rfl i q
theorem rhs_mm1_0 (i : S5000x2.Idx) (q : dot_S5000x16_S16x2_S5000x2_1_0_0_1_n_n.contr.Idx) :
    (dot_S5000x16_S16x2_S5000x2_1_0_0_1_n_n.rhsIdx i q 0).val = (q ⟨0, by decide⟩).val :=
  dot_S5000x16_S16x2_S5000x2_1_0_0_1_n_n.rhsIdx_val_of_single rfl i q
theorem rhs_mm1_1 (i : S5000x2.Idx) (q : dot_S5000x16_S16x2_S5000x2_1_0_0_1_n_n.contr.Idx) :
    (dot_S5000x16_S16x2_S5000x2_1_0_0_1_n_n.rhsIdx i q 1).val = (i 1).val := by
  unfold DotDims.rhsIdx
  rw [dif_neg (show ¬(1 : Fin S16x2.rank) ∈ dot_S5000x16_S16x2_S5000x2_1_0_0_1_n_n.rhsBatch by decide), dif_pos (show (1 : Fin S16x2.rank) ∈ dot_S5000x16_S16x2_S5000x2_1_0_0_1_n_n.rhsNonContracting by decide)]
  rfl

/-- A one-column array broadcast along its rows reads, at row p and any column, the operand's entry of row p. -/
theorem broadcastTo_col_r1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block's payload at row p, column q: the sum over the 16 hidden features of the activated combine of the
    row's entries times the weight's. -/
theorem pay1_apply (x0 x1 : Vec Ideal S5000x16 .f32) (x2 : Vec Ideal S5000x1 .f32) (x3 : Vec Ideal S1x16 .f32)
    (x4 : Vec Ideal S16x2 .f32) (p : Fin 5000) (q : Fin 2) :
    k1_pay1 (F := Ideal) x0 x1 x2 x3 x4 (ix2 p q)
      = ∑ k : Fin 16, max ((x0 (ix2 p k) + x1 (ix2 p k) * x2 (ix2 p (0 : Fin 1))) + x3 (ix2 (0 : Fin 1) k)) (Ideal.ofBits .f32 0x00000000#32) * x4 (ix2 k q) := by
  unfold k1_pay1
  simp only [matmul]
  rw [Ideal.matmul_constant_zero_apply, ← Equiv.sum_comp (contrEquiv1 dot_S5000x16_S16x2_S5000x2_1_0_0_1_n_n 16 rfl rfl).symm]
  refine Finset.sum_congr rfl fun k _ => ?_
  have hk := contrEquiv1_symm_val dot_S5000x16_S16x2_S5000x2_1_0_0_1_n_n 16 rfl rfl k
  have el : dot_S5000x16_S16x2_S5000x2_1_0_0_1_n_n.lhsIdx (ix2 p q) ((contrEquiv1 dot_S5000x16_S16x2_S5000x2_1_0_0_1_n_n 16 rfl rfl).symm k) = ix2 p k := funext fun a => Fin.ext (by
    match a with
    | ⟨0, _⟩ => exact lhs_mm1_0 _ _
    | ⟨1, _⟩ => exact (lhs_mm1_1 _ _).trans hk)
  have er : dot_S5000x16_S16x2_S5000x2_1_0_0_1_n_n.rhsIdx (ix2 p q) ((contrEquiv1 dot_S5000x16_S16x2_S5000x2_1_0_0_1_n_n 16 rfl rfl).symm k) = ix2 k q := funext fun a => Fin.ext (by
    match a with
    | ⟨0, _⟩ => exact (rhs_mm1_0 _ _).trans hk
    | ⟨1, _⟩ => exact rhs_mm1_1 _ _)
  rw [el, er, truncf_apply, truncf_apply, maximumf_apply, addf_apply, addf_apply, mulf_apply]
  rw [shapeCast_self, shapeCast_self, shapeCast_self, shapeCast_self, broadcastTo_col_r1, broadcastTo_1b_ab_apply, broadcast_apply]
  rfl

/-- Against the whole arrays: when the five blocks hold what the array index i names, the payload at block index j
    is the whole-array function at i. -/
theorem pay1_eq_G1 (agg h : Cert.Spec.Arr 500000 16) (d : Cert.Spec.Arr 500000 1) (b : Cert.Spec.Arr 1 16) (w : Cert.Spec.Arr 16 2)
    (x0 x1 : Vec Ideal S5000x16 .f32) (x2 : Vec Ideal S5000x1 .f32) (x3 : Vec Ideal S1x16 .f32) (x4 : Vec Ideal S16x2 .f32)
    (j : S5000x2.Idx) (i : S500000x2.Idx)
    (h0 : ∀ k : Fin 16, x0 (ix2 (j 0) k) = agg (ix2 (i 0) k))
    (h1 : ∀ k : Fin 16, x1 (ix2 (j 0) k) = h (ix2 (i 0) k))
    (h2 : x2 (ix2 (j 0) (0 : Fin 1)) = d (ix2 (i 0) (0 : Fin 1)))
    (h3 : ∀ k : Fin 16, x3 (ix2 (0 : Fin 1) k) = b (ix2 (0 : Fin 1) k))
    (h4 : ∀ k : Fin 16, x4 (ix2 k (j 1)) = w (ix2 k (i 1))) :
    k1_pay1 (F := Ideal) x0 x1 x2 x3 x4 j = Cert.Spec.G1 agg h d b w i := by
  obtain ⟨p, q, rfl⟩ : ∃ (p : Fin 5000) (q : Fin 2), j = ix2 p q := ⟨j 0, j 1, eq_ix2 j⟩
  rw [pay1_apply]
  show _ = ∑ k : Fin 16, Cert.Spec.act1 agg h d b (i 0) k * w (ix2 k (i 1))
  refine Finset.sum_congr rfl fun k _ => ?_
  unfold Cert.Spec.act1
  rw [← h0 k, ← h1 k, ← h2, ← h3 k, ← h4 k]

/-! ## From blocks to the array -/

variable (V : (c : Dev nD) → (b : Ref sig .tc) → Buf (Elt Ideal) ((c : Thread nD τ).loc b))

theorem hz_r1 : (![0, 0] : Fin 2 → Nat) = fun _ => 0 := funext fun a => by fin_cases a <;> rfl

/-- The index maps over the grid: the row blocks of the aggregated messages, of the first transform, of the
    normalisation column and of the output move together, one block a point; the bias row and the weights stay at
    block zero; every column index is zero. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- What grid point t writes back is block t of the whole-array function. -/
theorem flushed1_eq (c : Dev nD) (t : Fin cfg1.N) :
    (dat1 (F := Ideal) V c).flushed 5 t = ((cfg1.win 5).blk t).view.read (Elt Ideal)
      (Cert.Spec.G1 (V c main_v41) (V c main_v28) (V c main_v12) (V c main_v42) (V c main_arg3)) := by
  show (cfg1.win 5).cut (grid1.coords t) ((dat1 V c).after 5 t) = _
  rw [after1_5]
  unfold out1_5
  rw [View.canon_unit_zero hz_r1]
  simp only [View.ld_unit_zero (S := S5000x16) hz_r1, View.ld_unit_zero (S := S5000x1) hz_r1, View.ld_unit_zero (S := S1x16) hz_r1, View.ld_unit_zero (S := S16x2) hz_r1]
  obtain ⟨e00, e01, e10, e11, e20, e21, e30, e31, e40, e41, e50, e51⟩ := idx_facts1 t
  funext j
  refine pay1_eq_G1 (V c main_v41) (V c main_v28) (V c main_v12) (V c main_v42) (V c main_arg3)
    (iblk1 V c 0 t) (iblk1 V c 1 t) (iblk1 V c 2 t) (iblk1 V c 3 t) (iblk1 V c 4 t)
    ((cfg1.win 5).xinj (grid1.coords t) j) (((cfg1.win 5).blk t).view.emb j) (fun k => ?_) (fun k => ?_) ?_ (fun k => ?_) (fun k => ?_)
  · show V c main_v41 (((cfg1.win 0).blk t).view.emb (ix2 (⟨(j 0).val, (j 0).isLt⟩ : Fin 5000) k)) = V c main_v41 (ix2 ((((cfg1.win 5).blk t).view.emb j) 0) k)
    refine congrArg _ (funext fun a => Fin.ext ?_)
    match a with
    | ⟨0, _⟩ => show win1_0.index t (0 : Fin 2) * 5000 + 1 * (j 0).val = win1_5.index t (0 : Fin 2) * 5000 + 1 * (j 0).val; rw [e00, e50]
    | ⟨1, _⟩ => show win1_0.index t (1 : Fin 2) * 16 + 1 * k.val = k.val; rw [e01]; omega
  · show V c main_v28 (((cfg1.win 1).blk t).view.emb (ix2 (⟨(j 0).val, (j 0).isLt⟩ : Fin 5000) k)) = V c main_v28 (ix2 ((((cfg1.win 5).blk t).view.emb j) 0) k)
    refine congrArg _ (funext fun a => Fin.ext ?_)
    match a with
    | ⟨0, _⟩ => show win1_1.index t (0 : Fin 2) * 5000 + 1 * (j 0).val = win1_5.index t (0 : Fin 2) * 5000 + 1 * (j 0).val; rw [e10, e50]
    | ⟨1, _⟩ => show win1_1.index t (1 : Fin 2) * 16 + 1 * k.val = k.val; rw [e11]; omega
  · show V c main_v12 (((cfg1.win 2).blk t).view.emb (ix2 (⟨(j 0).val, (j 0).isLt⟩ : Fin 5000) (0 : Fin 1))) = V c main_v12 (ix2 ((((cfg1.win 5).blk t).view.emb j) 0) (0 : Fin 1))
    refine congrArg _ (funext fun a => Fin.ext ?_)
    match a with
    | ⟨0, _⟩ => show win1_2.index t (0 : Fin 2) * 5000 + 1 * (j 0).val = win1_5.index t (0 : Fin 2) * 5000 + 1 * (j 0).val; rw [e20, e50]
    | ⟨1, _⟩ => show win1_2.index t (1 : Fin 2) * 1 + 1 * 0 = 0; rw [e21]
  · show V c main_v42 (((cfg1.win 3).blk t).view.emb (ix2 (0 : Fin 1) k)) = V c main_v42 (ix2 (0 : Fin 1) k)
    refine congrArg _ (funext fun a => Fin.ext ?_)
    match a with
    | ⟨0, _⟩ => show win1_3.index t (0 : Fin 2) * 1 + 1 * 0 = 0; rw [e30]
    | ⟨1, _⟩ => show win1_3.index t (1 : Fin 2) * 16 + 1 * k.val = k.val; rw [e31]; omega
  · show V c main_arg3 (((cfg1.win 4).blk t).view.emb (ix2 k (⟨(j 1).val, (j 1).isLt⟩ : Fin 2))) = V c main_arg3 (ix2 k ((((cfg1.win 5).blk t).view.emb j) 1))
    refine congrArg _ (funext fun a => Fin.ext ?_)
    match a with
    | ⟨0, _⟩ => show win1_4.index t (0 : Fin 2) * 16 + 1 * k.val = k.val; rw [e40]; omega
    | ⟨1, _⟩ => show win1_4.index t (1 : Fin 2) * 2 + 1 * (j 1).val = win1_5.index t (1 : Fin 2) * 2 + 1 * (j 1).val; rw [e41, e51]

/-- An index of the output array is in point t's block iff each coordinate is in the block's range on its axis. -/
theorem mem_blk1 (t : Fin cfg1.N) (i : S500000x2.Idx) :
    i ∈ ((cfg1.win 5).blk t).view.set ↔ ∀ a : Fin 2, win1_5.index t a * S5000x2.size a ≤ (i a).val ∧ (i a).val < win1_5.index t a * S5000x2.size a + S5000x2.size a := by
  show i ∈ ((View.whole main_v43).slice (win1_5.rect t)).set ↔ _
  rw [View.set_slice_whole, Rect.mem_set_unit]
  exact Iff.rfl

/-- Every row of the output is in the block of the point numbered by the row divided by the block height. -/
theorem cover1 (i : S500000x2.Idx) :
    ∃ t : Fin cfg1.N, (cfg1.win 5).flush t = true ∧ i ∈ ((cfg1.win 5).blk t).view.set := by
  have hN : cfg1.N = 100 := N_1
  have hi0 : (i 0).val < 500000 := (i 0).isLt
  have hi1 : (i 1).val < 2 := (i 1).isLt
  have hlt : (i 0).val / 5000 < cfg1.N := by omega
  refine ⟨⟨(i 0).val / 5000, hlt⟩, flush1_5 _, ?_⟩
  obtain ⟨e00, e01, e10, e11, e20, e21, e30, e31, e40, e41, e50, e51⟩ := idx_facts1 ⟨(i 0).val / 5000, hlt⟩
  have e50' : win1_5.index ⟨(i 0).val / 5000, hlt⟩ (0 : Fin 2) = (i 0).val / 5000 := e50
  rw [mem_blk1]
  intro a
  match a with
  | ⟨0, _⟩ => show win1_5.index _ (0 : Fin 2) * 5000 ≤ (i 0).val ∧ (i 0).val < win1_5.index _ (0 : Fin 2) * 5000 + 5000; rw [e50']; omega
  | ⟨1, _⟩ => show win1_5.index _ (1 : Fin 2) * 2 ≤ (i 1).val ∧ (i 1).val < win1_5.index _ (1 : Fin 2) * 2 + 2; rw [e51]; omega

/-- The output array after region 1 is the activated first convolution times the second weights. -/
theorem final1 (c : Dev nD) :
    (dat1 (F := Ideal) V c).arrAt 5 cfg1.N
      = Cert.Spec.G1 (V c main_v41) (V c main_v28) (V c main_v12) (V c main_v42) (V c main_arg3) :=
  (dat1 (F := Ideal) V c).arrAt_eq_of_cover 5
    (Cert.Spec.G1 (V c main_v41) (V c main_v28) (V c main_v12) (V c main_v42) (V c main_arg3))
    (fun t _ => flushed1_eq V c t) cover1

end Cert.KernelIdeal.Hand

end
-- ==== Proof.KI.Val2Pay.lean ====
/-
  The arithmetic of the pooling region read at an index, over the extended reals: the membership matrix of a block
  of batch words, the two matrix products that add a block's contribution to the per-graph sums and counts, the zero
  fills, and the row-wise log-softmax of the per-graph means.
-/
import proofs.«421952_j37563783971339_2_alg».proof.Proof.Gen.KernelIdeal.Skeleton
import proofs.«421952_j37563783971339_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## Columns broadcast along rows, a row broadcast along columns -/

/-- A column of 2000 entries broadcast to 1024 columns reads its row's entry. -/
theorem bcast_2000x1_2000x1024 {α : Type} (x : S2000x1.Idx → α) (h : S2000x1.Broadcasts S2000x1024) (r : Fin 2000) (g : Fin 1024) :
    broadcastTo S2000x1024 x h (ix2 r g) = x (ix2 r (0 : Fin 1)) :=
  broadcastTo_apply x h (ix2 r g) (ix2 r (0 : Fin 1)) (fun a => match a with
    | ⟨0, _⟩ => by show r.val = if (2000 : ℕ) = 1 then 0 else r.val; rw [if_neg (by decide)]
    | ⟨1, _⟩ => by show (0 : ℕ) = if (1 : ℕ) = 1 then 0 else g.val; rw [if_pos rfl])

/-- A column of 2000 entries broadcast to 2 columns reads its row's entry. -/
theorem bcast_2000x1_2000x2 {α : Type} (x : S2000x1.Idx → α) (h : S2000x1.Broadcasts S2000x2) (r : Fin 2000) (c : Fin 2) :
    broadcastTo S2000x2 x h (ix2 r c) = x (ix2 r (0 : Fin 1)) :=
  broadcastTo_apply x h (ix2 r c) (ix2 r (0 : Fin 1)) (fun a => match a with
    | ⟨0, _⟩ => by show r.val = if (2000 : ℕ) = 1 then 0 else r.val; rw [if_neg (by decide)]
    | ⟨1, _⟩ => by show (0 : ℕ) = if (1 : ℕ) = 1 then 0 else c.val; rw [if_pos rfl])

/-- A row of 2 entries broadcast to 2000 rows reads its column's entry. -/
theorem bcast_1x2_2000x2 {α : Type} (x : S1x2.Idx → α) (h : S1x2.Broadcasts S2000x2) (r : Fin 2000) (c : Fin 2) :
    broadcastTo S2000x2 x h (ix2 r c) = x (ix2 (0 : Fin 1) c) :=
  broadcastTo_apply x h (ix2 r c) (ix2 (0 : Fin 1) c) (fun a => match a with
    | ⟨0, _⟩ => by show (0 : ℕ) = if (1 : ℕ) = 1 then 0 else r.val; rw [if_pos rfl]
    | ⟨1, _⟩ => by show c.val = if (2 : ℕ) = 1 then 0 else c.val; rw [if_neg (by decide)])

/-- A column of 1024 entries broadcast to 2 columns reads its row's entry. -/
theorem bcast_1024x1_1024x2 {α : Type} (x : S1024x1.Idx → α) (h : S1024x1.Broadcasts S1024x2) (g : Fin 1024) (c : Fin 2) :
    broadcastTo S1024x2 x h (ix2 g c) = x (ix2 g (0 : Fin 1)) :=
  broadcastTo_apply x h (ix2 g c) (ix2 g (0 : Fin 1)) (fun a => match a with
    | ⟨0, _⟩ => by show g.val = if (1024 : ℕ) = 1 then 0 else g.val; rw [if_neg (by decide)]
    | ⟨1, _⟩ => by show (0 : ℕ) = if (1 : ℕ) = 1 then 0 else c.val; rw [if_pos rfl])

/-- A vector of 1024 entries recast as a column reads its row's entry. -/
theorem cast_1024_1024x1 {α : Type} (x : S1024.Idx → α) (h : S1024.ShapeCasts S1024x1) (g : Fin 1024) :
    shapeCast S1024x1 x h (ix2 g (0 : Fin 1)) = x (ix1 g) :=
  shapeCast_apply x h (ix2 g (0 : Fin 1)) (ix1 g) (by
    rewrite [Shape.rowMajor_val_one, Shape.rowMajor_val_two]
    show g.val = g.val * 1 + 0
    omega)

/-! ## The membership matrix -/

/-- Entry (r, g) of the membership matrix of a block: one when row `r`'s batch word is `g`'s numeral, else zero. -/
theorem k2_pay5_apply (v17 : Vec Ideal S2000x1 .i32) (r : Fin 2000) (g : Fin 1024) :
    k2_pay5 (F := Ideal) v17 (ix2 r g) = Cert.Spec.oneHot (v17 (ix2 r (0 : Fin 1))) g := by
  unfold k2_pay5
  rw [sitofp_apply, extui_apply]
  show (((BitVec.setWidth 32 (IntOp.cmpi .eq
      (broadcastTo S2000x1024 (shapeCast S2000x1 v17 shapeCasts_S2000x1_S2000x1) broadcasts_S2000x1_S2000x1024 (ix2 r g))
      (iota .tc S2000x1024 32 [1] iota_S2000x1024_d1_w32 (ix2 r g)))).toInt : ℝ) : EReal) = _
  rw [bcast_2000x1_2000x1024, shapeCast_self]
  have hi : iota .tc S2000x1024 32 [1] iota_S2000x1024_d1_w32 (ix2 r g) = BitVec.ofNat 32 g.val := by
    show BitVec.ofNat 32 (0 * 1024 + g.val) = _
    rw [Nat.zero_mul, Nat.zero_add]
  rw [hi]
  unfold Cert.Spec.oneHot
  by_cases hb : v17 (ix2 r (0 : Fin 1)) = BitVec.ofNat 32 g.val
  · rw [if_pos hb, hb]
    have h1 : IntOp.cmpi .eq (BitVec.ofNat 32 g.val) (BitVec.ofNat 32 g.val) = 1#1 := by simp [IntOp.cmpi]
    rw [h1]
    have h2 : (BitVec.setWidth 32 1#1).toInt = 1 := by decide
    rw [h2]
    simp
  · rw [if_neg hb]
    have h0 : IntOp.cmpi .eq (v17 (ix2 r (0 : Fin 1))) (BitVec.ofNat 32 g.val) = 0#1 := by
      show BitVec.ofBool (v17 (ix2 r (0 : Fin 1)) == BitVec.ofNat 32 g.val) = 0#1
      rw [beq_eq_false_iff_ne.mpr hb]
      rfl
    rw [h0]
    have h2 : (BitVec.setWidth 32 0#1).toInt = 0 := by decide
    rw [h2]
    simp

/-! ## The two matrix products -/

theorem lhs_sum_0 (i : S1024x2.Idx) (q : dot_S2000x1024_S2000x2_S1024x2_0_0_1_1_n_n.contr.Idx) :
    (dot_S2000x1024_S2000x2_S1024x2_0_0_1_1_n_n.lhsIdx i q 0).val = (q ⟨0, by decide⟩).val :=
  dot_S2000x1024_S2000x2_S1024x2_0_0_1_1_n_n.lhsIdx_val_of_single rfl i q
theorem lhs_sum_1 (i : S1024x2.Idx) (q : dot_S2000x1024_S2000x2_S1024x2_0_0_1_1_n_n.contr.Idx) :
    (dot_S2000x1024_S2000x2_S1024x2_0_0_1_1_n_n.lhsIdx i q 1).val = (i 0).val := by
  unfold DotDims.lhsIdx
  rw [dif_neg (show ¬(1 : Fin S2000x1024.rank) ∈ dot_S2000x1024_S2000x2_S1024x2_0_0_1_1_n_n.lhsBatch by decide), dif_pos (show (1 : Fin S2000x1024.rank) ∈ dot_S2000x1024_S2000x2_S1024x2_0_0_1_1_n_n.lhsNonContracting by decide)]
  rfl
theorem rhs_sum_0 (i : S1024x2.Idx) (q : dot_S2000x1024_S2000x2_S1024x2_0_0_1_1_n_n.contr.Idx) :
    (dot_S2000x1024_S2000x2_S1024x2_0_0_1_1_n_n.rhsIdx i q 0).val = (q ⟨0, by decide⟩).val :=
  dot_S2000x1024_S2000x2_S1024x2_0_0_1_1_n_n.rhsIdx_val_of_single rfl i q
theorem rhs_sum_1 (i : S1024x2.Idx) (q : dot_S2000x1024_S2000x2_S1024x2_0_0_1_1_n_n.contr.Idx) :
    (dot_S2000x1024_S2000x2_S1024x2_0_0_1_1_n_n.rhsIdx i q 1).val = (i 1).val := by
  unfold DotDims.rhsIdx
  rw [dif_neg (show ¬(1 : Fin S2000x2.rank) ∈ dot_S2000x1024_S2000x2_S1024x2_0_0_1_1_n_n.rhsBatch by decide), dif_pos (show (1 : Fin S2000x2.rank) ∈ dot_S2000x1024_S2000x2_S1024x2_0_0_1_1_n_n.rhsNonContracting by decide)]
  rfl

/-- The product of a transposed 2000 × 1024 matrix with a 2000 × 2 matrix, accumulated from zero, at entry (g, c):
    the sum over the 2000 rows of the two operands' entries at (r, g) and (r, c). -/
theorem matmul_sum_apply (l : FVec Ideal S2000x1024 .f32) (x : FVec Ideal S2000x2 .f32) (g : Fin 1024) (c : Fin 2) :
    matmul dot_S2000x1024_S2000x2_S1024x2_0_0_1_1_n_n (some .fp32) l x (constant (F := Ideal) S1024x2 .f32 0x00000000#32) (ix2 g c)
      = ∑ r : Fin 2000, l (ix2 r g) * x (ix2 r c) := by
  simp only [matmul]
  rw [Ideal.matmul_constant_zero_apply, ← Equiv.sum_comp (ValueIdx.contrEquiv1 dot_S2000x1024_S2000x2_S1024x2_0_0_1_1_n_n 2000 rfl rfl).symm]
  refine Finset.sum_congr rfl fun k _ => ?_
  have hk := ValueIdx.contrEquiv1_symm_val dot_S2000x1024_S2000x2_S1024x2_0_0_1_1_n_n 2000 rfl rfl k
  have el : dot_S2000x1024_S2000x2_S1024x2_0_0_1_1_n_n.lhsIdx (ix2 g c) ((ValueIdx.contrEquiv1 dot_S2000x1024_S2000x2_S1024x2_0_0_1_1_n_n 2000 rfl rfl).symm k) = ix2 k g := funext fun a => Fin.ext (by
    match a with
    | ⟨0, _⟩ => exact (lhs_sum_0 _ _).trans hk
    | ⟨1, _⟩ => exact lhs_sum_1 _ _)
  have er : dot_S2000x1024_S2000x2_S1024x2_0_0_1_1_n_n.rhsIdx (ix2 g c) ((ValueIdx.contrEquiv1 dot_S2000x1024_S2000x2_S1024x2_0_0_1_1_n_n 2000 rfl rfl).symm k) = ix2 k c := funext fun a => Fin.ext (by
    match a with
    | ⟨0, _⟩ => exact (rhs_sum_0 _ _).trans hk
    | ⟨1, _⟩ => exact rhs_sum_1 _ _)
  rw [el, er]

theorem lhs_cnt_0 (i : S1024x1.Idx) (q : dot_S2000x1024_S2000x1_S1024x1_0_0_1_1_n_n.contr.Idx) :
    (dot_S2000x1024_S2000x1_S1024x1_0_0_1_1_n_n.lhsIdx i q 0).val = (q ⟨0, by decide⟩).val :=
  dot_S2000x1024_S2000x1_S1024x1_0_0_1_1_n_n.lhsIdx_val_of_single rfl i q
theorem lhs_cnt_1 (i : S1024x1.Idx) (q : dot_S2000x1024_S2000x1_S1024x1_0_0_1_1_n_n.contr.Idx) :
    (dot_S2000x1024_S2000x1_S1024x1_0_0_1_1_n_n.lhsIdx i q 1).val = (i 0).val := by
  unfold DotDims.lhsIdx
  rw [dif_neg (show ¬(1 : Fin S2000x1024.rank) ∈ dot_S2000x1024_S2000x1_S1024x1_0_0_1_1_n_n.lhsBatch by decide), dif_pos (show (1 : Fin S2000x1024.rank) ∈ dot_S2000x1024_S2000x1_S1024x1_0_0_1_1_n_n.lhsNonContracting by decide)]
  rfl
theorem rhs_cnt_0 (i : S1024x1.Idx) (q : dot_S2000x1024_S2000x1_S1024x1_0_0_1_1_n_n.contr.Idx) :
    (dot_S2000x1024_S2000x1_S1024x1_0_0_1_1_n_n.rhsIdx i q 0).val = (q ⟨0, by decide⟩).val :=
  dot_S2000x1024_S2000x1_S1024x1_0_0_1_1_n_n.rhsIdx_val_of_single rfl i q
theorem rhs_cnt_1 (i : S1024x1.Idx) (q : dot_S2000x1024_S2000x1_S1024x1_0_0_1_1_n_n.contr.Idx) :
    (dot_S2000x1024_S2000x1_S1024x1_0_0_1_1_n_n.rhsIdx i q 1).val = (i 1).val := by
  unfold DotDims.rhsIdx
  rw [dif_neg (show ¬(1 : Fin S2000x1.rank) ∈ dot_S2000x1024_S2000x1_S1024x1_0_0_1_1_n_n.rhsBatch by decide), dif_pos (show (1 : Fin S2000x1.rank) ∈ dot_S2000x1024_S2000x1_S1024x1_0_0_1_1_n_n.rhsNonContracting by decide)]
  rfl

/-- The product of a transposed 2000 × 1024 matrix with a column of 2000 entries, accumulated from zero, at row g:
    the sum over the 2000 rows of the two operands' entries at (r, g) and (r, 0). -/
theorem matmul_cnt_apply (l : FVec Ideal S2000x1024 .f32) (x : FVec Ideal S2000x1 .f32) (g : Fin 1024) :
    matmul dot_S2000x1024_S2000x1_S1024x1_0_0_1_1_n_n (some .fp32) l x (constant (F := Ideal) S1024x1 .f32 0x00000000#32) (ix2 g (0 : Fin 1))
      = ∑ r : Fin 2000, l (ix2 r g) * x (ix2 r (0 : Fin 1)) := by
  simp only [matmul]
  rw [Ideal.matmul_constant_zero_apply, ← Equiv.sum_comp (ValueIdx.contrEquiv1 dot_S2000x1024_S2000x1_S1024x1_0_0_1_1_n_n 2000 rfl rfl).symm]
  refine Finset.sum_congr rfl fun k _ => ?_
  have hk := ValueIdx.contrEquiv1_symm_val dot_S2000x1024_S2000x1_S1024x1_0_0_1_1_n_n 2000 rfl rfl k
  have el : dot_S2000x1024_S2000x1_S1024x1_0_0_1_1_n_n.lhsIdx (ix2 g (0 : Fin 1)) ((ValueIdx.contrEquiv1 dot_S2000x1024_S2000x1_S1024x1_0_0_1_1_n_n 2000 rfl rfl).symm k) = ix2 k g := funext fun a => Fin.ext (by
    match a with
    | ⟨0, _⟩ => exact (lhs_cnt_0 _ _).trans hk
    | ⟨1, _⟩ => exact lhs_cnt_1 _ _)
  have er : dot_S2000x1024_S2000x1_S1024x1_0_0_1_1_n_n.rhsIdx (ix2 g (0 : Fin 1)) ((ValueIdx.contrEquiv1 dot_S2000x1024_S2000x1_S1024x1_0_0_1_1_n_n 2000 rfl rfl).symm k) = ix2 k (0 : Fin 1) := funext fun a => Fin.ext (by
    match a with
    | ⟨0, _⟩ => exact (rhs_cnt_0 _ _).trans hk
    | ⟨1, _⟩ => exact rhs_cnt_1 _ _)
  rw [el, er]

/-- Entry (g, c) of the sums after a block: what was there plus, over the block's 2000 rows, the membership weight of
    the row in graph g times the row's combined feature c (aggregate plus self-loop term plus bias). -/
theorem k2_pay6_apply (v3 v5 : Vec Ideal S2000x2 .f32) (v7 : Vec Ideal S2000x1 .f32) (v12 : Vec Ideal S1x2 .f32)
    (v17 : Vec Ideal S2000x1 .i32) (v26 : Vec Ideal S1024x2 .f32) (g : Fin 1024) (c : Fin 2) :
    k2_pay6 (F := Ideal) v3 v5 v7 v12 v17 v26 (ix2 g c)
      = v26 (ix2 g c) + ∑ r : Fin 2000, Cert.Spec.oneHot (v17 (ix2 r (0 : Fin 1))) g
          * ((v3 (ix2 r c) + v5 (ix2 r c) * v7 (ix2 r (0 : Fin 1))) + v12 (ix2 (0 : Fin 1) c)) := by
  unfold k2_pay6
  simp only [shapeCast_self]
  rw [addf_apply]
  refine congrArg (fun z => v26 (ix2 g c) + z) ?_
  refine (matmul_sum_apply _ _ g c).trans (Finset.sum_congr rfl fun r _ => ?_)
  rw [k2_pay5_apply, addf_apply, addf_apply, mulf_apply, bcast_2000x1_2000x2, bcast_1x2_2000x2]

/-- Row g of the counts after a block: what was there plus, over the block's 2000 rows, the membership weight of the
    row in graph g times one. -/
theorem k2_pay7_apply (v17 : Vec Ideal S2000x1 .i32) (v31 : Vec Ideal S1024x1 .f32) (g : Fin 1024) :
    k2_pay7 (F := Ideal) v17 v31 (ix2 g (0 : Fin 1))
      = v31 (ix2 g (0 : Fin 1)) + ∑ r : Fin 2000, Cert.Spec.oneHot (v17 (ix2 r (0 : Fin 1))) g * Ideal.ofBits .f32 0x3F800000#32 := by
  unfold k2_pay7
  rw [addf_apply]
  refine congrArg (fun z => v31 (ix2 g (0 : Fin 1)) + z) ?_
  refine (matmul_cnt_apply _ _ g).trans (Finset.sum_congr rfl fun r _ => ?_)
  rw [k2_pay5_apply]
  rfl

/-- The carried count goes through unchanged. -/
theorem k2_pay1_eq {F : FTy → Type} [FloatOps F] (v32 : FVec F S1024x1 .f32) : k2_pay1 v32 = v32 := by
  unfold k2_pay1
  exact shapeCast_self _ _

/-- The fill of the sums is zero everywhere. -/
theorem k2_pay3_apply (j : S1024x2.Idx) : k2_pay3 (F := Ideal) j = (0 : EReal) := by
  unfold k2_pay3
  rw [shapeCast_self]
  exact Ideal.ofBits_zero_f32

/-- The fill of the counts is zero everywhere. -/
theorem k2_pay4_apply (j : S1024x1.Idx) : k2_pay4 (F := Ideal) j = (0 : EReal) := by
  unfold k2_pay4
  rw [shapeCast_self]
  exact Ideal.ofBits_zero_f32

/-! ## The row-wise log-softmax of the means -/

/-- The maximum of two entries, folded from the least element. -/
theorem fold_max_two (f : Fin 2 → EReal) : (Finset.univ : Finset (Fin 2)).fold max ⊥ f = max (f 0) (f 1) := by
  rw [show (Finset.univ : Finset (Fin 2)) = {0, 1} from rfl, Finset.fold_insert (by decide), Finset.fold_singleton, max_bot_right]

/-- The maximum over a row of two entries. -/
theorem rowmax_apply (x : FVec Ideal S1024x2 .f32) (h : S1024x2.Reduces [1] S1024) (hφ : FKind.Formats .f32)
    (hacc : (0xFF800000#32 : BitVec 32) = 0xFF800000#32) (g : Fin 1024) :
    multiReduction .maximumf [1] S1024 x 0xFF800000#32 h hφ hacc (ix1 g) = max (x (ix2 g (0 : Fin 2))) (x (ix2 g (1 : Fin 2))) := by
  refine (Ideal.multiReduction_maximumf_single x 0xFF800000#32 h hφ hacc (ix1 g)).trans ?_
  have e0 : h.lift (ix1 g) (0 : Fin 2) = ix2 g (0 : Fin 2) := funext fun a => Fin.ext (by
    match a with
    | ⟨0, _⟩ => rfl
    | ⟨1, _⟩ => rfl)
  have e1 : h.lift (ix1 g) (1 : Fin 2) = ix2 g (1 : Fin 2) := funext fun a => Fin.ext (by
    match a with
    | ⟨0, _⟩ => rfl
    | ⟨1, _⟩ => rfl)
  have hb : Ideal.ofBits .f32 0xFF800000#32 = (⊥ : EReal) := by simp [Ideal.ofBits, Ideal.ieee]
  calc (Finset.univ : Finset (Fin 2)).fold max (Ideal.ofBits .f32 0xFF800000#32) (fun k : Fin 2 => x (h.lift (ix1 g) k))
      = (Finset.univ : Finset (Fin 2)).fold max (⊥ : EReal) (fun k : Fin 2 => x (h.lift (ix1 g) k)) := by rw [hb]
    _ = max (x (h.lift (ix1 g) (0 : Fin 2))) (x (h.lift (ix1 g) (1 : Fin 2))) := fold_max_two _
    _ = _ := by rw [e0, e1]

/-- The sum over a row of two entries. -/
theorem rowsum_apply (x : FVec Ideal S1024x2 .f32) (h : S1024x2.Reduces [1] S1024) (hφ : FKind.Formats .f32)
    (hacc : (0x00000000#32 : BitVec 32) = 0x00000000#32) (g : Fin 1024) :
    multiReduction .add [1] S1024 x 0x00000000#32 h hφ hacc (ix1 g) = x (ix2 g (0 : Fin 2)) + x (ix2 g (1 : Fin 2)) := by
  refine (Ideal.multiReduction_add_single x 0x00000000#32 h hφ hacc (ix1 g)).trans ?_
  have e0 : h.lift (ix1 g) (0 : Fin 2) = ix2 g (0 : Fin 2) := funext fun a => Fin.ext (by
    match a with
    | ⟨0, _⟩ => rfl
    | ⟨1, _⟩ => rfl)
  have e1 : h.lift (ix1 g) (1 : Fin 2) = ix2 g (1 : Fin 2) := funext fun a => Fin.ext (by
    match a with
    | ⟨0, _⟩ => rfl
    | ⟨1, _⟩ => rfl)
  show ∑ k : Fin 2, x (h.lift (ix1 g) k) = _
  rw [Fin.sum_univ_two, e0, e1]

/-- The logarithm and the exponential of a vector, read at an index. -/
theorem vlog_apply {s : Shape} (x : FVec Ideal s .f32) (i : s.Idx) : log x i = Ideal.log (x i) := rfl
theorem vexp_apply {s : Shape} (x : FVec Ideal s .f32) (i : s.Idx) : exp x i = Ideal.exp (x i) := rfl

/-- A table of 1024 rows and two columns, each row shifted by its maximum and then less the logarithm of the row's
    summed exponentials, is the row-wise log-softmax of the table. -/
theorem logsoftmax_rows (X : FVec Ideal S1024x2 .f32) (h : S1024x2.Reduces [1] S1024) (hφ : FKind.Formats .f32)
    (hm : (0xFF800000#32 : BitVec 32) = 0xFF800000#32) (ha : (0x00000000#32 : BitVec 32) = 0x00000000#32)
    (hc : S1024.ShapeCasts S1024x1) (hb : S1024x1.Broadcasts S1024x2) (g : Fin 1024) (c : Fin 2) :
    subf (subf X (broadcastTo S1024x2 (shapeCast S1024x1 (multiReduction .maximumf [1] S1024 X 0xFF800000#32 h hφ hm) hc) hb))
      (broadcastTo S1024x2 (log (shapeCast S1024x1 (multiReduction .add [1] S1024
        (exp (subf X (broadcastTo S1024x2 (shapeCast S1024x1 (multiReduction .maximumf [1] S1024 X 0xFF800000#32 h hφ hm) hc) hb)))
        0x00000000#32 h hφ ha) hc)) hb) (ix2 g c)
      = Cert.Spec.logSoftmax2 (fun g c => X (ix2 g c)) g c := by
  have hs : ∀ (g : Fin 1024) (c : Fin 2),
      subf X (broadcastTo S1024x2 (shapeCast S1024x1 (multiReduction .maximumf [1] S1024 X 0xFF800000#32 h hφ hm) hc) hb) (ix2 g c)
        = Cert.Spec.shifted (fun g c => X (ix2 g c)) g c := by
    intro g c
    rw [subf_apply, bcast_1024x1_1024x2, cast_1024_1024x1, rowmax_apply]
    rfl
  rw [subf_apply, hs, bcast_1024x1_1024x2, vlog_apply, cast_1024_1024x1, rowsum_apply, vexp_apply, vexp_apply, hs, hs]
  rfl

/-- Entry (g, c) of the output: the log-softmax, along the row, of the sums divided by the counts clamped below at one. -/
theorem k2_pay2_apply (v39 : Vec Ideal S1024x2 .f32) (v40 : Vec Ideal S1024x1 .f32) (g : Fin 1024) (c : Fin 2) :
    k2_pay2 (F := Ideal) v39 v40 (ix2 g c)
      = Cert.Spec.logSoftmax2 (fun g c => Ideal.div (v39 (ix2 g c)) (max (v40 (ix2 g (0 : Fin 1))) (Ideal.ofBits .f32 0x3F800000#32))) g c := by
  have hp : ∀ (g : Fin 1024) (c : Fin 2),
      divf v39 (broadcastTo S1024x2 (maximumf v40 (broadcast S1024x1 (Scalar.ofBits (F := Ideal) .f32 0x3F800000#32))) broadcasts_S1024x1_S1024x2) (ix2 g c)
        = Ideal.div (v39 (ix2 g c)) (max (v40 (ix2 g (0 : Fin 1))) (Ideal.ofBits .f32 0x3F800000#32)) := by
    intro g c
    rw [divf_apply, bcast_1024x1_1024x2, maximumf_apply]
    rfl
  unfold k2_pay2
  refine (logsoftmax_rows _ _ _ _ _ _ _ g c).trans ?_
  exact congrArg (fun q => Cert.Spec.logSoftmax2 q g c) (funext fun g => funext fun c => hp g c)

end Cert.KernelIdeal.Hand

end
-- ==== Proof.KI.Val2Fold.lean ====
/-
  Two facts about finite sums in a commutative additive monoid, used to read an accumulator that is
  filled point by point over 250 grid points, each point adding a sum over a block of 2000 rows.
-/
import Idealize.ShloMosaic.PureOps.Ideal

noncomputable section

namespace Cert.KernelIdeal.Hand

open scoped BigOperators

/-- A sequence that starts at `0 + f 0` and adds `f (n+1)` at step `n+1` holds, at every step `n`, the sum of
    `f` over the steps up to `n`. -/
theorem accum_eq_sum_range {M : Type*} [AddCommMonoid M] (N : ℕ) (a f : ℕ → M)
    (h0 : a 0 = 0 + f 0) (hs : ∀ n, n + 1 < N → a (n + 1) = a n + f (n + 1)) :
    ∀ n, n < N → a n = ∑ t ∈ Finset.range (n + 1), f t := by
  intro n
  induction n with
  | zero => intro _; rw [h0, zero_add, Finset.sum_range_one]
  | succ n ih =>
    intro hn
    rw [hs n hn, ih (by omega), Finset.sum_range_succ (fun t => f t) (n + 1)]

/-- The same at the last of 250 steps, as a sum over `Fin 250`. -/
theorem accum250_eq_sum {M : Type*} [AddCommMonoid M] (a f : ℕ → M)
    (h0 : a 0 = 0 + f 0) (hs : ∀ n, n + 1 < 250 → a (n + 1) = a n + f (n + 1)) :
    a 249 = ∑ t : Fin 250, f t.val := by
  rw [accum_eq_sum_range 250 a f h0 hs 249 (by omega)]
  exact Finset.sum_range (fun t => f t)

/-- A sum over 250 blocks of 2000 consecutive rows is the sum over all 500000 rows. -/
theorem sum_blocks_eq_sum {M : Type*} [AddCommMonoid M] (F : Fin 500000 → M) :
    ∑ t : Fin 250, ∑ r : Fin 2000, F ⟨2000 * t.val + r.val, by have := t.isLt; have := r.isLt; omega⟩
      = ∑ n : Fin 500000, F n := by
  rw [← Equiv.sum_comp (finProdFinEquiv : Fin 250 × Fin 2000 ≃ Fin 500000) F, Fintype.sum_prod_type]
  refine Finset.sum_congr rfl fun t _ => Finset.sum_congr rfl fun r _ => congrArg F (Fin.ext ?_)
  show 2000 * t.val + r.val = r.val + 2000 * t.val
  omega

end Cert.KernelIdeal.Hand

end
-- ==== Proof.KI.Val2Pieces.lean ====
/-
  What each of the three control cases of the pooling region leaves in the two accumulators and in the output block,
  as the arithmetic of the blocks it loaded: the first point fills the accumulators with zero and adds its block's
  contribution, every later point adds its block's contribution to what the point before left, and the last point also
  stores the row-wise log-softmax of the means.
-/
import proofs.«421952_j37563783971339_2_alg».proof.Proof.KI.R2RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access. -/
theorem hz2 : (![0, 0] : Fin 2 → Nat) = fun _ => 0 := funext fun a => by fin_cases a <;> rfl

/-! ## The first point -/

theorem canon2_A_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i) (x0 : Vec F S2000x2 .f32) (x1 : Vec F S2000x2 .f32) (x2 : Vec F S2000x1 .f32) (x3 : Vec F S1x2 .f32) (x4 : Vec F S2000x1 .i32) :
    View.canon (kernelRun2_A c i arg1 harg1 arg2 harg2 arg3 harg3 arg4 harg4 arg5 harg5 arg6 harg6 arg7 harg7 arg8 harg8 hc0 hc1 x0 x1 x2 x3 x4).2.1 = k2_pay6 x0 x1 x2 x3 x4 (k2_pay3 (F := F)) := by
  unfold kernelRun2_A
  dsimp only
  sl_unfold_words
  rw [View.canon_cons_unit_zero (S := S1024x2) hz2]
  simp only [View.readAt_eq_ld, harg1.read_unread, harg2.read_unread, harg3.read_unread, harg4.read_unread, harg5.read_unread,
    View.ld_unit_zero (S := S2000x2) hz2, View.ld_unit_zero (S := S2000x1) hz2, View.ld_unit_zero (S := S1x2) hz2,
    View.readCov_unit_zero (S := S1024x2) _ hz2]

theorem canon2_A_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i) (x0 : Vec F S2000x2 .f32) (x1 : Vec F S2000x2 .f32) (x2 : Vec F S2000x1 .f32) (x3 : Vec F S1x2 .f32) (x4 : Vec F S2000x1 .i32) :
    View.canon (kernelRun2_A c i arg1 harg1 arg2 harg2 arg3 harg3 arg4 harg4 arg5 harg5 arg6 harg6 arg7 harg7 arg8 harg8 hc0 hc1 x0 x1 x2 x3 x4).2.2.1 = k2_pay1 (k2_pay7 x4 (k2_pay4 (F := F))) := by
  unfold kernelRun2_A
  dsimp only
  sl_unfold_words
  rw [View.canon_cons_unit_zero (S := S1024x1) hz2]
  simp only [View.readAt_eq_ld, harg5.read_unread, View.ld_unit_zero (S := S2000x1) hz2,
    View.readCov_unit_zero (S := S1024x1) _ hz2]

/-! ## The points between -/

theorem canon2_B_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i) (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    View.canon (kernelRun2_B c i arg1 harg1 arg2 harg2 arg3 harg3 arg4 harg4 arg5 harg5 arg6 harg6 arg7 harg7 arg8 harg8 hc0 hc1 x0 x1 x2 x3 x4 xs0 xs1).2.1 = k2_pay6 x0 x1 x2 x3 x4 xs0 := by
  unfold kernelRun2_B
  dsimp only
  sl_unfold_words
  rw [View.canon_unit_zero hz2]
  simp only [View.readAt_eq_ld, harg1.read_unread, harg2.read_unread, harg3.read_unread, harg4.read_unread, harg5.read_unread, harg7.read_unread,
    View.ld_unit_zero (S := S2000x2) hz2, View.ld_unit_zero (S := S2000x1) hz2, View.ld_unit_zero (S := S1x2) hz2, View.ld_unit_zero (S := S1024x2) hz2]

theorem canon2_B_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i) (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    View.canon (kernelRun2_B c i arg1 harg1 arg2 harg2 arg3 harg3 arg4 harg4 arg5 harg5 arg6 harg6 arg7 harg7 arg8 harg8 hc0 hc1 x0 x1 x2 x3 x4 xs0 xs1).2.2.1 = k2_pay1 (k2_pay7 x4 xs1) := by
  unfold kernelRun2_B
  dsimp only
  sl_unfold_words
  rw [View.canon_unit_zero hz2]
  simp only [View.readAt_eq_ld, harg5.read_unread, harg8.read_unread, View.ld_unit_zero (S := S2000x1) hz2, View.ld_unit_zero (S := S1024x1) hz2]

/-! ## The last point -/

theorem canon2_C_5 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i) (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    View.canon (kernelRun2_C c i arg1 harg1 arg2 harg2 arg3 harg3 arg4 harg4 arg5 harg5 arg6 harg6 arg7 harg7 arg8 harg8 hc0 hc1 x0 x1 x2 x3 x4 xs0 xs1).1 = k2_pay2 (k2_pay6 x0 x1 x2 x3 x4 xs0) (k2_pay1 (k2_pay7 x4 xs1)) := by
  unfold kernelRun2_C
  dsimp only
  sl_unfold_words
  rw [View.canon_unit_zero hz2]
  simp only [View.readAt_eq_ld, harg1.read_unread, harg2.read_unread, harg3.read_unread, harg4.read_unread, harg5.read_unread, harg7.read_unread, harg8.read_unread,
    View.ld_unit_zero (S := S2000x2) hz2, View.ld_unit_zero (S := S2000x1) hz2, View.ld_unit_zero (S := S1x2) hz2, View.ld_unit_zero (S := S1024x2) hz2, View.ld_unit_zero (S := S1024x1) hz2,
    View.readCov_unit_zero (S := S1024x2) _ hz2, View.readCov_unit_zero (S := S1024x1) _ hz2]

theorem canon2_C_0 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i) (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    View.canon (kernelRun2_C c i arg1 harg1 arg2 harg2 arg3 harg3 arg4 harg4 arg5 harg5 arg6 harg6 arg7 harg7 arg8 harg8 hc0 hc1 x0 x1 x2 x3 x4 xs0 xs1).2.1 = k2_pay6 x0 x1 x2 x3 x4 xs0 := by
  unfold kernelRun2_C
  dsimp only
  sl_unfold_words
  rw [View.canon_unit_zero hz2]
  simp only [View.readAt_eq_ld, harg1.read_unread, harg2.read_unread, harg3.read_unread, harg4.read_unread, harg5.read_unread, harg7.read_unread,
    View.ld_unit_zero (S := S2000x2) hz2, View.ld_unit_zero (S := S2000x1) hz2, View.ld_unit_zero (S := S1x2) hz2, View.ld_unit_zero (S := S1024x2) hz2]

theorem canon2_C_1 (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i) (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    View.canon (kernelRun2_C c i arg1 harg1 arg2 harg2 arg3 harg3 arg4 harg4 arg5 harg5 arg6 harg6 arg7 harg7 arg8 harg8 hc0 hc1 x0 x1 x2 x3 x4 xs0 xs1).2.2.1 = k2_pay1 (k2_pay7 x4 xs1) := by
  unfold kernelRun2_C
  dsimp only
  sl_unfold_words
  rw [View.canon_unit_zero hz2]
  simp only [View.readAt_eq_ld, harg5.read_unread, harg8.read_unread, View.ld_unit_zero (S := S2000x1) hz2, View.ld_unit_zero (S := S1024x1) hz2]

end Cert.KernelIdeal.Hand

end
-- ==== Proof.KI.Val2Blocks.lean ====
/-
  The input blocks of the pooling region read where the arrays say: block `t` of a 500000-row array holds rows
  `2000·t` to `2000·t + 1999`, the bias row is its one block at every point, and the output's one block is the
  whole output array.
-/
import proofs.«421952_j37563783971339_2_alg».proof.Proof.KI.R2Runs
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (V : (c : Dev nD) → (b : Ref sig .tc) → Buf (Elt F) ((c : Thread nD τ).loc b))

/-- The printed block-index maps, decided over the grid: the four row-blocked inputs move with the point along the
    rows, the bias row and the output stay at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0 :=
  (by decide +kernel : ∀ t : Fin grid2.N, _)

/-- The five input arrays as the region finds them, and their blocks at a point, at their literal types. -/
abbrev aggArr (c : Dev nD) : Vec F S500000x2 .f32 := V c main_v56
abbrev hArr (c : Dev nD) : Vec F S500000x2 .f32 := V c main_v43
abbrev dArr (c : Dev nD) : Vec F S500000x1 .f32 := V c main_v12
abbrev bArr (c : Dev nD) : Vec F S1x2 .f32 := V c main_v57
abbrev batchArr (c : Dev nD) : Vec F S500000x1 .i32 := V c main_v58
abbrev aggBlk (c : Dev nD) (t : Fin cfg2.N) : Vec F S2000x2 .f32 := iblk2 V c 0 t
abbrev hBlk (c : Dev nD) (t : Fin cfg2.N) : Vec F S2000x2 .f32 := iblk2 V c 1 t
abbrev dBlk (c : Dev nD) (t : Fin cfg2.N) : Vec F S2000x1 .f32 := iblk2 V c 2 t
abbrev bBlk (c : Dev nD) (t : Fin cfg2.N) : Vec F S1x2 .f32 := iblk2 V c 3 t
abbrev batchBlk (c : Dev nD) (t : Fin cfg2.N) : Vec F S2000x1 .i32 := iblk2 V c 4 t

theorem aggBlk_apply (c : Dev nD) (t : Fin cfg2.N) (r : Fin 2000) (k : Fin 2) (n : Fin 500000) (hn : n.val = 2000 * t.val + r.val) :
    aggBlk V c t (ix2 r k) = aggArr V c (ix2 n k) := by
  obtain ⟨e0, e1, -⟩ := idx_facts2 t
  show aggArr V c (((cfg2.win 0).blk t).view.emb (ix2 r k)) = aggArr V c (ix2 n k)
  refine congrArg (aggArr V c) (funext fun a => Fin.ext ?_)
  match a with
  | ⟨0, _⟩ => show win2_0.index t (0 : Fin 2) * 2000 + 1 * r.val = n.val; omega
  | ⟨1, _⟩ => show win2_0.index t (1 : Fin 2) * 2 + 1 * k.val = k.val; omega

theorem hBlk_apply (c : Dev nD) (t : Fin cfg2.N) (r : Fin 2000) (k : Fin 2) (n : Fin 500000) (hn : n.val = 2000 * t.val + r.val) :
    hBlk V c t (ix2 r k) = hArr V c (ix2 n k) := by
  obtain ⟨-, -, e0, e1, -⟩ := idx_facts2 t
  show hArr V c (((cfg2.win 1).blk t).view.emb (ix2 r k)) = hArr V c (ix2 n k)
  refine congrArg (hArr V c) (funext fun a => Fin.ext ?_)
  match a with
  | ⟨0, _⟩ => show win2_1.index t (0 : Fin 2) * 2000 + 1 * r.val = n.val; omega
  | ⟨1, _⟩ => show win2_1.index t (1 : Fin 2) * 2 + 1 * k.val = k.val; omega

theorem dBlk_apply (c : Dev nD) (t : Fin cfg2.N) (r : Fin 2000) (n : Fin 500000) (hn : n.val = 2000 * t.val + r.val) :
    dBlk V c t (ix2 r (0 : Fin 1)) = dArr V c (ix2 n (0 : Fin 1)) := by
  obtain ⟨-, -, -, -, e0, e1, -⟩ := idx_facts2 t
  show dArr V c (((cfg2.win 2).blk t).view.emb (ix2 r (0 : Fin 1))) = dArr V c (ix2 n (0 : Fin 1))
  refine congrArg (dArr V c) (funext fun a => Fin.ext ?_)
  match a with
  | ⟨0, _⟩ => show win2_2.index t (0 : Fin 2) * 2000 + 1 * r.val = n.val; omega
  | ⟨1, _⟩ => show win2_2.index t (1 : Fin 2) * 1 + 1 * 0 = 0; omega

theorem bBlk_apply (c : Dev nD) (t : Fin cfg2.N) (k : Fin 2) :
    bBlk V c t (ix2 (0 : Fin 1) k) = bArr V c (ix2 (0 : Fin 1) k) := by
  obtain ⟨-, -, -, -, -, -, e0, e1, -⟩ := idx_facts2 t
  show bArr V c (((cfg2.win 3).blk t).view.emb (ix2 (0 : Fin 1) k)) = bArr V c (ix2 (0 : Fin 1) k)
  refine congrArg (bArr V c) (funext fun a => Fin.ext ?_)
  match a with
  | ⟨0, _⟩ => show win2_3.index t (0 : Fin 2) * 1 + 1 * 0 = 0; omega
  | ⟨1, _⟩ => show win2_3.index t (1 : Fin 2) * 2 + 1 * k.val = k.val; omega

theorem batchBlk_apply (c : Dev nD) (t : Fin cfg2.N) (r : Fin 2000) (n : Fin 500000) (hn : n.val = 2000 * t.val + r.val) :
    batchBlk V c t (ix2 r (0 : Fin 1)) = batchArr V c (ix2 n (0 : Fin 1)) := by
  obtain ⟨-, -, -, -, -, -, -, -, e0, e1, -⟩ := idx_facts2 t
  show batchArr V c (((cfg2.win 4).blk t).view.emb (ix2 r (0 : Fin 1))) = batchArr V c (ix2 n (0 : Fin 1))
  refine congrArg (batchArr V c) (funext fun a => Fin.ext ?_)
  match a with
  | ⟨0, _⟩ => show win2_4.index t (0 : Fin 2) * 2000 + 1 * r.val = n.val; omega
  | ⟨1, _⟩ => show win2_4.index t (1 : Fin 2) * 1 + 1 * 0 = 0; omega

/-- The output's one block, read through its window, is the array index itself. -/
theorem outBlk_emb (t : Fin cfg2.N) (j : S1024x2.Idx) : ((cfg2.win 5).blk t).view.emb j = j := by
  obtain ⟨-, -, -, -, -, -, -, -, -, -, e0, e1⟩ := idx_facts2 t
  refine funext fun a => Fin.ext ?_
  match a with
  | ⟨0, _⟩ => show win2_5.index t (0 : Fin 2) * 1024 + 1 * (j 0).val = (j 0).val; omega
  | ⟨1, _⟩ => show win2_5.index t (1 : Fin 2) * 2 + 1 * (j 1).val = (j 1).val; omega

end Cert.KernelIdeal.Hand

end
-- ==== Proof.KI.Val2.lean ====
/-
  The value of the pooling region: after the last of its 250 grid points the output array holds, for each graph and
  each of the two classes, the log-softmax along the row of the per-graph means of the second convolution's output.
  The two accumulators hold, after point `n`, the membership-weighted sums and the counts over the rows of the blocks
  up to `n` (an induction on the point); 250 blocks of 2000 rows are the 500000 rows; the last point divides, takes the
  row-wise log-softmax and stores the one output block, which is the whole output array.
-/
import proofs.«421952_j37563783971339_2_alg».proof.Proof.KI.R2
import proofs.«421952_j37563783971339_2_alg».proof.Proof.KI.Val2Pay
import proofs.«421952_j37563783971339_2_alg».proof.Proof.KI.Val2Fold
import proofs.«421952_j37563783971339_2_alg».proof.Proof.KI.Val2Pieces
import proofs.«421952_j37563783971339_2_alg».proof.Proof.KI.Val2Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open scoped BigOperators

/-! ## What each case leaves, as the arithmetic of its blocks -/

theorem sout2_A_0_eq (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i) (x0 : Vec F S2000x2 .f32) (x1 : Vec F S2000x2 .f32) (x2 : Vec F S2000x1 .f32) (x3 : Vec F S1x2 .f32) (x4 : Vec F S2000x1 .i32) :
    sout2_A_0 c i arg1 harg1 arg2 harg2 arg3 harg3 arg4 harg4 arg5 harg5 arg6 harg6 arg7 harg7 arg8 harg8 hc0 hc1 x0 x1 x2 x3 x4 = k2_pay6 x0 x1 x2 x3 x4 (k2_pay3 (F := F)) := by
  unfold sout2_A_0
  rw [View.read_writes_eq_canon _ _ _ (scover2_A_0 c i arg1 harg1 arg2 harg2 arg3 harg3 arg4 harg4 arg5 harg5 arg6 harg6 arg7 harg7 arg8 harg8 hc0 hc1 x0 x1 x2 x3 x4)]
  exact canon2_A_0 c i arg1 harg1 arg2 harg2 arg3 harg3 arg4 harg4 arg5 harg5 arg6 harg6 arg7 harg7 arg8 harg8 hc0 hc1 x0 x1 x2 x3 x4

theorem sout2_A_1_eq (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : cond2_0 i) (hc1 : ¬cond2_1 i) (x0 : Vec F S2000x2 .f32) (x1 : Vec F S2000x2 .f32) (x2 : Vec F S2000x1 .f32) (x3 : Vec F S1x2 .f32) (x4 : Vec F S2000x1 .i32) :
    sout2_A_1 c i arg1 harg1 arg2 harg2 arg3 harg3 arg4 harg4 arg5 harg5 arg6 harg6 arg7 harg7 arg8 harg8 hc0 hc1 x0 x1 x2 x3 x4 = k2_pay1 (k2_pay7 x4 (k2_pay4 (F := F))) := by
  unfold sout2_A_1
  rw [View.read_writes_eq_canon _ _ _ (scover2_A_1 c i arg1 harg1 arg2 harg2 arg3 harg3 arg4 harg4 arg5 harg5 arg6 harg6 arg7 harg7 arg8 harg8 hc0 hc1 x0 x1 x2 x3 x4)]
  exact canon2_A_1 c i arg1 harg1 arg2 harg2 arg3 harg3 arg4 harg4 arg5 harg5 arg6 harg6 arg7 harg7 arg8 harg8 hc0 hc1 x0 x1 x2 x3 x4

theorem sout2_B_0_eq (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i) (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    sout2_B_0 c i arg1 harg1 arg2 harg2 arg3 harg3 arg4 harg4 arg5 harg5 arg6 harg6 arg7 harg7 arg8 harg8 hc0 hc1 x0 x1 x2 x3 x4 xs0 xs1 = k2_pay6 x0 x1 x2 x3 x4 xs0 := by
  unfold sout2_B_0
  rw [View.read_writes_eq_canon _ _ _ (scover2_B_0 c i arg1 harg1 arg2 harg2 arg3 harg3 arg4 harg4 arg5 harg5 arg6 harg6 arg7 harg7 arg8 harg8 hc0 hc1 x0 x1 x2 x3 x4 xs0 xs1)]
  exact canon2_B_0 c i arg1 harg1 arg2 harg2 arg3 harg3 arg4 harg4 arg5 harg5 arg6 harg6 arg7 harg7 arg8 harg8 hc0 hc1 x0 x1 x2 x3 x4 xs0 xs1

theorem sout2_B_1_eq (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : ¬cond2_1 i) (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    sout2_B_1 c i arg1 harg1 arg2 harg2 arg3 harg3 arg4 harg4 arg5 harg5 arg6 harg6 arg7 harg7 arg8 harg8 hc0 hc1 x0 x1 x2 x3 x4 xs0 xs1 = k2_pay1 (k2_pay7 x4 xs1) := by
  unfold sout2_B_1
  rw [View.read_writes_eq_canon _ _ _ (scover2_B_1 c i arg1 harg1 arg2 harg2 arg3 harg3 arg4 harg4 arg5 harg5 arg6 harg6 arg7 harg7 arg8 harg8 hc0 hc1 x0 x1 x2 x3 x4 xs0 xs1)]
  exact canon2_B_1 c i arg1 harg1 arg2 harg2 arg3 harg3 arg4 harg4 arg5 harg5 arg6 harg6 arg7 harg7 arg8 harg8 hc0 hc1 x0 x1 x2 x3 x4 xs0 xs1

theorem out2_C_5_eq (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i) (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    out2_C_5 c i arg1 harg1 arg2 harg2 arg3 harg3 arg4 harg4 arg5 harg5 arg6 harg6 arg7 harg7 arg8 harg8 hc0 hc1 x0 x1 x2 x3 x4 xs0 xs1 = k2_pay2 (k2_pay6 x0 x1 x2 x3 x4 xs0) (k2_pay1 (k2_pay7 x4 xs1)) := by
  unfold out2_C_5
  rw [View.read_writes_eq_canon _ _ _ (cover2_C_5 c i arg1 harg1 arg2 harg2 arg3 harg3 arg4 harg4 arg5 harg5 arg6 harg6 arg7 harg7 arg8 harg8 hc0 hc1 x0 x1 x2 x3 x4 xs0 xs1)]
  exact canon2_C_5 c i arg1 harg1 arg2 harg2 arg3 harg3 arg4 harg4 arg5 harg5 arg6 harg6 arg7 harg7 arg8 harg8 hc0 hc1 x0 x1 x2 x3 x4 xs0 xs1

theorem sout2_C_0_eq (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i) (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    sout2_C_0 c i arg1 harg1 arg2 harg2 arg3 harg3 arg4 harg4 arg5 harg5 arg6 harg6 arg7 harg7 arg8 harg8 hc0 hc1 x0 x1 x2 x3 x4 xs0 xs1 = k2_pay6 x0 x1 x2 x3 x4 xs0 := by
  unfold sout2_C_0
  rw [View.read_writes_eq_canon _ _ _ (scover2_C_0 c i arg1 harg1 arg2 harg2 arg3 harg3 arg4 harg4 arg5 harg5 arg6 harg6 arg7 harg7 arg8 harg8 hc0 hc1 x0 x1 x2 x3 x4 xs0 xs1)]
  exact canon2_C_0 c i arg1 harg1 arg2 harg2 arg3 harg3 arg4 harg4 arg5 harg5 arg6 harg6 arg7 harg7 arg8 harg8 hc0 hc1 x0 x1 x2 x3 x4 xs0 xs1

theorem sout2_C_1_eq (c : Dev nD) (i : grid2.Coords) (arg1 : Memref sig .tc .vmem S2000x2 .f32) (harg1 : arg1.IsWhole) (arg2 : Memref sig .tc .vmem S2000x2 .f32) (harg2 : arg2.IsWhole) (arg3 : Memref sig .tc .vmem S2000x1 .f32) (harg3 : arg3.IsWhole) (arg4 : Memref sig .tc .vmem S1x2 .f32) (harg4 : arg4.IsWhole) (arg5 : Memref sig .tc .vmem S2000x1 .i32) (harg5 : arg5.IsWhole) (arg6 : Memref sig .tc .vmem S1024x2 .f32) (harg6 : arg6.IsWhole) (arg7 : Memref sig .tc .vmem S1024x2 .f32) (harg7 : arg7.IsWhole) (arg8 : Memref sig .tc .vmem S1024x1 .f32) (harg8 : arg8.IsWhole) (hc0 : ¬cond2_0 i) (hc1 : cond2_1 i) (x0 : Vec F S2000x2 .f32) (x1 : Vec F S2000x2 .f32) (x2 : Vec F S2000x1 .f32) (x3 : Vec F S1x2 .f32) (x4 : Vec F S2000x1 .i32) (xs0 : Vec F S1024x2 .f32) (xs1 : Vec F S1024x1 .f32) :
    sout2_C_1 c i arg1 harg1 arg2 harg2 arg3 harg3 arg4 harg4 arg5 harg5 arg6 harg6 arg7 harg7 arg8 harg8 hc0 hc1 x0 x1 x2 x3 x4 xs0 xs1 = k2_pay1 (k2_pay7 x4 xs1) := by
  unfold sout2_C_1
  rw [View.read_writes_eq_canon _ _ _ (scover2_C_1 c i arg1 harg1 arg2 harg2 arg3 harg3 arg4 harg4 arg5 harg5 arg6 harg6 arg7 harg7 arg8 harg8 hc0 hc1 x0 x1 x2 x3 x4 xs0 xs1)]
  exact canon2_C_1 c i arg1 harg1 arg2 harg2 arg3 harg3 arg4 harg4 arg5 harg5 arg6 harg6 arg7 harg7 arg8 harg8 hc0 hc1 x0 x1 x2 x3 x4 xs0 xs1

/-! ## The contribution of a block of rows -/

section AtIdeal

variable (V : (c : Dev nD) → (b : Ref sig .tc) → Buf (Elt Ideal) ((c : Thread nD τ).loc b))

/-- Row `n`'s term of graph `g`'s sum for class `k`: its membership weight times its combined feature. -/
def sumTerm (c : Dev nD) (g : Fin 1024) (k : Fin 2) (n : Fin 500000) : EReal :=
  Cert.Spec.oneHot (batchArr V c (ix2 n (0 : Fin 1))) g * Cert.Spec.conv2 (aggArr V c) (hArr V c) (dArr V c) (bArr V c) n k

/-- Row `n`'s term of graph `g`'s count: its membership weight times one. -/
def cntTerm (c : Dev nD) (g : Fin 1024) (n : Fin 500000) : EReal :=
  Cert.Spec.oneHot (batchArr V c (ix2 n (0 : Fin 1))) g * Ideal.ofBits .f32 0x3F800000#32

/-- Block `t`'s share of graph `g`'s sum for class `k`: the terms of rows `2000·t` to `2000·t + 1999`. -/
def blockSum (c : Dev nD) (g : Fin 1024) (k : Fin 2) (t : ℕ) : EReal :=
  if ht : t < 250 then ∑ r : Fin 2000, sumTerm V c g k ⟨2000 * t + r.val, by have := r.isLt; omega⟩ else 0

/-- Block `t`'s share of graph `g`'s count. -/
def blockCnt (c : Dev nD) (g : Fin 1024) (t : ℕ) : EReal :=
  if ht : t < 250 then ∑ r : Fin 2000, cntTerm V c g ⟨2000 * t + r.val, by have := r.isLt; omega⟩ else 0

/-- What a point adds to the sums, from its loaded blocks, is its block's share. -/
theorem blockSum_eq (c : Dev nD) (t : Fin cfg2.N) (g : Fin 1024) (k : Fin 2) :
    ∑ r : Fin 2000, Cert.Spec.oneHot (batchBlk V c t (ix2 r (0 : Fin 1))) g
        * ((aggBlk V c t (ix2 r k) + hBlk V c t (ix2 r k) * dBlk V c t (ix2 r (0 : Fin 1))) + bBlk V c t (ix2 (0 : Fin 1) k))
      = blockSum V c g k t.val := by
  have ht : t.val < 250 := lt_of_lt_of_eq t.isLt N_2
  unfold blockSum
  rw [dif_pos ht]
  refine Finset.sum_congr rfl fun r _ => ?_
  rw [batchBlk_apply V c t r ⟨2000 * t.val + r.val, by have := r.isLt; omega⟩ rfl,
    aggBlk_apply V c t r k ⟨2000 * t.val + r.val, by have := r.isLt; omega⟩ rfl,
    hBlk_apply V c t r k ⟨2000 * t.val + r.val, by have := r.isLt; omega⟩ rfl,
    dBlk_apply V c t r ⟨2000 * t.val + r.val, by have := r.isLt; omega⟩ rfl,
    bBlk_apply V c t k]
  rfl

/-- What a point adds to the counts is its block's share. -/
theorem blockCnt_eq (c : Dev nD) (t : Fin cfg2.N) (g : Fin 1024) :
    ∑ r : Fin 2000, Cert.Spec.oneHot (batchBlk V c t (ix2 r (0 : Fin 1))) g * Ideal.ofBits .f32 0x3F800000#32
      = blockCnt V c g t.val := by
  have ht : t.val < 250 := lt_of_lt_of_eq t.isLt N_2
  unfold blockCnt
  rw [dif_pos ht]
  refine Finset.sum_congr rfl fun r _ => ?_
  rw [batchBlk_apply V c t r ⟨2000 * t.val + r.val, by have := r.isLt; omega⟩ rfl]
  rfl

/-! ## The accumulators after each point -/

/-- At the first point the sums are zero plus the block's share. -/
theorem sum_at_A (c : Dev nD) (t : Fin cfg2.N) (h0 : t.val % 250 = 0) (h1 : ¬t.val % 250 = 249) (g : Fin 1024) (k : Fin 2) :
    (outsAt2 V c t.val t.isLt).2.1 (ix2 g k) = 0 + blockSum V c g k t.val := by
  rw [outsAt2_A V c t h0 h1]
  dsimp only
  refine (congrFun (sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) (ix2 g k)).trans ?_
  refine (k2_pay6_apply (aggBlk V c t) (hBlk V c t) (dBlk V c t) (bBlk V c t) (batchBlk V c t) (k2_pay3 (F := Ideal)) g k).trans ?_
  rw [k2_pay3_apply, blockSum_eq V c t g k]

/-- At a later point, not the last, the sums are what the point before left plus the block's share. -/
theorem sum_at_B (c : Dev nD) (t : Fin cfg2.N) (h0 : ¬t.val % 250 = 0) (h1 : ¬t.val % 250 = 249) (g : Fin 1024) (k : Fin 2) :
    (outsAt2 V c t.val t.isLt).2.1 (ix2 g k) = (outsAt2 V c (t.val - 1) (Nat.lt_of_le_of_lt (Nat.sub_le _ _) t.isLt)).2.1 (ix2 g k) + blockSum V c g k t.val := by
  rw [outsAt2_B V c t h0 h1]
  dsimp only
  refine (congrFun (sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) (ix2 g k)).trans ?_
  refine (k2_pay6_apply (aggBlk V c t) (hBlk V c t) (dBlk V c t) (bBlk V c t) (batchBlk V c t) (outsAt2 V c (t.val - 1) (Nat.lt_of_le_of_lt (Nat.sub_le _ _) t.isLt)).2.1 g k).trans ?_
  rw [blockSum_eq V c t g k]

/-- At the last point likewise. -/
theorem sum_at_C (c : Dev nD) (t : Fin cfg2.N) (h0 : ¬t.val % 250 = 0) (h1 : t.val % 250 = 249) (g : Fin 1024) (k : Fin 2) :
    (outsAt2 V c t.val t.isLt).2.1 (ix2 g k) = (outsAt2 V c (t.val - 1) (Nat.lt_of_le_of_lt (Nat.sub_le _ _) t.isLt)).2.1 (ix2 g k) + blockSum V c g k t.val := by
  rw [outsAt2_C V c t h0 h1]
  dsimp only
  refine (congrFun (sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) (ix2 g k)).trans ?_
  refine (k2_pay6_apply (aggBlk V c t) (hBlk V c t) (dBlk V c t) (bBlk V c t) (batchBlk V c t) (outsAt2 V c (t.val - 1) (Nat.lt_of_le_of_lt (Nat.sub_le _ _) t.isLt)).2.1 g k).trans ?_
  rw [blockSum_eq V c t g k]

/-- At the first point the counts are zero plus the block's share. -/
theorem cnt_at_A (c : Dev nD) (t : Fin cfg2.N) (h0 : t.val % 250 = 0) (h1 : ¬t.val % 250 = 249) (g : Fin 1024) :
    (outsAt2 V c t.val t.isLt).2.2 (ix2 g (0 : Fin 1)) = 0 + blockCnt V c g t.val := by
  rw [outsAt2_A V c t h0 h1]
  dsimp only
  refine (congrFun (sout2_A_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) (ix2 g (0 : Fin 1))).trans ?_
  rw [k2_pay1_eq]
  refine (k2_pay7_apply (batchBlk V c t) (k2_pay4 (F := Ideal)) g).trans ?_
  rw [k2_pay4_apply, blockCnt_eq V c t g]

/-- At a later point, not the last, the counts are what the point before left plus the block's share. -/
theorem cnt_at_B (c : Dev nD) (t : Fin cfg2.N) (h0 : ¬t.val % 250 = 0) (h1 : ¬t.val % 250 = 249) (g : Fin 1024) :
    (outsAt2 V c t.val t.isLt).2.2 (ix2 g (0 : Fin 1)) = (outsAt2 V c (t.val - 1) (Nat.lt_of_le_of_lt (Nat.sub_le _ _) t.isLt)).2.2 (ix2 g (0 : Fin 1)) + blockCnt V c g t.val := by
  rw [outsAt2_B V c t h0 h1]
  dsimp only
  refine (congrFun (sout2_B_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) (ix2 g (0 : Fin 1))).trans ?_
  rw [k2_pay1_eq]
  refine (k2_pay7_apply (batchBlk V c t) (outsAt2 V c (t.val - 1) (Nat.lt_of_le_of_lt (Nat.sub_le _ _) t.isLt)).2.2 g).trans ?_
  rw [blockCnt_eq V c t g]

/-- At the last point likewise. -/
theorem cnt_at_C (c : Dev nD) (t : Fin cfg2.N) (h0 : ¬t.val % 250 = 0) (h1 : t.val % 250 = 249) (g : Fin 1024) :
    (outsAt2 V c t.val t.isLt).2.2 (ix2 g (0 : Fin 1)) = (outsAt2 V c (t.val - 1) (Nat.lt_of_le_of_lt (Nat.sub_le _ _) t.isLt)).2.2 (ix2 g (0 : Fin 1)) + blockCnt V c g t.val := by
  rw [outsAt2_C V c t h0 h1]
  dsimp only
  refine (congrFun (sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) (ix2 g (0 : Fin 1))).trans ?_
  rw [k2_pay1_eq]
  refine (k2_pay7_apply (batchBlk V c t) (outsAt2 V c (t.val - 1) (Nat.lt_of_le_of_lt (Nat.sub_le _ _) t.isLt)).2.2 g).trans ?_
  rw [blockCnt_eq V c t g]

/-- One step of the sums: point `n + 1` adds its block's share to what point `n` left. -/
theorem sum_step (c : Dev nD) (g : Fin 1024) (k : Fin 2) (n : ℕ) (h : n + 1 < cfg2.N) :
    (outsAt2 V c (n + 1) h).2.1 (ix2 g k) = (outsAt2 V c n (Nat.lt_of_succ_lt h)).2.1 (ix2 g k) + blockSum V c g k (n + 1) := by
  have hN : n + 1 < 250 := lt_of_lt_of_eq h N_2
  by_cases h1 : (n + 1) % 250 = 249
  · exact sum_at_C V c ⟨n + 1, h⟩ (by dsimp only; omega) h1 g k
  · exact sum_at_B V c ⟨n + 1, h⟩ (by dsimp only; omega) h1 g k

/-- One step of the counts. -/
theorem cnt_step (c : Dev nD) (g : Fin 1024) (n : ℕ) (h : n + 1 < cfg2.N) :
    (outsAt2 V c (n + 1) h).2.2 (ix2 g (0 : Fin 1)) = (outsAt2 V c n (Nat.lt_of_succ_lt h)).2.2 (ix2 g (0 : Fin 1)) + blockCnt V c g (n + 1) := by
  have hN : n + 1 < 250 := lt_of_lt_of_eq h N_2
  by_cases h1 : (n + 1) % 250 = 249
  · exact cnt_at_C V c ⟨n + 1, h⟩ (by dsimp only; omega) h1 g
  · exact cnt_at_B V c ⟨n + 1, h⟩ (by dsimp only; omega) h1 g

/-- After point `n` the sums hold the shares of the blocks up to `n`. -/
theorem sum_closed (c : Dev nD) (g : Fin 1024) (k : Fin 2) :
    ∀ (n : ℕ) (h : n < cfg2.N), (outsAt2 V c n h).2.1 (ix2 g k) = ∑ t ∈ Finset.range (n + 1), blockSum V c g k t
  | 0, h => by
    rw [Finset.sum_range_one]
    exact (sum_at_A V c ⟨0, h⟩ (Nat.zero_mod _) (by show ¬(0 % 250 = 249); decide) g k).trans (zero_add _)
  | n + 1, h => by
    rw [Finset.sum_range_succ, ← sum_closed c g k n (Nat.lt_of_succ_lt h)]
    exact sum_step V c g k n h

/-- After point `n` the counts hold the shares of the blocks up to `n`. -/
theorem cnt_closed (c : Dev nD) (g : Fin 1024) :
    ∀ (n : ℕ) (h : n < cfg2.N), (outsAt2 V c n h).2.2 (ix2 g (0 : Fin 1)) = ∑ t ∈ Finset.range (n + 1), blockCnt V c g t
  | 0, h => by
    rw [Finset.sum_range_one]
    exact (cnt_at_A V c ⟨0, h⟩ (Nat.zero_mod _) (by show ¬(0 % 250 = 249); decide) g).trans (zero_add _)
  | n + 1, h => by
    rw [Finset.sum_range_succ, ← cnt_closed c g n (Nat.lt_of_succ_lt h)]
    exact cnt_step V c g n h

/-- After the last point the sums are the per-graph sums over all rows. -/
theorem sum_final (c : Dev nD) (t : Fin cfg2.N) (h249 : t.val % 250 = 249) (g : Fin 1024) (k : Fin 2) :
    (outsAt2 V c t.val t.isLt).2.1 (ix2 g k) = Cert.Spec.poolSum (aggArr V c) (hArr V c) (dArr V c) (bArr V c) (batchArr V c) g k := by
  have ht : t.val < 250 := lt_of_lt_of_eq t.isLt N_2
  have e : t.val + 1 = 250 := by omega
  rw [sum_closed V c g k t.val t.isLt, e, Finset.sum_range (fun t => blockSum V c g k t)]
  refine (Finset.sum_congr rfl fun (s : Fin 250) _ => (dif_pos s.isLt : blockSum V c g k s.val = _)).trans ?_
  exact sum_blocks_eq_sum (sumTerm V c g k)

/-- After the last point the counts are the per-graph counts over all rows. -/
theorem cnt_final (c : Dev nD) (t : Fin cfg2.N) (h249 : t.val % 250 = 249) (g : Fin 1024) :
    (outsAt2 V c t.val t.isLt).2.2 (ix2 g (0 : Fin 1)) = Cert.Spec.poolCnt (batchArr V c) g := by
  have ht : t.val < 250 := lt_of_lt_of_eq t.isLt N_2
  have e : t.val + 1 = 250 := by omega
  rw [cnt_closed V c g t.val t.isLt, e, Finset.sum_range (fun t => blockCnt V c g t)]
  refine (Finset.sum_congr rfl fun (s : Fin 250) _ => (dif_pos s.isLt : blockCnt V c g s.val = _)).trans ?_
  exact sum_blocks_eq_sum (cntTerm V c g)

/-! ## The output block at the last point, and the output array -/

/-- The last point stores the log-softmax rows of the sums it leaves over the counts it leaves. -/
theorem out_at_C (c : Dev nD) (t : Fin cfg2.N) (h0 : ¬t.val % 250 = 0) (h1 : t.val % 250 = 249) :
    (outsAt2 V c t.val t.isLt).1 = k2_pay2 (outsAt2 V c t.val t.isLt).2.1 (outsAt2 V c t.val t.isLt).2.2 := by
  rw [outsAt2_C V c t h0 h1]
  dsimp only
  rw [out2_C_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2]

/-- So the output block at the last point is the network's pooled, normalised output. -/
theorem out_last (c : Dev nD) (t : Fin cfg2.N) (h249 : t.val % 250 = 249) (j : S1024x2.Idx) :
    (outsAt2 V c t.val t.isLt).1 j = Cert.Spec.G2 (aggArr V c) (hArr V c) (dArr V c) (bArr V c) (batchArr V c) j := by
  obtain ⟨g, k, rfl⟩ : ∃ (g : Fin 1024) (k : Fin 2), j = ix2 g k := ⟨j 0, j 1, eq_ix2 j⟩
  have h0 : ¬t.val % 250 = 0 := by omega
  rw [out_at_C V c t h0 h249]
  refine (k2_pay2_apply (outsAt2 V c t.val t.isLt).2.1 (outsAt2 V c t.val t.isLt).2.2 g k).trans ?_
  show _ = Cert.Spec.logSoftmax2 (Cert.Spec.pooled (aggArr V c) (hArr V c) (dArr V c) (bArr V c) (batchArr V c)) g k
  refine congrArg (fun q => Cert.Spec.logSoftmax2 q g k) (funext fun g' => funext fun k' => ?_)
  rw [sum_final V c t h249 g' k', cnt_final V c t h249 g']
  rfl

/-- What the last point writes back is the one block of that output. -/
theorem flushed2_5_eq (c : Dev nD) (t : Fin cfg2.N) (hf : (cfg2.win 5).flush t = true) :
    (dat2 V c).flushed 5 t = ((cfg2.win 5).blk t).view.read (Elt Ideal) (Cert.Spec.G2 (aggArr V c) (hArr V c) (dArr V c) (bArr V c) (batchArr V c)) := by
  have h249 : t.val % 250 = 249 := (flush2_5 t).mp hf
  show (cfg2.win 5).cut (grid2.coords t) ((dat2 V c).after 5 t) = _
  rw [after2_5]
  funext j
  show (outsAt2 V c t.val t.isLt).1 j = Cert.Spec.G2 (aggArr V c) (hArr V c) (dArr V c) (bArr V c) (batchArr V c) (((cfg2.win 5).blk t).view.emb j)
  rw [outBlk_emb t j]
  exact out_last V c t h249 j

/-- The last grid point. -/
abbrev tLast2 : Fin cfg2.N := ⟨249, lt_of_lt_of_eq (by decide) N_2.symm⟩

/-- Every index of the output array is in the output window's one block. -/
theorem mem_outBlk (t : Fin cfg2.N) (i : S1024x2.Idx) : i ∈ ((cfg2.win 5).blk t).view.set := by
  show i ∈ ((View.whole main_v59).slice (win2_5.rect t)).set
  rw [View.set_slice_whole, Rect.mem_set_unit]
  obtain ⟨-, -, -, -, -, -, -, -, -, -, e0, e1⟩ := idx_facts2 t
  intro a
  have hi0 : (i 0 : Nat) < 1024 := (i 0).isLt
  have hi1 : (i 1 : Nat) < 2 := (i 1).isLt
  match a with
  | ⟨0, _⟩ =>
    show win2_5.index t (0 : Fin 2) * 1024 ≤ (i 0 : Nat) ∧ (i 0 : Nat) < win2_5.index t (0 : Fin 2) * 1024 + 1024
    omega
  | ⟨1, _⟩ =>
    show win2_5.index t (1 : Fin 2) * 2 ≤ (i 1 : Nat) ∧ (i 1 : Nat) < win2_5.index t (1 : Fin 2) * 2 + 2
    omega

/-- THE VALUE OF THE REGION: the output array ends holding the per-graph mean pooling followed by the row-wise
    log-softmax, as one function of the five arrays the region reads. -/
theorem final2 (c : Dev nD) :
    (dat2 (F := Ideal) V c).arrAt 5 cfg2.N = Cert.Spec.G2 (V c main_v56) (V c main_v43) (V c main_v12) (V c main_v57) (V c main_v58) :=
  (dat2 V c).arrAt_eq_of_cover 5 (Cert.Spec.G2 (aggArr V c) (hArr V c) (dArr V c) (bArr V c) (batchArr V c)) (fun t hf => flushed2_5_eq V c t hf) fun i =>
    ⟨tLast2, (flush2_5 tLast2).mpr (by show 249 % 250 = 249; rfl), mem_outBlk tLast2 i⟩

end AtIdeal

end Cert.KernelIdeal.Hand

end
-- ==== Proof.Net.lean ====
/-
  The whole network as one function of the seven arguments, over the extended reals: the edge list's
  normalisation (in-degrees, inverse square roots, edge coefficients), two rounds of message passing
  (gather along the sources, scale, scatter-add along the targets) around the two feature transforms, and the
  per-graph pooled log-softmax. Both programs are shown equal to it.
-/
import proofs.«421952_j37563783971339_2_alg».proof.Proof.Gen.KernelIdeal
import proofs.«421952_j37563783971339_2_alg».proof.Proof.Spec

noncomputable section

namespace Cert.Net

open Cert.KernelIdeal Cert.KernelIdeal.Facts₀ Cert.KernelIdeal.Facts Idealize.ShloMosaic

/-- The source node of every edge (row 0 of the edge list). -/
def src (e : IVec S2x16000000 32) : IVec S16000000 32 :=
  shapeCast S16000000 (extractStridedSlice S1x16000000 ![0, 0] e slices_S2x16000000_S1x16000000_0_0) shapeCasts_S1x16000000_S16000000
/-- The target node of every edge (row 1). -/
def dst (e : IVec S2x16000000 32) : IVec S16000000 32 :=
  shapeCast S16000000 (extractStridedSlice S1x16000000 ![1, 0] e slices_S2x16000000_S1x16000000_1_0) shapeCasts_S1x16000000_S16000000
/-- A node index with a negative value wrapped by the node count, as a column of gather indices. -/
def wrapB (v : IVec S16000000 32) : IVec S16000000x1 32 :=
  broadcastInDim S16000000x1 ![0] bcast_S16000000_S16000000x1_0
    (select (cmpi .slt v (broadcastInDim S16000000 ![] bcast_S_S16000000 (constantI S_ 32 0#32)))
      (addi v (broadcastInDim S16000000 ![] bcast_S_S16000000 (constantI S_ 32 500000#32))) v)
/-- The targets as a column of scatter indices (not wrapped: an out-of-range target is dropped). -/
def dstB (e : IVec S2x16000000 32) : IVec S16000000x1 32 :=
  broadcastInDim S16000000x1 ![0] bcast_S16000000_S16000000x1_0 (dst e)
/-- The inverse square root of each node's in-degree plus one. -/
def dinv (e : IVec S2x16000000 32) : FVec Ideal S500000 .f32 :=
  Host.rsqrt (addf (Host.scatterAdd scatter_S500000_S16000000x1_S16000000_n_0_0_1
      (broadcastInDim S500000 ![] bcast_S_S500000 (constant S_ .f32 0x00000000#32)) (dstB e)
      (broadcastInDim S16000000 ![] bcast_S_S16000000 (constant S_ .f32 0x3F800000#32)))
    (broadcastInDim S500000 ![] bcast_S_S500000 (constant S_ .f32 0x3F800000#32)))
/-- The symmetric normalisation coefficient of every edge. -/
def coef (e : IVec S2x16000000 32) : FVec Ideal S16000000 .f32 :=
  mulf (Host.gather gather_S500000_S16000000x1_S16000000_n_0_n_n_0_1_1 (dinv e) (wrapB (src e)))
    (Host.gather gather_S500000_S16000000x1_S16000000_n_0_n_n_0_1_1 (dinv e) (wrapB (dst e)))
/-- The squared inverse square root of the degrees: the self-loop weight. -/
def dd (e : IVec S2x16000000 32) : FVec Ideal S500000 .f32 := mulf (dinv e) (dinv e)
/-- One round of message passing on 16 features. -/
def agg16 (e : IVec S2x16000000 32) (h : FVec Ideal S500000x16 .f32) : FVec Ideal S500000x16 .f32 :=
  Host.scatterAdd scatter_S500000x16_S16000000x1_S16000000x16_1_0_0_1
    (broadcastInDim S500000x16 ![] bcast_S_S500000x16 (constant S_ .f32 0x00000000#32)) (dstB e)
    (mulf (Host.gather gather_S500000x16_S16000000x1_S16000000x16_1_0_n_n_0_1_116 h (wrapB (src e)))
      (broadcastInDim S16000000x16 ![0, 1] bcast_S16000000x1_S16000000x16_0_1
        (broadcastInDim S16000000x1 ![0] bcast_S16000000_S16000000x1_0 (coef e))))
/-- One round of message passing on 2 features. -/
def agg2 (e : IVec S2x16000000 32) (h : FVec Ideal S500000x2 .f32) : FVec Ideal S500000x2 .f32 :=
  Host.scatterAdd scatter_S500000x2_S16000000x1_S16000000x2_1_0_0_1
    (broadcastInDim S500000x2 ![] bcast_S_S500000x2 (constant S_ .f32 0x00000000#32)) (dstB e)
    (mulf (Host.gather gather_S500000x2_S16000000x1_S16000000x2_1_0_n_n_0_1_12 h (wrapB (src e)))
      (broadcastInDim S16000000x2 ![0, 1] bcast_S16000000x1_S16000000x2_0_1
        (broadcastInDim S16000000x1 ![0] bcast_S16000000_S16000000x1_0 (coef e))))

/-- A vector as a one-column array. -/
def col {n : Nat} {α : Type} (v : (⟨1, ![n]⟩ : Shape).Idx → α) : (⟨2, ![n, 1]⟩ : Shape).Idx → α := fun i => v (ValueIdx.ix1 (i 0 : Fin n))
/-- A vector as a one-row array. -/
def row {n : Nat} {α : Type} (v : (⟨1, ![n]⟩ : Shape).Idx → α) : (⟨2, ![1, n]⟩ : Shape).Idx → α := fun i => v (ValueIdx.ix1 (i 1 : Fin n))

/-- The first layer's transformed features. -/
def h1 (x : FVec Ideal S500000x32 .f32) (w1 : FVec Ideal S32x16 .f32) : FVec Ideal S500000x16 .f32 := Cert.Spec.G0 x w1
/-- The second layer's transformed features. -/
def h2 (x : FVec Ideal S500000x32 .f32) (w1 : FVec Ideal S32x16 .f32) (b1 : FVec Ideal S16 .f32) (w2 : FVec Ideal S16x2 .f32) (e : IVec S2x16000000 32) :
    FVec Ideal S500000x2 .f32 :=
  Cert.Spec.G1 (agg16 e (h1 x w1)) (h1 x w1) (col (dd e)) (row b1) w2
/-- The network's output. -/
def out (x : FVec Ideal S500000x32 .f32) (w1 : FVec Ideal S32x16 .f32) (b1 : FVec Ideal S16 .f32) (w2 : FVec Ideal S16x2 .f32)
    (b2 : FVec Ideal S2 .f32) (e : IVec S2x16000000 32) (batch : IVec S500000 32) : FVec Ideal S1024x2 .f32 :=
  Cert.Spec.G2 (agg2 e (h2 x w1 b1 w2 e)) (h2 x w1 b1 w2 e) (col (dd e)) (row b2) (col batch)

end Cert.Net

end
-- ==== Proof.KI.HostRead.lean ====
/-
  The kernel program's host operations read back, over the extended reals, in the network's vocabulary: from any
  contents `X` of the buffers before a stretch, what the stretch leaves in each buffer a later kernel region or
  stretch reads — the edge list's sources and targets, the edge coefficients and the squared inverse degrees
  (stretch 0); one round of message passing over the features the preceding region left, and a bias as a row
  (stretches 1 and 2); the graph ids as a column (stretch 2) — and that a stretch keeps every buffer it does not
  write.
-/
import proofs.«421952_j37563783971339_2_alg».proof.Proof.Gen.KernelIdeal.Launch
import proofs.«421952_j37563783971339_2_alg».proof.Proof.Gen.KernelIdeal.Regions
import proofs.«421952_j37563783971339_2_alg».proof.Proof.Net
import Idealize.ShloMosaic.Lib.StableHlo.Run
import Idealize.ShloMosaic.Lib.ValueIdx
import Idealize.ShloMosaic.Lib.Pipeline.Value

noncomputable section

namespace Cert.KernelIdeal.Hand

open Cert.KernelIdeal Cert.KernelIdeal.Gen Cert.KernelIdeal.Facts₀ Cert.KernelIdeal.Facts
open Idealize.ShloMosaic Idealize.ShloMosaic.StableHlo

/-! ## A vector reshaped to one column, or to one row

A reshape keeps the row-major position. A length-`n` vector as an `n × 1` array therefore reads, at `(a, 0)`, the
vector at `a`; as a `1 × n` array, at `(0, b)`, the vector at `b`. Stated for any proof of the reshape's side
condition, and with the reshape eta-expanded where that is the form a stretch's fold leaves it in. -/

/-- A vector reshaped to one column is `Net.col` of it (the reshape eta-expanded). -/
theorem col_eq {n : Nat} {α : Type} (v : (⟨1, ![n]⟩ : Shape).Idx → α) (h : (⟨1, ![n]⟩ : Shape).ShapeCasts ⟨2, ![n, 1]⟩) :
    (fun i => shapeCast (⟨2, ![n, 1]⟩ : Shape) v h i) = Cert.Net.col v := by
  funext i
  unfold Cert.Net.col
  refine shapeCast_apply v h i (ValueIdx.ix1 (i 0 : Fin n)) ?_
  have h1 : (i 1).val < 1 := (i 1).isLt
  rw [Shape.rowMajor_val_one, Shape.rowMajor_val_two]
  show (i 0).val = (i 0).val * 1 + (i 1).val
  omega

/-- A vector reshaped to one row is `Net.row` of it. -/
theorem row_eq {n : Nat} {α : Type} (v : (⟨1, ![n]⟩ : Shape).Idx → α) (h : (⟨1, ![n]⟩ : Shape).ShapeCasts ⟨2, ![1, n]⟩) :
    shapeCast (⟨2, ![1, n]⟩ : Shape) v h = Cert.Net.row v := by
  funext i
  unfold Cert.Net.row
  refine shapeCast_apply v h i (ValueIdx.ix1 (i 1 : Fin n)) ?_
  have h0 : (i 0).val < 1 := (i 0).isLt
  rw [Shape.rowMajor_val_one, Shape.rowMajor_val_two]
  show (i 1).val = (i 0).val * n + (i 1).val
  have h0' : (i 0).val = 0 := by omega
  rw [h0', Nat.zero_mul, Nat.zero_add]

/-- The same, the reshape eta-expanded. -/
theorem row_eq' {n : Nat} {α : Type} (v : (⟨1, ![n]⟩ : Shape).Idx → α) (h : (⟨1, ![n]⟩ : Shape).ShapeCasts ⟨2, ![1, n]⟩) :
    (fun i => shapeCast (⟨2, ![1, n]⟩ : Shape) v h i) = Cert.Net.row v := row_eq v h

/-- The program's own reshapes: the squared inverse degrees and the graph ids as columns, the two biases as rows. -/
theorem colF (v : FVec Ideal S500000 .f32) :
    (fun i => shapeCast S500000x1 v Gen.shapeCasts_S500000_S500000x1 i) = Cert.Net.col v := col_eq v _
theorem colI (v : IVec S500000 32) :
    (fun i => shapeCast S500000x1 v Gen.shapeCasts_S500000_S500000x1 i) = Cert.Net.col v := col_eq v _
theorem row16 (v : FVec Ideal S16 .f32) : shapeCast S1x16 v Gen.shapeCasts_S16_S1x16 = Cert.Net.row v := row_eq v _
theorem row2 (v : FVec Ideal S2 .f32) : shapeCast S1x2 v Gen.shapeCasts_S2_S1x2 = Cert.Net.row v := row_eq v _

variable (X : Valuation τ sig (Elt Ideal))

/-! ## Stretch 0: the edge list's normalisation -/

set_option maxHeartbeats 1000000 in
theorem h0_v1 : StableHlo.after hostOps0 X (Proc.devRef .tc main_v1) = Cert.Net.src (X (Proc.devRef .tc main_arg5)) := by
  after_results_simp
  rfl

set_option maxHeartbeats 1000000 in
theorem h0_v3 : StableHlo.after hostOps0 X (Proc.devRef .tc main_v3) = Cert.Net.dst (X (Proc.devRef .tc main_arg5)) := by
  after_results_simp
  rfl

set_option maxHeartbeats 4000000 in
theorem h0_v27 : StableHlo.after hostOps0 X (Proc.devRef .tc main_v27) = Cert.Net.coef (X (Proc.devRef .tc main_arg5)) := by
  after_results_simp
  rfl

set_option maxHeartbeats 4000000 in
theorem h0_v12 : StableHlo.after hostOps0 X (Proc.devRef .tc main_v12) = Cert.Net.col (Cert.Net.dd (X (Proc.devRef .tc main_arg5))) := by
  after_results_simp
  exact col_eq (Cert.Net.dd (X (Proc.devRef .tc main_arg5))) _

/-! ## Stretch 1: the first round of message passing, and the first bias as a row -/

set_option maxHeartbeats 4000000 in
theorem h1_v41 (e : IVec S2x16000000 32)
    (h1 : X (Proc.devRef .tc main_v1) = Cert.Net.src e) (h3 : X (Proc.devRef .tc main_v3) = Cert.Net.dst e)
    (h27 : X (Proc.devRef .tc main_v27) = Cert.Net.coef e) :
    StableHlo.after hostOps1 X (Proc.devRef .tc main_v41) = Cert.Net.agg16 e (X (Proc.devRef .tc main_v28)) := by
  after_results_simp
  rw [h1, h3, h27]
  rfl

set_option maxHeartbeats 1000000 in
theorem h1_v42 : StableHlo.after hostOps1 X (Proc.devRef .tc main_v42) = Cert.Net.row (X (Proc.devRef .tc main_arg2)) := by
  after_results_simp
  exact row_eq' (X (Proc.devRef .tc main_arg2)) _

/-! ## Stretch 2: the second round, the second bias as a row, the graph ids as a column -/

set_option maxHeartbeats 4000000 in
theorem h2_v56 (e : IVec S2x16000000 32)
    (h1 : X (Proc.devRef .tc main_v1) = Cert.Net.src e) (h3 : X (Proc.devRef .tc main_v3) = Cert.Net.dst e)
    (h27 : X (Proc.devRef .tc main_v27) = Cert.Net.coef e) :
    StableHlo.after hostOps2 X (Proc.devRef .tc main_v56) = Cert.Net.agg2 e (X (Proc.devRef .tc main_v43)) := by
  after_results_simp
  rw [h1, h3, h27]
  rfl

set_option maxHeartbeats 1000000 in
theorem h2_v57 : StableHlo.after hostOps2 X (Proc.devRef .tc main_v57) = Cert.Net.row (X (Proc.devRef .tc main_arg4)) := by
  after_results_simp
  exact row_eq' (X (Proc.devRef .tc main_arg4)) _

set_option maxHeartbeats 1000000 in
theorem h2_v58 : StableHlo.after hostOps2 X (Proc.devRef .tc main_v58) = Cert.Net.col (X (Proc.devRef .tc main_arg6)) := by
  after_results_simp
  exact col_eq (X (Proc.devRef .tc main_arg6)) _

/-! ## What a stretch does not write it keeps -/

theorem keep0 (r : Ref sig .tc) (h : r ∉ hostOps0_W) : StableHlo.after hostOps0 X (Proc.devRef .tc r) = X (Proc.devRef .tc r) :=
  StableHlo.after_of_writes_sub hostOps0 X hostOps0_writes h
theorem keep1 (r : Ref sig .tc) (h : r ∉ hostOps1_W) : StableHlo.after hostOps1 X (Proc.devRef .tc r) = X (Proc.devRef .tc r) :=
  StableHlo.after_of_writes_sub hostOps1 X hostOps1_writes h
theorem keep2 (r : Ref sig .tc) (h : r ∉ hostOps2_W) : StableHlo.after hostOps2 X (Proc.devRef .tc r) = X (Proc.devRef .tc r) :=
  StableHlo.after_of_writes_sub hostOps2 X hostOps2_writes h

end Cert.KernelIdeal.Hand

end
-- ==== Proof.KI.Bridge.lean ====
/-
  The idealized kernel program's result is the network function `Cert.Net.out` of its arguments: each host stretch
  read back in the network's vocabulary, each region's output array by its whole-array value, chained from the
  launch memory to the last region.
-/
import proofs.«421952_j37563783971339_2_alg».proof.Proof.KI.Run
import proofs.«421952_j37563783971339_2_alg».proof.Proof.KI.Val0
import proofs.«421952_j37563783971339_2_alg».proof.Proof.KI.Val1
import proofs.«421952_j37563783971339_2_alg».proof.Proof.KI.Val2
import proofs.«421952_j37563783971339_2_alg».proof.Proof.KI.HostRead
import proofs.«421952_j37563783971339_2_alg».proof.Proof.Net

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## After the first host stretch: the edge list's arrays, fixed from here on -/

theorem s1_v1 : W1 m ρ c (Proc.devRef .tc main_v1) = Cert.Net.src (m ((c : Thread nD τ).loc main_arg5)) := h0_v1 (W0 m ρ c)
theorem s1_v3 : W1 m ρ c (Proc.devRef .tc main_v3) = Cert.Net.dst (m ((c : Thread nD τ).loc main_arg5)) := h0_v3 (W0 m ρ c)
theorem s1_v27 : W1 m ρ c (Proc.devRef .tc main_v27) = Cert.Net.coef (m ((c : Thread nD τ).loc main_arg5)) := h0_v27 (W0 m ρ c)
theorem s1_v12 : W1 m ρ c (Proc.devRef .tc main_v12) = Cert.Net.col (Cert.Net.dd (m ((c : Thread nD τ).loc main_arg5))) := h0_v12 (W0 m ρ c)
theorem s1_arg (r : Ref sig .tc) (h : r ∉ hostOps0_W) : W1 m ρ c (Proc.devRef .tc r) = m ((c : Thread nD τ).loc r) :=
  W1_of m ρ c r h

/-! ## After region 0: the first layer's transformed features -/

theorem s2_v28 : W2 m ρ c (Proc.devRef .tc main_v28) = Cert.Net.h1 (m ((c : Thread nD τ).loc main_arg0)) (m ((c : Thread nD τ).loc main_arg1)) := by
  refine (W2_arr m ρ c 2).trans ((final0 (U1 m ρ) c).trans ?_)
  rw [show U1 m ρ c main_arg0 = m ((c : Thread nD τ).loc main_arg0) from s1_arg m ρ c main_arg0 (by decide),
    show U1 m ρ c main_arg1 = m ((c : Thread nD τ).loc main_arg1) from s1_arg m ρ c main_arg1 (by decide)]
  rfl
/-- Region 0 changes only its output array. -/
theorem s2_keep (r : Ref sig .tc) (h : ∀ w, Pipeline.arrRef spec0 w ≠ r) : W2 m ρ c (Proc.devRef .tc r) = W1 m ρ c (Proc.devRef .tc r) :=
  W2_of_ne m ρ c r h

/-! ## After the second host stretch and region 1: the second layer's transformed features -/

theorem s3_v41 : W3 m ρ c (Proc.devRef .tc main_v41)
    = Cert.Net.agg16 (m ((c : Thread nD τ).loc main_arg5)) (Cert.Net.h1 (m ((c : Thread nD τ).loc main_arg0)) (m ((c : Thread nD τ).loc main_arg1))) := by
  refine (h1_v41 (W2 m ρ c) (m ((c : Thread nD τ).loc main_arg5)) ?_ ?_ ?_).trans ?_
  · exact (s2_keep m ρ c main_v1 (by decide)).trans (s1_v1 m ρ c)
  · exact (s2_keep m ρ c main_v3 (by decide)).trans (s1_v3 m ρ c)
  · exact (s2_keep m ρ c main_v27 (by decide)).trans (s1_v27 m ρ c)
  · rw [s2_v28]
theorem s3_v42 : W3 m ρ c (Proc.devRef .tc main_v42) = Cert.Net.row (m ((c : Thread nD τ).loc main_arg2)) := by
  refine (h1_v42 (W2 m ρ c)).trans ?_
  rw [(s2_keep m ρ c main_arg2 (by decide)).trans (s1_arg m ρ c main_arg2 (by decide))]
theorem s3_v28 : W3 m ρ c (Proc.devRef .tc main_v28) = Cert.Net.h1 (m ((c : Thread nD τ).loc main_arg0)) (m ((c : Thread nD τ).loc main_arg1)) :=
  (W3_of m ρ c main_v28 (by decide)).trans (s2_v28 m ρ c)
theorem s3_v12 : W3 m ρ c (Proc.devRef .tc main_v12) = Cert.Net.col (Cert.Net.dd (m ((c : Thread nD τ).loc main_arg5))) :=
  (W3_of m ρ c main_v12 (by decide)).trans ((s2_keep m ρ c main_v12 (by decide)).trans (s1_v12 m ρ c))
theorem s3_arg3 : W3 m ρ c (Proc.devRef .tc main_arg3) = m ((c : Thread nD τ).loc main_arg3) :=
  (W3_of m ρ c main_arg3 (by decide)).trans ((s2_keep m ρ c main_arg3 (by decide)).trans (s1_arg m ρ c main_arg3 (by decide)))
/-- What neither the second stretch nor region 0 writes is as the first stretch left it. -/
theorem s3_keep (r : Ref sig .tc) (h1 : r ∉ hostOps1_W) (h0 : ∀ w, Pipeline.arrRef spec0 w ≠ r) :
    W3 m ρ c (Proc.devRef .tc r) = W1 m ρ c (Proc.devRef .tc r) :=
  (W3_of m ρ c r h1).trans (s2_keep m ρ c r h0)

theorem s4_v43 : W4 m ρ c (Proc.devRef .tc main_v43)
    = Cert.Net.h2 (m ((c : Thread nD τ).loc main_arg0)) (m ((c : Thread nD τ).loc main_arg1)) (m ((c : Thread nD τ).loc main_arg2))
        (m ((c : Thread nD τ).loc main_arg3)) (m ((c : Thread nD τ).loc main_arg5)) := by
  refine (W4_arr m ρ c 5).trans ((final1 (U3 m ρ) c).trans ?_)
  rw [show U3 m ρ c main_v41 = _ from s3_v41 m ρ c, show U3 m ρ c main_v28 = _ from s3_v28 m ρ c,
    show U3 m ρ c main_v12 = _ from s3_v12 m ρ c, show U3 m ρ c main_v42 = _ from s3_v42 m ρ c,
    show U3 m ρ c main_arg3 = _ from s3_arg3 m ρ c]
  rfl
/-- Region 1 changes only its output array; an input array of its own it hands back as entered. -/
theorem s4_keep (r : Ref sig .tc) (h : ∀ w, Pipeline.arrRef spec1 w ≠ r) : W4 m ρ c (Proc.devRef .tc r) = W3 m ρ c (Proc.devRef .tc r) :=
  W4_of_ne m ρ c r h
theorem s4_v12 : W4 m ρ c (Proc.devRef .tc main_v12) = Cert.Net.col (Cert.Net.dd (m ((c : Thread nD τ).loc main_arg5))) :=
  ((W4_arr m ρ c 2).trans (((dat1 (U3 m ρ) c).arrAt_in 2 rfl _).trans (A_eq1 (U3 m ρ) c 2))).trans (s3_v12 m ρ c)

/-! ## After the third host stretch and region 2: the pooled, normalised output -/

theorem s5_v56 : W5 m ρ c (Proc.devRef .tc main_v56)
    = Cert.Net.agg2 (m ((c : Thread nD τ).loc main_arg5)) (Cert.Net.h2 (m ((c : Thread nD τ).loc main_arg0)) (m ((c : Thread nD τ).loc main_arg1))
        (m ((c : Thread nD τ).loc main_arg2)) (m ((c : Thread nD τ).loc main_arg3)) (m ((c : Thread nD τ).loc main_arg5))) := by
  refine (h2_v56 (W4 m ρ c) (m ((c : Thread nD τ).loc main_arg5)) ?_ ?_ ?_).trans ?_
  · exact (s4_keep m ρ c main_v1 (by decide)).trans ((s3_keep m ρ c main_v1 (by decide) (by decide)).trans (s1_v1 m ρ c))
  · exact (s4_keep m ρ c main_v3 (by decide)).trans ((s3_keep m ρ c main_v3 (by decide) (by decide)).trans (s1_v3 m ρ c))
  · exact (s4_keep m ρ c main_v27 (by decide)).trans ((s3_keep m ρ c main_v27 (by decide) (by decide)).trans (s1_v27 m ρ c))
  · rw [s4_v43]
theorem s5_v57 : W5 m ρ c (Proc.devRef .tc main_v57) = Cert.Net.row (m ((c : Thread nD τ).loc main_arg4)) := by
  refine (h2_v57 (W4 m ρ c)).trans ?_
  rw [(s4_keep m ρ c main_arg4 (by decide)).trans ((s3_keep m ρ c main_arg4 (by decide) (by decide)).trans (s1_arg m ρ c main_arg4 (by decide)))]
theorem s5_v58 : W5 m ρ c (Proc.devRef .tc main_v58) = Cert.Net.col (m ((c : Thread nD τ).loc main_arg6)) := by
  refine (h2_v58 (W4 m ρ c)).trans ?_
  rw [(s4_keep m ρ c main_arg6 (by decide)).trans ((s3_keep m ρ c main_arg6 (by decide) (by decide)).trans (s1_arg m ρ c main_arg6 (by decide)))]
theorem s5_v43 : W5 m ρ c (Proc.devRef .tc main_v43)
    = Cert.Net.h2 (m ((c : Thread nD τ).loc main_arg0)) (m ((c : Thread nD τ).loc main_arg1)) (m ((c : Thread nD τ).loc main_arg2))
        (m ((c : Thread nD τ).loc main_arg3)) (m ((c : Thread nD τ).loc main_arg5)) := (W5_of m ρ c main_v43 (by decide)).trans (s4_v43 m ρ c)
theorem s5_v12 : W5 m ρ c (Proc.devRef .tc main_v12) = Cert.Net.col (Cert.Net.dd (m ((c : Thread nD τ).loc main_arg5))) := (W5_of m ρ c main_v12 (by decide)).trans (s4_v12 m ρ c)

/-- THE KERNEL PROGRAM'S RESULT: the network function of the seven arguments. -/
theorem kernel_out : W6 m ρ c (Proc.devRef .tc main_v59)
    = Cert.Net.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (W6_arr m ρ c 5).trans ((final2 (U5 m ρ) c).trans ?_)
  rw [show U5 m ρ c main_v56 = _ from s5_v56 m ρ c, show U5 m ρ c main_v43 = _ from s5_v43 m ρ c,
    show U5 m ρ c main_v12 = _ from s5_v12 m ρ c, show U5 m ρ c main_v57 = _ from s5_v57 m ρ c,
    show U5 m ρ c main_v58 = _ from s5_v58 m ρ c]
  rfl

end Cert.KernelIdeal.Hand

end
-- ==== Proof.RefScatter.lean ====
/-
  The accumulating scatter of the pooling stage read at an index: an update row lands on graph g exactly when its
  batch word is the numeral of g, so the scattered sum is the membership-weighted sum over all nodes.
-/
import proofs.«421952_j37563783971339_2_alg».proof.Proof.Gen.ReferenceIdeal
import proofs.«421952_j37563783971339_2_alg».proof.Proof.Spec
import Idealize.ShloMosaic.Lib.ValueIdx
import Idealize.ShloMosaic.Lib.ValueIdxRank1
import Idealize.ShloMosaic.PureOps.Ideal

noncomputable section

namespace Cert.ReferenceIdeal.RefValue

open Cert.ReferenceIdeal Cert.ReferenceIdeal.Gen Idealize.ShloMosaic Idealize.ShloMosaic.ValueIdx

/-- A 32-bit word read signed is the natural g below 1024 exactly when it is the numeral of g. -/
theorem toInt_eq_iff (w : BitVec 32) (g : Nat) (hg : g < 1024) : w.toInt = (g : Int) ↔ w = BitVec.ofNat 32 g := by
  rw [← BitVec.toNat_inj, BitVec.toNat_ofNat, BitVec.toInt_eq_toNat_cond]
  have hw := w.isLt
  split <;> omega

/-! ## The rank-2 record: rows of two entries scattered by one index word per row -/

/-- The start index on the graph axis is the batch word of the row, read signed. -/
theorem start2_0 (j : S500000x2.Idx) (idx : IVec S500000x1 32) :
    scatter_S1024x2_S500000x1_S500000x2_1_0_0_1.start j idx 0 = (idx (ix2 (j 0) 0)).toInt := by
  unfold ScatterDims.start
  rw [dif_pos (show (0 : Fin S1024x2.rank) ∈ scatter_S1024x2_S500000x1_S500000x2_1_0_0_1.scatterDimsToOperandDims from List.mem_singleton.mpr rfl)]
  refine congrArg (fun k => (idx k).toInt) (funext fun b => Fin.ext ?_)
  match b with
  | ⟨0, _⟩ => rfl
  | ⟨1, _⟩ => rfl

/-- The start index on the column axis is zero. -/
theorem start2_1 (j : S500000x2.Idx) (idx : IVec S500000x1 32) :
    scatter_S1024x2_S500000x1_S500000x2_1_0_0_1.start j idx 1 = 0 := by
  unfold ScatterDims.start
  rw [dif_neg (show ¬ (1 : Fin S1024x2.rank) ∈ scatter_S1024x2_S500000x1_S500000x2_1_0_0_1.scatterDimsToOperandDims by decide)]

/-- The window coordinate on the graph axis is zero. -/
theorem window2_0 (j : S500000x2.Idx) : scatter_S1024x2_S500000x1_S500000x2_1_0_0_1.window j 0 = 0 := by
  unfold ScatterDims.window
  rw [dif_neg (show ¬ (0 : Fin S1024x2.rank) ∈ scatter_S1024x2_S500000x1_S500000x2_1_0_0_1.sKept by decide)]

/-- The window coordinate on the column axis is the column of the update. -/
theorem window2_1 (j : S500000x2.Idx) : scatter_S1024x2_S500000x1_S500000x2_1_0_0_1.window j 1 = (j 1).val := by
  unfold ScatterDims.window
  rw [dif_pos (show (1 : Fin S1024x2.rank) ∈ scatter_S1024x2_S500000x1_S500000x2_1_0_0_1.sKept by decide)]
  rfl

/-- An update lands on an element exactly when its batch word, read signed, is the graph coordinate and the columns agree. -/
theorem resultIdx2_eq_some (j : S500000x2.Idx) (idx : IVec S500000x1 32) (i : S1024x2.Idx) :
    scatter_S1024x2_S500000x1_S500000x2_1_0_0_1.resultIdx? j idx = some i
      ↔ (idx (ix2 (j 0) 0)).toInt = ((i 0).val : Int) ∧ (j 1).val = (i 1).val := by
  have hi0 : (i 0).val < 1024 := (i 0).isLt
  have hi1 : (i 1).val < 2 := (i 1).isLt
  have hj1 : (j 1).val < 2 := (j 1).isLt
  unfold ScatterDims.resultIdx?
  split
  · rename_i h
    have h0 := h 0
    have h1 := h 1
    rw [start2_0, window2_0] at h0
    rw [start2_1, window2_1] at h1
    rw [Option.some.injEq]
    constructor
    · intro e
      have e0 : (scatter_S1024x2_S500000x1_S500000x2_1_0_0_1.start j idx 0 + scatter_S1024x2_S500000x1_S500000x2_1_0_0_1.window j 0).toNat = (i 0).val :=
        congrArg (fun f : S1024x2.Idx => (f 0).val) e
      have e1 : (scatter_S1024x2_S500000x1_S500000x2_1_0_0_1.start j idx 1 + scatter_S1024x2_S500000x1_S500000x2_1_0_0_1.window j 1).toNat = (i 1).val :=
        congrArg (fun f : S1024x2.Idx => (f 1).val) e
      rw [start2_0, window2_0] at e0
      rw [start2_1, window2_1] at e1
      omega
    · rintro ⟨e0, e1⟩
      funext a
      refine Fin.ext ?_
      match a with
      | ⟨0, _⟩ =>
        show (scatter_S1024x2_S500000x1_S500000x2_1_0_0_1.start j idx 0 + scatter_S1024x2_S500000x1_S500000x2_1_0_0_1.window j 0).toNat = (i 0).val
        rw [start2_0, window2_0]; omega
      | ⟨1, _⟩ =>
        show (scatter_S1024x2_S500000x1_S500000x2_1_0_0_1.start j idx 1 + scatter_S1024x2_S500000x1_S500000x2_1_0_0_1.window j 1).toNat = (i 1).val
        rw [start2_1, window2_1]; omega
  · rename_i h
    constructor
    · intro e; cases e
    · rintro ⟨e0, e1⟩
      refine absurd (fun a => ?_) h
      match a with
      | ⟨0, _⟩ =>
        show 0 ≤ scatter_S1024x2_S500000x1_S500000x2_1_0_0_1.start j idx 0 + scatter_S1024x2_S500000x1_S500000x2_1_0_0_1.window j 0
          ∧ scatter_S1024x2_S500000x1_S500000x2_1_0_0_1.start j idx 0 + scatter_S1024x2_S500000x1_S500000x2_1_0_0_1.window j 0 < ((1024 : Nat) : Int)
        rw [start2_0, window2_0]; omega
      | ⟨1, _⟩ =>
        show 0 ≤ scatter_S1024x2_S500000x1_S500000x2_1_0_0_1.start j idx 1 + scatter_S1024x2_S500000x1_S500000x2_1_0_0_1.window j 1
          ∧ scatter_S1024x2_S500000x1_S500000x2_1_0_0_1.start j idx 1 + scatter_S1024x2_S500000x1_S500000x2_1_0_0_1.window j 1 < ((2 : Nat) : Int)
        rw [start2_1, window2_1]; omega

/-- In coordinates: row n, column c' lands on graph g, column c exactly when the columns agree and the batch word of the
    row is the numeral of g. -/
theorem resultIdx2_ix (idx : IVec S500000x1 32) (n : Fin 500000) (c' c : Fin 2) (g : Fin 1024) :
    scatter_S1024x2_S500000x1_S500000x2_1_0_0_1.resultIdx? (ix2 n c') idx = some (ix2 g c)
      ↔ c' = c ∧ idx (ix2 n 0) = BitVec.ofNat 32 g.val := by
  rw [resultIdx2_eq_some]
  show (idx (ix2 n 0)).toInt = (g.val : Int) ∧ c'.val = c.val ↔ _
  rw [toInt_eq_iff _ _ g.isLt, Fin.val_inj]
  exact And.comm

/-- THE RANK-2 SCATTER AT (g, c): the operand there plus the sum over all nodes of the membership weight times the
    update at that node and column. -/
theorem scatterAdd2_apply (x : FVec Ideal S1024x2 .f32) (idx : IVec S500000x1 32) (upd : FVec Ideal S500000x2 .f32)
    (g : Fin 1024) (c : Fin 2) :
    Host.scatterAdd (F := Ideal) scatter_S1024x2_S500000x1_S500000x2_1_0_0_1 x idx upd (ix2 g c)
      = x (ix2 g c) + ∑ n : Fin 500000, Cert.Spec.oneHot (idx (ix2 n 0)) g * upd (ix2 n c) := by
  show Ideal.hostScatterAdd scatter_S1024x2_S500000x1_S500000x2_1_0_0_1 x idx upd (ix2 g c) = _
  unfold Ideal.hostScatterAdd
  refine congrArg (x (ix2 g c) + ·) ?_
  rw [Finset.sum_filter, sum_idx2]
  refine Finset.sum_congr rfl fun n _ => ?_
  rw [Fin.sum_univ_two]
  have h0 := resultIdx2_ix idx n 0 c g
  have h1 := resultIdx2_ix idx n 1 c g
  unfold Cert.Spec.oneHot
  by_cases hw : idx (ix2 n 0) = BitVec.ofNat 32 g.val
  · rw [if_pos hw, one_mul]
    obtain rfl | rfl : c = 0 ∨ c = 1 := by
      rcases c with ⟨v, hv⟩
      rcases v with _ | _ | v
      · exact Or.inl rfl
      · exact Or.inr rfl
      · omega
    · rw [if_pos (h0.2 ⟨rfl, hw⟩), if_neg (fun h => absurd (h1.1 h).1 (by decide)), add_zero]
    · rw [if_neg (fun h => absurd (h0.1 h).1 (by decide)), if_pos (h1.2 ⟨rfl, hw⟩), zero_add]
  · rw [if_neg hw, zero_mul, if_neg (fun h => hw (h0.1 h).2), if_neg (fun h => hw (h1.1 h).2), add_zero]

/-! ## The rank-1 record: one entry per node scattered by the index word of the node -/

/-- The start index on the graph axis is the batch word of the node, read signed. -/
theorem start1_0 (j : S500000.Idx) (idx : IVec S500000x1 32) :
    scatter_S1024_S500000x1_S500000_n_0_0_1.start j idx 0 = (idx (ix2 (j 0) 0)).toInt := by
  unfold ScatterDims.start
  rw [dif_pos (show (0 : Fin S1024.rank) ∈ scatter_S1024_S500000x1_S500000_n_0_0_1.scatterDimsToOperandDims from List.mem_singleton.mpr rfl)]
  refine congrArg (fun k => (idx k).toInt) (funext fun b => Fin.ext ?_)
  match b with
  | ⟨0, _⟩ => rfl
  | ⟨1, _⟩ => rfl

/-- There is no window: the window coordinate on the graph axis is zero. -/
theorem window1_0 (j : S500000.Idx) : scatter_S1024_S500000x1_S500000_n_0_0_1.window j 0 = 0 := by
  unfold ScatterDims.window
  rw [dif_neg (show ¬ (0 : Fin S1024.rank) ∈ scatter_S1024_S500000x1_S500000_n_0_0_1.sKept by decide)]

/-- An update lands on a graph exactly when its batch word, read signed, is that graph. -/
theorem resultIdx1_eq_some (j : S500000.Idx) (idx : IVec S500000x1 32) (i : S1024.Idx) :
    scatter_S1024_S500000x1_S500000_n_0_0_1.resultIdx? j idx = some i
      ↔ (idx (ix2 (j 0) 0)).toInt = ((i 0).val : Int) := by
  have hi0 : (i 0).val < 1024 := (i 0).isLt
  unfold ScatterDims.resultIdx?
  split
  · rename_i h
    have h0 := h 0
    rw [start1_0, window1_0] at h0
    rw [Option.some.injEq]
    constructor
    · intro e
      have e0 : (scatter_S1024_S500000x1_S500000_n_0_0_1.start j idx 0 + scatter_S1024_S500000x1_S500000_n_0_0_1.window j 0).toNat = (i 0).val :=
        congrArg (fun f : S1024.Idx => (f 0).val) e
      rw [start1_0, window1_0] at e0
      omega
    · intro e0
      funext a
      refine Fin.ext ?_
      match a with
      | ⟨0, _⟩ =>
        show (scatter_S1024_S500000x1_S500000_n_0_0_1.start j idx 0 + scatter_S1024_S500000x1_S500000_n_0_0_1.window j 0).toNat = (i 0).val
        rw [start1_0, window1_0]; omega
  · rename_i h
    constructor
    · intro e; cases e
    · intro e0
      refine absurd (fun a => ?_) h
      match a with
      | ⟨0, _⟩ =>
        show 0 ≤ scatter_S1024_S500000x1_S500000_n_0_0_1.start j idx 0 + scatter_S1024_S500000x1_S500000_n_0_0_1.window j 0
          ∧ scatter_S1024_S500000x1_S500000_n_0_0_1.start j idx 0 + scatter_S1024_S500000x1_S500000_n_0_0_1.window j 0 < ((1024 : Nat) : Int)
        rw [start1_0, window1_0]; omega

/-- In coordinates: node n lands on graph g exactly when its batch word is the numeral of g. -/
theorem resultIdx1_ix (idx : IVec S500000x1 32) (n : Fin 500000) (g : Fin 1024) :
    scatter_S1024_S500000x1_S500000_n_0_0_1.resultIdx? (ix1 n) idx = some (ix1 g)
      ↔ idx (ix2 n 0) = BitVec.ofNat 32 g.val := by
  rw [resultIdx1_eq_some]
  show (idx (ix2 n 0)).toInt = (g.val : Int) ↔ _
  rw [toInt_eq_iff _ _ g.isLt]

/-- THE RANK-1 SCATTER AT g: the operand there plus the sum over all nodes of the membership weight times the update of
    that node. -/
theorem scatterAdd1_apply (x : FVec Ideal S1024 .f32) (idx : IVec S500000x1 32) (upd : FVec Ideal S500000 .f32)
    (g : Fin 1024) :
    Host.scatterAdd (F := Ideal) scatter_S1024_S500000x1_S500000_n_0_0_1 x idx upd (ix1 g)
      = x (ix1 g) + ∑ n : Fin 500000, Cert.Spec.oneHot (idx (ix2 n 0)) g * upd (ix1 n) := by
  show Ideal.hostScatterAdd scatter_S1024_S500000x1_S500000_n_0_0_1 x idx upd (ix1 g) = _
  unfold Ideal.hostScatterAdd
  refine congrArg (x (ix1 g) + ·) ?_
  rw [Finset.sum_filter, ← Equiv.sum_comp (idxEquiv1 (n := 500000)).symm]
  refine Finset.sum_congr rfl fun n _ => ?_
  show (if scatter_S1024_S500000x1_S500000_n_0_0_1.resultIdx? (ix1 n) idx = some (ix1 g) then upd (ix1 n) else 0) = _
  have h0 := resultIdx1_ix idx n g
  unfold Cert.Spec.oneHot
  by_cases hw : idx (ix2 n 0) = BitVec.ofNat 32 g.val
  · rw [if_pos hw, one_mul, if_pos (h0.2 hw)]
  · rw [if_neg hw, zero_mul, if_neg (fun h => hw (h0.1 h))]

end Cert.ReferenceIdeal.RefValue

end
-- ==== Proof.RefVal.lean ====
/-
  The reference program at the ideal values: its two feature transforms and its pooled log-softmax, as they stand in the
  composed result term, are the whole-array functions of the specification. Each is read at an index: the products as
  sums over the contracted axis, the broadcasts at the coordinates they repeat, the two accumulating scatters as
  membership-weighted sums over the nodes, the row maximum and the row sum over the two columns.
-/
import proofs.«421952_j37563783971339_2_alg».proof.Proof.Gen.ReferenceIdeal.Run
import proofs.«421952_j37563783971339_2_alg».proof.Proof.Gen.ReferenceIdeal.Read
import proofs.«421952_j37563783971339_2_alg».proof.Proof.Spec
import proofs.«421952_j37563783971339_2_alg».proof.Proof.RefScatter
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The broadcasts read at coordinates -/

section Broadcasts
variable {α : Type}

/-- A column repeated along sixteen columns reads the column. -/
theorem bcast_col16 (D : S500000x1.Idx → α) (n : Fin 500000) (k : Fin 16) :
    broadcastInDim S500000x16 ![0, 1] bcast_S500000x1_S500000x16_0_1 D (ix2 n k) = D (ix2 n 0) :=
  broadcastInDim_apply _ bcast_S500000x1_S500000x16_0_1 D (ix2 n k) (ix2 n 0) (fun a => match a with
    | ⟨0, _⟩ => by show n.val = if (500000 : Nat) = 1 then 0 else n.val; rw [if_neg (by decide)]
    | ⟨1, _⟩ => by show 0 = if (1 : Nat) = 1 then 0 else k.val; rw [if_pos rfl])

/-- A row of sixteen repeated along the nodes reads the row. -/
theorem bcast_row16 (B : S1x16.Idx → α) (n : Fin 500000) (k : Fin 16) :
    broadcastInDim S500000x16 ![0, 1] bcast_S1x16_S500000x16_0_1 B (ix2 n k) = B (ix2 0 k) :=
  broadcastInDim_apply _ bcast_S1x16_S500000x16_0_1 B (ix2 n k) (ix2 0 k) (fun a => match a with
    | ⟨0, _⟩ => by show 0 = if (1 : Nat) = 1 then 0 else n.val; rw [if_pos rfl]
    | ⟨1, _⟩ => by show k.val = if (16 : Nat) = 1 then 0 else k.val; rw [if_neg (by decide)])

/-- A column repeated along two columns reads the column. -/
theorem bcast_col2 (D : S500000x1.Idx → α) (n : Fin 500000) (c : Fin 2) :
    broadcastInDim S500000x2 ![0, 1] bcast_S500000x1_S500000x2_0_1 D (ix2 n c) = D (ix2 n 0) :=
  broadcastInDim_apply _ bcast_S500000x1_S500000x2_0_1 D (ix2 n c) (ix2 n 0) (fun a => match a with
    | ⟨0, _⟩ => by show n.val = if (500000 : Nat) = 1 then 0 else n.val; rw [if_neg (by decide)]
    | ⟨1, _⟩ => by show 0 = if (1 : Nat) = 1 then 0 else c.val; rw [if_pos rfl])

/-- A row of two repeated along the nodes reads the row. -/
theorem bcast_row2 (B : S1x2.Idx → α) (n : Fin 500000) (c : Fin 2) :
    broadcastInDim S500000x2 ![0, 1] bcast_S1x2_S500000x2_0_1 B (ix2 n c) = B (ix2 0 c) :=
  broadcastInDim_apply _ bcast_S1x2_S500000x2_0_1 B (ix2 n c) (ix2 0 c) (fun a => match a with
    | ⟨0, _⟩ => by show 0 = if (1 : Nat) = 1 then 0 else n.val; rw [if_pos rfl]
    | ⟨1, _⟩ => by show c.val = if (2 : Nat) = 1 then 0 else c.val; rw [if_neg (by decide)])

/-- A per-graph vector made a column reads the vector. -/
theorem bcast_gcol (v : S1024.Idx → α) (g : Fin 1024) (z : Fin 1) :
    broadcastInDim S1024x1 ![0] bcast_S1024_S1024x1_0 v (ix2 g z) = v (ix1 g) :=
  broadcastInDim_apply _ bcast_S1024_S1024x1_0 v (ix2 g z) (ix1 g) (fun a => match a with
    | ⟨0, _⟩ => by show g.val = if (1024 : Nat) = 1 then 0 else g.val; rw [if_neg (by decide)])

/-- A per-graph column repeated along two columns reads the column. -/
theorem bcast_gcol2 (D : S1024x1.Idx → α) (g : Fin 1024) (c : Fin 2) :
    broadcastInDim S1024x2 ![0, 1] bcast_S1024x1_S1024x2_0_1 D (ix2 g c) = D (ix2 g 0) :=
  broadcastInDim_apply _ bcast_S1024x1_S1024x2_0_1 D (ix2 g c) (ix2 g 0) (fun a => match a with
    | ⟨0, _⟩ => by show g.val = if (1024 : Nat) = 1 then 0 else g.val; rw [if_neg (by decide)]
    | ⟨1, _⟩ => by show 0 = if (1 : Nat) = 1 then 0 else c.val; rw [if_pos rfl])

/-- A scalar repeated everywhere reads the scalar. -/
theorem bcast_scalar {t : Shape} (h : S_.BroadcastsInDim t (![] : Fin 0 → Fin t.rank)) (v : S_.Idx → α) (j : t.Idx) :
    broadcastInDim t ![] h v j = v ix0 :=
  broadcastInDim_apply _ h v j ix0 (fun a => a.elim0)

end Broadcasts

/-! ## The first feature transform -/

theorem ref_G0 (x : FVec Ideal S500000x32 .f32) (w : FVec Ideal S32x16 .f32) :
    Host.dotGeneral dot_S500000x32_S32x16_S500000x16_1_0_0_1_n_n none x w = Cert.Spec.G0 x w := by
  funext i
  obtain ⟨n, c, rfl⟩ : ∃ (n : Fin 500000) (c : Fin 16), i = ix2 n c := ⟨i 0, i 1, eq_ix2 i⟩
  refine (Read.val_main_v4_apply x w (ix2 n c)).trans ?_
  show _ = ∑ k : Fin 32, x (ix2 n k) * w (ix2 k c)
  refine Finset.sum_congr rfl fun k _ => ?_
  have el : Read.lidx_main_v4 (ix2 n c) k = ix2 n k := funext fun a => by
    match a with
    | ⟨0, _⟩ => rfl
    | ⟨1, _⟩ => rfl
  have er : Read.ridx_main_v4 (ix2 n c) k = ix2 k c := funext fun a => by
    match a with
    | ⟨0, _⟩ => rfl
    | ⟨1, _⟩ => rfl
  rw [el, er]

/-! ## The second feature transform of the activated first convolution -/

/-- The second product read at an index: the sum over the sixteen hidden features. -/
theorem dot2_apply (y : FVec Ideal S500000x16 .f32) (w : FVec Ideal S16x2 .f32) (n : Fin 500000) (c : Fin 2) :
    Host.dotGeneral dot_S500000x16_S16x2_S500000x2_1_0_0_1_n_n none y w (ix2 n c)
      = ∑ k : Fin 16, y (ix2 n k) * w (ix2 k c) := by
  simp only [Host.dotGeneral]
  rw [Ideal.dotGeneral_apply, ← Equiv.sum_comp (ValueIdx.contrEquiv1 dot_S500000x16_S16x2_S500000x2_1_0_0_1_n_n 16 rfl rfl).symm]
  refine Finset.sum_congr rfl fun k _ => ?_
  have hk := ValueIdx.contrEquiv1_symm_val dot_S500000x16_S16x2_S500000x2_1_0_0_1_n_n 16 rfl rfl k
  have el : dot_S500000x16_S16x2_S500000x2_1_0_0_1_n_n.lhsIdx (ix2 n c) ((ValueIdx.contrEquiv1 dot_S500000x16_S16x2_S500000x2_1_0_0_1_n_n 16 rfl rfl).symm k)
      = ix2 n k := funext fun a => Fin.ext (by
    match a with
    | ⟨0, _⟩ => exact Read.lhs_main_v49_0 _ _
    | ⟨1, _⟩ => exact (Read.lhs_main_v49_1 _ _).trans hk)
  have er : dot_S500000x16_S16x2_S500000x2_1_0_0_1_n_n.rhsIdx (ix2 n c) ((ValueIdx.contrEquiv1 dot_S500000x16_S16x2_S500000x2_1_0_0_1_n_n 16 rfl rfl).symm k)
      = ix2 k c := funext fun a => Fin.ext (by
    match a with
    | ⟨0, _⟩ => exact (Read.rhs_main_v49_0 _ _).trans hk
    | ⟨1, _⟩ => exact Read.rhs_main_v49_1 _ _)
  rw [el, er]

theorem ref_G1 (agg h : FVec Ideal S500000x16 .f32) (dd : FVec Ideal S500000 .f32) (b : FVec Ideal S16 .f32) (w : FVec Ideal S16x2 .f32) :
    (Host.dotGeneral dot_S500000x16_S16x2_S500000x2_1_0_0_1_n_n none (maximumf (addf (addf agg (mulf h (broadcastInDim S500000x16 ![0, 1] bcast_S500000x1_S500000x16_0_1 (broadcastInDim S500000x1 ![0] bcast_S500000_S500000x1_0 dd)))) (broadcastInDim S500000x16 ![0, 1] bcast_S1x16_S500000x16_0_1 (broadcastInDim S1x16 ![1] bcast_S16_S1x16_1 b))) (broadcastInDim S500000x16 ![] bcast_S_S500000x16 (constant S_ .f32 0x00000000#32))) w)
      = Cert.Spec.G1 agg h (broadcastInDim S500000x1 ![0] bcast_S500000_S500000x1_0 dd) (broadcastInDim S1x16 ![1] bcast_S16_S1x16_1 b) w := by
  funext i
  obtain ⟨n, c, rfl⟩ : ∃ (n : Fin 500000) (c : Fin 2), i = ix2 n c := ⟨i 0, i 1, eq_ix2 i⟩
  rw [dot2_apply]
  show _ = ∑ k : Fin 16, Cert.Spec.act1 agg h _ _ n k * w (ix2 k c)
  refine Finset.sum_congr rfl fun k _ => ?_
  unfold Cert.Spec.act1
  rw [maximumf_apply, addf_apply, addf_apply, mulf_apply, bcast_col16, bcast_row16, bcast_scalar, constant_apply]

/-! ## The pooled log-softmax -/

section AtIndex
variable {s : Shape} {φ : FTy}

/-- The quotient at an index is the quotient of the elements. -/
theorem hostDivf_apply (x y : FVec Ideal s φ) (i : s.Idx) : Host.divf x y i = Ideal.div (x i) (y i) := rfl
/-- The exponential at an index is the exponential of the element. -/
theorem hostExp_apply (x : FVec Ideal s φ) (i : s.Idx) : Host.exp x i = Ideal.exp (x i) := rfl
/-- The logarithm at an index is the logarithm of the element. -/
theorem hostLog_apply (x : FVec Ideal s φ) (i : s.Idx) : Host.log x i = Ideal.log (x i) := rfl

end AtIndex

/-- The graph index g with column k put back is (g, k). -/
theorem lift_row (hR : S1024x2.Reduces [1] S1024) (g : Fin 1024) (k : Fin 2) : hR.lift (ix1 g) k = ix2 g k := by
  funext a; apply Fin.ext
  fin_cases a <;> rfl

/-- The fold of the maximum from the least element over two entries is the maximum of the two. -/
theorem fold_max_fin2 (f : Fin 2 → EReal) : (Finset.univ : Finset (Fin 2)).fold max ⊥ f = max (f 0) (f 1) := by
  rw [show (Finset.univ : Finset (Fin 2)) = insert 0 {1} from by decide, Finset.fold_insert (by decide),
    Finset.fold_singleton, max_bot_right]

/-- The word of minus infinity is the least extended real. -/
theorem ofBits_negInf : Ideal.ofBits .f32 0xFF800000#32 = (⊥ : EReal) := by simp [Ideal.ofBits, Ideal.ieee]

/-- The row maximum: the maximum with minus infinity of the reduce from minus infinity over the two columns is the
    maximum of the two entries of the row. -/
theorem rowMax_apply (p : FVec Ideal S1024x2 .f32) (g : Fin 1024) :
    maximumf (broadcastInDim S1024 ![] bcast_S_S1024 (constant S_ .f32 0xFF800000#32))
        (Host.reduce FloatOps.maximumf p (constant S_ .f32 0xFF800000#32) reducesTo_S1024x2_S1024_d1 h_S_) (ix1 g)
      = max (p (ix2 g 0)) (p (ix2 g 1)) := by
  have hR : S1024x2.Reduces [1] S1024 := by decide
  rw [maximumf_apply, bcast_scalar, constant_apply,
    Host.reduce_eq_fold_single FloatOps.maximumf p _ reducesTo_S1024x2_S1024_d1 hR h_S_]
  show max (Ideal.ofBits .f32 0xFF800000#32)
      ((Finset.univ : Finset (Fin 2)).fold max (Ideal.ofBits .f32 0xFF800000#32) (fun k : Fin 2 => p (hR.lift (ix1 g) k))) = _
  rw [ofBits_negInf, fold_max_fin2, max_bot_left, lift_row, lift_row]

/-- The row sum: the sum from zero over the two columns is the sum of the two entries of the row. -/
theorem rowSum_apply (e : FVec Ideal S1024x2 .f32) (g : Fin 1024) :
    Host.reduceAdd e (constant S_ .f32 0x00000000#32) reducesTo_S1024x2_S1024_d1 h_S_ (ix1 g)
      = e (ix2 g 0) + e (ix2 g 1) := by
  have hR : S1024x2.Reduces [1] S1024 := by decide
  simp only [Host.reduceAdd, Ideal.hostReduceAdd_def]
  rw [Ideal.hostReduceAdd_single reducesTo_S1024x2_S1024_d1 hR]
  show Ideal.ofBits .f32 0x00000000#32 + ∑ k : Fin 2, e (hR.lift (ix1 g) k) = _
  rw [Fin.sum_univ_two, Ideal.ofBits_zero_f32, zero_add, lift_row, lift_row]

/-- The scattered sum from zero of rows of two, at (g, c): the membership-weighted sum of column c over the nodes. -/
theorem poolSum_eq (BI : IVec S500000x1 32) (y : FVec Ideal S500000x2 .f32) (g : Fin 1024) (c : Fin 2) :
    Host.scatterAdd (F := Ideal) scatter_S1024x2_S500000x1_S500000x2_1_0_0_1
        (broadcastInDim S1024x2 ![] bcast_S_S1024x2 (constant S_ .f32 0x00000000#32)) BI y (ix2 g c)
      = ∑ n : Fin 500000, Cert.Spec.oneHot (BI (ix2 n 0)) g * y (ix2 n c) := by
  rw [scatterAdd2_apply, bcast_scalar, constant_apply, Ideal.ofBits_zero_f32, zero_add]

/-- The scattered sum from zero of ones, at g: the number of nodes of graph g. -/
theorem poolCnt_eq (BI : IVec S500000x1 32) (g : Fin 1024) :
    Host.scatterAdd (F := Ideal) scatter_S1024_S500000x1_S500000_n_0_0_1
        (broadcastInDim S1024 ![] bcast_S_S1024 (constant S_ .f32 0x00000000#32)) BI
        (broadcastInDim S500000 ![] bcast_S_S500000 (constant S_ .f32 0x3F800000#32)) (ix1 g)
      = Cert.Spec.poolCnt BI g := by
  rw [scatterAdd1_apply, bcast_scalar, constant_apply, Ideal.ofBits_zero_f32, zero_add]
  unfold Cert.Spec.poolCnt
  refine Finset.sum_congr rfl fun n _ => ?_
  rw [bcast_scalar, constant_apply]

section Pool
variable (agg h : FVec Ideal S500000x2 .f32) (dd : FVec Ideal S500000 .f32) (b : FVec Ideal S2 .f32) (batch : IVec S500000 32)

/-- The output of the second convolution: aggregated messages, self-loop term, bias. -/
def convOut : FVec Ideal S500000x2 .f32 :=
  addf (addf agg (mulf h (broadcastInDim S500000x2 ![0, 1] bcast_S500000x1_S500000x2_0_1 (broadcastInDim S500000x1 ![0] bcast_S500000_S500000x1_0 dd)))) (broadcastInDim S500000x2 ![0, 1] bcast_S1x2_S500000x2_0_1 (broadcastInDim S1x2 ![1] bcast_S2_S1x2_1 b))

theorem convOut_apply (n : Fin 500000) (c : Fin 2) :
    convOut agg h dd b (ix2 n c)
      = Cert.Spec.conv2 agg h (broadcastInDim S500000x1 ![0] bcast_S500000_S500000x1_0 dd) (broadcastInDim S1x2 ![1] bcast_S2_S1x2_1 b) n c := by
  unfold convOut Cert.Spec.conv2
  rw [addf_apply, addf_apply, mulf_apply, bcast_col2, bcast_row2]

/-- The per-graph mean of the second convolution. -/
def meanOut : FVec Ideal S1024x2 .f32 :=
  Host.divf (Host.scatterAdd scatter_S1024x2_S500000x1_S500000x2_1_0_0_1 (broadcastInDim S1024x2 ![] bcast_S_S1024x2 (constant S_ .f32 0x00000000#32)) (broadcastInDim S500000x1 ![0] bcast_S500000_S500000x1_0 batch) (convOut agg h dd b)) (broadcastInDim S1024x2 ![0, 1] bcast_S1024x1_S1024x2_0_1 (broadcastInDim S1024x1 ![0] bcast_S1024_S1024x1_0 (maximumf (Host.scatterAdd scatter_S1024_S500000x1_S500000_n_0_0_1 (broadcastInDim S1024 ![] bcast_S_S1024 (constant S_ .f32 0x00000000#32)) (broadcastInDim S500000x1 ![0] bcast_S500000_S500000x1_0 batch) (broadcastInDim S500000 ![] bcast_S_S500000 (constant S_ .f32 0x3F800000#32))) (broadcastInDim S1024 ![] bcast_S_S1024 (constant S_ .f32 0x3F800000#32)))))

theorem meanOut_apply (g : Fin 1024) (c : Fin 2) :
    meanOut agg h dd b batch (ix2 g c)
      = Cert.Spec.pooled agg h (broadcastInDim S500000x1 ![0] bcast_S500000_S500000x1_0 dd) (broadcastInDim S1x2 ![1] bcast_S2_S1x2_1 b)
          (broadcastInDim S500000x1 ![0] bcast_S500000_S500000x1_0 batch) g c := by
  unfold meanOut Cert.Spec.pooled
  rw [hostDivf_apply, poolSum_eq, bcast_gcol2, bcast_gcol, maximumf_apply, poolCnt_eq, bcast_scalar, constant_apply]
  unfold Cert.Spec.poolSum
  simp only [convOut_apply]

/-- The per-graph mean shifted by its row maximum. -/
def shOut : FVec Ideal S1024x2 .f32 :=
  subf (meanOut agg h dd b batch) (broadcastInDim S1024x2 ![0, 1] bcast_S1024x1_S1024x2_0_1 (broadcastInDim S1024x1 ![0] bcast_S1024_S1024x1_0 (maximumf (broadcastInDim S1024 ![] bcast_S_S1024 (constant S_ .f32 0xFF800000#32)) (Host.reduce FloatOps.maximumf (meanOut agg h dd b batch) (constant S_ .f32 0xFF800000#32) reducesTo_S1024x2_S1024_d1 h_S_))))

theorem shOut_apply (g : Fin 1024) (c : Fin 2) :
    shOut agg h dd b batch (ix2 g c)
      = Cert.Spec.shifted (Cert.Spec.pooled agg h (broadcastInDim S500000x1 ![0] bcast_S500000_S500000x1_0 dd) (broadcastInDim S1x2 ![1] bcast_S2_S1x2_1 b)
          (broadcastInDim S500000x1 ![0] bcast_S500000_S500000x1_0 batch)) g c := by
  unfold shOut Cert.Spec.shifted
  rw [subf_apply, bcast_gcol2, bcast_gcol, rowMax_apply, meanOut_apply, meanOut_apply, meanOut_apply]

end Pool

set_option maxRecDepth 16384 in
theorem ref_G2 (agg h : FVec Ideal S500000x2 .f32) (dd : FVec Ideal S500000 .f32) (b : FVec Ideal S2 .f32) (batch : IVec S500000 32) :
    (subf (subf (Host.divf (Host.scatterAdd scatter_S1024x2_S500000x1_S500000x2_1_0_0_1 (broadcastInDim S1024x2 ![] bcast_S_S1024x2 (constant S_ .f32 0x00000000#32)) (broadcastInDim S500000x1 ![0] bcast_S500000_S500000x1_0 batch) (addf (addf agg (mulf h (broadcastInDim S500000x2 ![0, 1] bcast_S500000x1_S500000x2_0_1 (broadcastInDim S500000x1 ![0] bcast_S500000_S500000x1_0 dd)))) (broadcastInDim S500000x2 ![0, 1] bcast_S1x2_S500000x2_0_1 (broadcastInDim S1x2 ![1] bcast_S2_S1x2_1 b)))) (broadcastInDim S1024x2 ![0, 1] bcast_S1024x1_S1024x2_0_1 (broadcastInDim S1024x1 ![0] bcast_S1024_S1024x1_0 (maximumf (Host.scatterAdd scatter_S1024_S500000x1_S500000_n_0_0_1 (broadcastInDim S1024 ![] bcast_S_S1024 (constant S_ .f32 0x00000000#32)) (broadcastInDim S500000x1 ![0] bcast_S500000_S500000x1_0 batch) (broadcastInDim S500000 ![] bcast_S_S500000 (constant S_ .f32 0x3F800000#32))) (broadcastInDim S1024 ![] bcast_S_S1024 (constant S_ .f32 0x3F800000#32)))))) (broadcastInDim S1024x2 ![0, 1] bcast_S1024x1_S1024x2_0_1 (broadcastInDim S1024x1 ![0] bcast_S1024_S1024x1_0 (maximumf (broadcastInDim S1024 ![] bcast_S_S1024 (constant S_ .f32 0xFF800000#32)) (Host.reduce FloatOps.maximumf (Host.divf (Host.scatterAdd scatter_S1024x2_S500000x1_S500000x2_1_0_0_1 (broadcastInDim S1024x2 ![] bcast_S_S1024x2 (constant S_ .f32 0x00000000#32)) (broadcastInDim S500000x1 ![0] bcast_S500000_S500000x1_0 batch) (addf (addf agg (mulf h (broadcastInDim S500000x2 ![0, 1] bcast_S500000x1_S500000x2_0_1 (broadcastInDim S500000x1 ![0] bcast_S500000_S500000x1_0 dd)))) (broadcastInDim S500000x2 ![0, 1] bcast_S1x2_S500000x2_0_1 (broadcastInDim S1x2 ![1] bcast_S2_S1x2_1 b)))) (broadcastInDim S1024x2 ![0, 1] bcast_S1024x1_S1024x2_0_1 (broadcastInDim S1024x1 ![0] bcast_S1024_S1024x1_0 (maximumf (Host.scatterAdd scatter_S1024_S500000x1_S500000_n_0_0_1 (broadcastInDim S1024 ![] bcast_S_S1024 (constant S_ .f32 0x00000000#32)) (broadcastInDim S500000x1 ![0] bcast_S500000_S500000x1_0 batch) (broadcastInDim S500000 ![] bcast_S_S500000 (constant S_ .f32 0x3F800000#32))) (broadcastInDim S1024 ![] bcast_S_S1024 (constant S_ .f32 0x3F800000#32)))))) (constant S_ .f32 0xFF800000#32) reducesTo_S1024x2_S1024_d1 h_S_))))) (broadcastInDim S1024x2 ![0, 1] bcast_S1024x1_S1024x2_0_1 (Host.log (broadcastInDim S1024x1 ![0] bcast_S1024_S1024x1_0 (Host.reduceAdd (Host.exp (subf (Host.divf (Host.scatterAdd scatter_S1024x2_S500000x1_S500000x2_1_0_0_1 (broadcastInDim S1024x2 ![] bcast_S_S1024x2 (constant S_ .f32 0x00000000#32)) (broadcastInDim S500000x1 ![0] bcast_S500000_S500000x1_0 batch) (addf (addf agg (mulf h (broadcastInDim S500000x2 ![0, 1] bcast_S500000x1_S500000x2_0_1 (broadcastInDim S500000x1 ![0] bcast_S500000_S500000x1_0 dd)))) (broadcastInDim S500000x2 ![0, 1] bcast_S1x2_S500000x2_0_1 (broadcastInDim S1x2 ![1] bcast_S2_S1x2_1 b)))) (broadcastInDim S1024x2 ![0, 1] bcast_S1024x1_S1024x2_0_1 (broadcastInDim S1024x1 ![0] bcast_S1024_S1024x1_0 (maximumf (Host.scatterAdd scatter_S1024_S500000x1_S500000_n_0_0_1 (broadcastInDim S1024 ![] bcast_S_S1024 (constant S_ .f32 0x00000000#32)) (broadcastInDim S500000x1 ![0] bcast_S500000_S500000x1_0 batch) (broadcastInDim S500000 ![] bcast_S_S500000 (constant S_ .f32 0x3F800000#32))) (broadcastInDim S1024 ![] bcast_S_S1024 (constant S_ .f32 0x3F800000#32)))))) (broadcastInDim S1024x2 ![0, 1] bcast_S1024x1_S1024x2_0_1 (broadcastInDim S1024x1 ![0] bcast_S1024_S1024x1_0 (maximumf (broadcastInDim S1024 ![] bcast_S_S1024 (constant S_ .f32 0xFF800000#32)) (Host.reduce FloatOps.maximumf (Host.divf (Host.scatterAdd scatter_S1024x2_S500000x1_S500000x2_1_0_0_1 (broadcastInDim S1024x2 ![] bcast_S_S1024x2 (constant S_ .f32 0x00000000#32)) (broadcastInDim S500000x1 ![0] bcast_S500000_S500000x1_0 batch) (addf (addf agg (mulf h (broadcastInDim S500000x2 ![0, 1] bcast_S500000x1_S500000x2_0_1 (broadcastInDim S500000x1 ![0] bcast_S500000_S500000x1_0 dd)))) (broadcastInDim S500000x2 ![0, 1] bcast_S1x2_S500000x2_0_1 (broadcastInDim S1x2 ![1] bcast_S2_S1x2_1 b)))) (broadcastInDim S1024x2 ![0, 1] bcast_S1024x1_S1024x2_0_1 (broadcastInDim S1024x1 ![0] bcast_S1024_S1024x1_0 (maximumf (Host.scatterAdd scatter_S1024_S500000x1_S500000_n_0_0_1 (broadcastInDim S1024 ![] bcast_S_S1024 (constant S_ .f32 0x00000000#32)) (broadcastInDim S500000x1 ![0] bcast_S500000_S500000x1_0 batch) (broadcastInDim S500000 ![] bcast_S_S500000 (constant S_ .f32 0x3F800000#32))) (broadcastInDim S1024 ![] bcast_S_S1024 (constant S_ .f32 0x3F800000#32)))))) (constant S_ .f32 0xFF800000#32) reducesTo_S1024x2_S1024_d1 h_S_)))))) (constant S_ .f32 0x00000000#32) reducesTo_S1024x2_S1024_d1 h_S_)))))
      = Cert.Spec.G2 agg h (broadcastInDim S500000x1 ![0] bcast_S500000_S500000x1_0 dd) (broadcastInDim S1x2 ![1] bcast_S2_S1x2_1 b) (broadcastInDim S500000x1 ![0] bcast_S500000_S500000x1_0 batch) := by
  funext i
  obtain ⟨g, c, rfl⟩ : ∃ (g : Fin 1024) (c : Fin 2), i = ix2 g c := ⟨i 0, i 1, eq_ix2 i⟩
  show (subf (shOut agg h dd b batch) (broadcastInDim S1024x2 ![0, 1] bcast_S1024x1_S1024x2_0_1 (Host.log (broadcastInDim S1024x1 ![0] bcast_S1024_S1024x1_0 (Host.reduceAdd (Host.exp (shOut agg h dd b batch)) (constant S_ .f32 0x00000000#32) reducesTo_S1024x2_S1024_d1 h_S_))))) (ix2 g c)
    = Cert.Spec.logSoftmax2 (Cert.Spec.pooled agg h (broadcastInDim S500000x1 ![0] bcast_S500000_S500000x1_0 dd) (broadcastInDim S1x2 ![1] bcast_S2_S1x2_1 b)
        (broadcastInDim S500000x1 ![0] bcast_S500000_S500000x1_0 batch)) g c
  unfold Cert.Spec.logSoftmax2
  rw [subf_apply, bcast_gcol2, hostLog_apply, bcast_gcol, rowSum_apply, hostExp_apply, hostExp_apply,
    shOut_apply, shOut_apply, shOut_apply]

end Cert.ReferenceIdeal.RefValue

end
-- ==== Proof.RefNet.lean ====
/-
  The reference program's result is the network function `Cert.Net.out` of its arguments, given that its two
  feature transforms and its pooled log-softmax are the specification's whole-array functions.
-/
import proofs.«421952_j37563783971339_2_alg».proof.Proof.Gen.ReferenceIdeal.Run
import proofs.«421952_j37563783971339_2_alg».proof.Proof.Net
import Idealize.ShloMosaic.Lib.Pipeline.Value
import Idealize.ShloMosaic.Lib.ValueIdx

set_option maxRecDepth 16384

noncomputable section

namespace Cert.ReferenceIdeal.RefNet

open Cert.ReferenceIdeal Cert.ReferenceIdeal.Facts₀ Cert.ReferenceIdeal.Facts Cert.ReferenceIdeal.Value
open Idealize.ShloMosaic Idealize.ShloMosaic.TcCoe Idealize.ShloMosaic.ValueIdx Idealize.SL.Sem

/-- A vector broadcast along a new trailing unit axis is the vector as a column. -/
theorem col_eq {α : Type} (v : S500000.Idx → α) :
    broadcastInDim S500000x1 ![0] bcast_S500000_S500000x1_0 v = Cert.Net.col v := by
  funext j
  refine broadcastInDim_apply _ _ v j (ix1 (j 0 : Fin 500000)) (fun a => ?_)
  match a with
  | ⟨0, _⟩ => rfl

/-- A vector broadcast along a new leading unit axis is the vector as a row. -/
theorem row16_eq {α : Type} (v : S16.Idx → α) :
    broadcastInDim S1x16 ![1] bcast_S16_S1x16_1 v = Cert.Net.row v := by
  funext j
  refine broadcastInDim_apply _ _ v j (ix1 (j 1 : Fin 16)) (fun a => ?_)
  match a with
  | ⟨0, _⟩ => rfl

theorem row2_eq {α : Type} (v : S2.Idx → α) :
    broadcastInDim S1x2 ![1] bcast_S2_S1x2_1 v = Cert.Net.row v := by
  funext j
  refine broadcastInDim_apply _ _ v j (ix1 (j 1 : Fin 2)) (fun a => ?_)
  match a with
  | ⟨0, _⟩ => rfl

/-- The reference's result, given its three stages as the specification's functions, is the network function of
    its arguments: what is left is the edge list's normalisation and the two rounds of message passing, which the
    network function spells with the same host operations. -/
theorem ref_out_of
    (hG0 : ∀ (x : FVec Ideal S500000x32 .f32) (w : FVec Ideal S32x16 .f32),
      Host.dotGeneral dot_S500000x32_S32x16_S500000x16_1_0_0_1_n_n none x w = Cert.Spec.G0 x w)
    (hG1 : ∀ (agg h : FVec Ideal S500000x16 .f32) (dd : FVec Ideal S500000 .f32) (b : FVec Ideal S16 .f32) (w : FVec Ideal S16x2 .f32),
      (Host.dotGeneral dot_S500000x16_S16x2_S500000x2_1_0_0_1_n_n none (maximumf (addf (addf agg (mulf h (broadcastInDim S500000x16 ![0, 1] bcast_S500000x1_S500000x16_0_1 (broadcastInDim S500000x1 ![0] bcast_S500000_S500000x1_0 dd)))) (broadcastInDim S500000x16 ![0, 1] bcast_S1x16_S500000x16_0_1 (broadcastInDim S1x16 ![1] bcast_S16_S1x16_1 b))) (broadcastInDim S500000x16 ![] bcast_S_S500000x16 (constant S_ .f32 0x00000000#32))) w)
        = Cert.Spec.G1 agg h (broadcastInDim S500000x1 ![0] bcast_S500000_S500000x1_0 dd) (broadcastInDim S1x16 ![1] bcast_S16_S1x16_1 b) w)
    (hG2 : ∀ (agg h : FVec Ideal S500000x2 .f32) (dd : FVec Ideal S500000 .f32) (b : FVec Ideal S2 .f32) (batch : IVec S500000 32),
      (subf (subf (Host.divf (Host.scatterAdd scatter_S1024x2_S500000x1_S500000x2_1_0_0_1 (broadcastInDim S1024x2 ![] bcast_S_S1024x2 (constant S_ .f32 0x00000000#32)) (broadcastInDim S500000x1 ![0] bcast_S500000_S500000x1_0 batch) (addf (addf agg (mulf h (broadcastInDim S500000x2 ![0, 1] bcast_S500000x1_S500000x2_0_1 (broadcastInDim S500000x1 ![0] bcast_S500000_S500000x1_0 dd)))) (broadcastInDim S500000x2 ![0, 1] bcast_S1x2_S500000x2_0_1 (broadcastInDim S1x2 ![1] bcast_S2_S1x2_1 b)))) (broadcastInDim S1024x2 ![0, 1] bcast_S1024x1_S1024x2_0_1 (broadcastInDim S1024x1 ![0] bcast_S1024_S1024x1_0 (maximumf (Host.scatterAdd scatter_S1024_S500000x1_S500000_n_0_0_1 (broadcastInDim S1024 ![] bcast_S_S1024 (constant S_ .f32 0x00000000#32)) (broadcastInDim S500000x1 ![0] bcast_S500000_S500000x1_0 batch) (broadcastInDim S500000 ![] bcast_S_S500000 (constant S_ .f32 0x3F800000#32))) (broadcastInDim S1024 ![] bcast_S_S1024 (constant S_ .f32 0x3F800000#32)))))) (broadcastInDim S1024x2 ![0, 1] bcast_S1024x1_S1024x2_0_1 (broadcastInDim S1024x1 ![0] bcast_S1024_S1024x1_0 (maximumf (broadcastInDim S1024 ![] bcast_S_S1024 (constant S_ .f32 0xFF800000#32)) (Host.reduce FloatOps.maximumf (Host.divf (Host.scatterAdd scatter_S1024x2_S500000x1_S500000x2_1_0_0_1 (broadcastInDim S1024x2 ![] bcast_S_S1024x2 (constant S_ .f32 0x00000000#32)) (broadcastInDim S500000x1 ![0] bcast_S500000_S500000x1_0 batch) (addf (addf agg (mulf h (broadcastInDim S500000x2 ![0, 1] bcast_S500000x1_S500000x2_0_1 (broadcastInDim S500000x1 ![0] bcast_S500000_S500000x1_0 dd)))) (broadcastInDim S500000x2 ![0, 1] bcast_S1x2_S500000x2_0_1 (broadcastInDim S1x2 ![1] bcast_S2_S1x2_1 b)))) (broadcastInDim S1024x2 ![0, 1] bcast_S1024x1_S1024x2_0_1 (broadcastInDim S1024x1 ![0] bcast_S1024_S1024x1_0 (maximumf (Host.scatterAdd scatter_S1024_S500000x1_S500000_n_0_0_1 (broadcastInDim S1024 ![] bcast_S_S1024 (constant S_ .f32 0x00000000#32)) (broadcastInDim S500000x1 ![0] bcast_S500000_S500000x1_0 batch) (broadcastInDim S500000 ![] bcast_S_S500000 (constant S_ .f32 0x3F800000#32))) (broadcastInDim S1024 ![] bcast_S_S1024 (constant S_ .f32 0x3F800000#32)))))) (constant S_ .f32 0xFF800000#32) reducesTo_S1024x2_S1024_d1 h_S_))))) (broadcastInDim S1024x2 ![0, 1] bcast_S1024x1_S1024x2_0_1 (Host.log (broadcastInDim S1024x1 ![0] bcast_S1024_S1024x1_0 (Host.reduceAdd (Host.exp (subf (Host.divf (Host.scatterAdd scatter_S1024x2_S500000x1_S500000x2_1_0_0_1 (broadcastInDim S1024x2 ![] bcast_S_S1024x2 (constant S_ .f32 0x00000000#32)) (broadcastInDim S500000x1 ![0] bcast_S500000_S500000x1_0 batch) (addf (addf agg (mulf h (broadcastInDim S500000x2 ![0, 1] bcast_S500000x1_S500000x2_0_1 (broadcastInDim S500000x1 ![0] bcast_S500000_S500000x1_0 dd)))) (broadcastInDim S500000x2 ![0, 1] bcast_S1x2_S500000x2_0_1 (broadcastInDim S1x2 ![1] bcast_S2_S1x2_1 b)))) (broadcastInDim S1024x2 ![0, 1] bcast_S1024x1_S1024x2_0_1 (broadcastInDim S1024x1 ![0] bcast_S1024_S1024x1_0 (maximumf (Host.scatterAdd scatter_S1024_S500000x1_S500000_n_0_0_1 (broadcastInDim S1024 ![] bcast_S_S1024 (constant S_ .f32 0x00000000#32)) (broadcastInDim S500000x1 ![0] bcast_S500000_S500000x1_0 batch) (broadcastInDim S500000 ![] bcast_S_S500000 (constant S_ .f32 0x3F800000#32))) (broadcastInDim S1024 ![] bcast_S_S1024 (constant S_ .f32 0x3F800000#32)))))) (broadcastInDim S1024x2 ![0, 1] bcast_S1024x1_S1024x2_0_1 (broadcastInDim S1024x1 ![0] bcast_S1024_S1024x1_0 (maximumf (broadcastInDim S1024 ![] bcast_S_S1024 (constant S_ .f32 0xFF800000#32)) (Host.reduce FloatOps.maximumf (Host.divf (Host.scatterAdd scatter_S1024x2_S500000x1_S500000x2_1_0_0_1 (broadcastInDim S1024x2 ![] bcast_S_S1024x2 (constant S_ .f32 0x00000000#32)) (broadcastInDim S500000x1 ![0] bcast_S500000_S500000x1_0 batch) (addf (addf agg (mulf h (broadcastInDim S500000x2 ![0, 1] bcast_S500000x1_S500000x2_0_1 (broadcastInDim S500000x1 ![0] bcast_S500000_S500000x1_0 dd)))) (broadcastInDim S500000x2 ![0, 1] bcast_S1x2_S500000x2_0_1 (broadcastInDim S1x2 ![1] bcast_S2_S1x2_1 b)))) (broadcastInDim S1024x2 ![0, 1] bcast_S1024x1_S1024x2_0_1 (broadcastInDim S1024x1 ![0] bcast_S1024_S1024x1_0 (maximumf (Host.scatterAdd scatter_S1024_S500000x1_S500000_n_0_0_1 (broadcastInDim S1024 ![] bcast_S_S1024 (constant S_ .f32 0x00000000#32)) (broadcastInDim S500000x1 ![0] bcast_S500000_S500000x1_0 batch) (broadcastInDim S500000 ![] bcast_S_S500000 (constant S_ .f32 0x3F800000#32))) (broadcastInDim S1024 ![] bcast_S_S1024 (constant S_ .f32 0x3F800000#32)))))) (constant S_ .f32 0xFF800000#32) reducesTo_S1024x2_S1024_d1 h_S_)))))) (constant S_ .f32 0x00000000#32) reducesTo_S1024x2_S1024_d1 h_S_)))))
        = Cert.Spec.G2 agg h (broadcastInDim S500000x1 ![0] bcast_S500000_S500000x1_0 dd) (broadcastInDim S1x2 ![1] bcast_S2_S1x2_1 b) (broadcastInDim S500000x1 ![0] bcast_S500000_S500000x1_0 batch))
    (m : (ℓ : Loc nD τ sig) → Buf (Elt Ideal) ℓ) (c : Dev nD) :
    res_main_v105 m c = Cert.Net.out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold res_main_v105
  rw [hG2, hG1, hG0, col_eq, row16_eq, row2_eq, col_eq]
  rfl

end Cert.ReferenceIdeal.RefNet

end
-- ==== Proof.lean ====
/-
  A two-layer graph convolution with per-graph mean pooling and a row-wise log-softmax, as a Pallas program of three
  kernel regions among host gathers and scatter-adds, against its jnp reference.

  THE MATHEMATICS. Over the extended reals both programs compute one function of the seven arguments
  (`Cert.Net.out`, Proof/Net.lean): the edge list gives in-degrees, their inverse square roots and one coefficient per
  edge; a layer multiplies the node features by its weights, gathers the products along the edge sources, scales
  them, scatter-adds them along the edge targets, and adds the self-loop term and the bias; the first layer is
  clamped below at zero; the second layer's rows are averaged per graph and each averaged row is shifted by its
  maximum and reduced by the logarithm of its summed exponentials.
  The kernel program computes the two products block by block (a block of rows per grid point: the rows of a
  product depend on the same rows of the left factor only), and the per-graph sums as products with a one-hot
  membership matrix accumulated over the row blocks in two scratch buffers: `∑ₙ [batch n = g] · yₙ` is the
  scatter-add's exact sum, because `0 · y = 0` and `1 · y = y` hold for every extended real and addition there is
  commutative and associative; no finiteness is used. The gathers and scatter-adds along the edges are the same host
  operations in both programs and are carried as they are.
  The frames: the reference is a straight line of host operations (its generated run); each kernel program is its
  three regions and three host stretches as segments of one launch, regions 0 and 1 storing one whole block per
  point, region 2 carrying its two accumulators in its invariant from point to point and storing its one output block
  at the last point.
-/
import proofs.«421952_j37563783971339_2_alg».proof.Defs
import proofs.«421952_j37563783971339_2_alg».proof.Proof.Gen.Kernel
import proofs.«421952_j37563783971339_2_alg».proof.Proof.Gen.KernelIdeal
import proofs.«421952_j37563783971339_2_alg».proof.Proof.Gen.ReferenceIdeal
import proofs.«421952_j37563783971339_2_alg».proof.Proof.Gen.Pre_finite_inputs
import proofs.«421952_j37563783971339_2_alg».proof.Proof.Gen.ReferenceIdeal.Run
import proofs.«421952_j37563783971339_2_alg».proof.Proof.K.Run
import proofs.«421952_j37563783971339_2_alg».proof.Proof.KI.Run
import proofs.«421952_j37563783971339_2_alg».proof.Proof.KI.Bridge
import proofs.«421952_j37563783971339_2_alg».proof.Proof.RefVal
import proofs.«421952_j37563783971339_2_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result is the network function of its arguments. -/
theorem ref_out (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v105 m c
      = Cert.Net.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) :=
  Cert.ReferenceIdeal.RefNet.ref_out_of Cert.ReferenceIdeal.RefValue.ref_G0 Cert.ReferenceIdeal.RefValue.ref_G1 Cert.ReferenceIdeal.RefValue.ref_G2 m c

/-- Both programs, from memories agreeing on the arguments, end with the network function of those arguments. -/
theorem algebraic : Cert.algebraic_KernelIdeal_ReferenceIdeal := by
  intro m ρ m' ρ' _ hagree
  refine ⟨fun c => Cert.KernelIdeal.Hand.W6 m ρ c (Proc.devRef .tc Cert.KernelIdeal.main_v59), ?_, ?_⟩
  · refine (θ_run Cert.KernelIdeal.defs _ _).mono (fun r h c => ⟨?_, ?_, ?_, ?_, ?_, ?_, ?_, ?_⟩) (Cert.KernelIdeal.Hand.run_all (F := Ideal) m ρ)
    · exact h c _ (Cert.KernelIdeal.Hand.mem_uc Cert.KernelIdeal.main_v59 (by decide))
    · exact (h c _ (Cert.KernelIdeal.Hand.mem_uc Cert.KernelIdeal.main_arg0 (by decide))).trans (Cert.KernelIdeal.Hand.W6_main_arg0 m ρ c)
    · exact (h c _ (Cert.KernelIdeal.Hand.mem_uc Cert.KernelIdeal.main_arg1 (by decide))).trans (Cert.KernelIdeal.Hand.W6_main_arg1 m ρ c)
    · exact (h c _ (Cert.KernelIdeal.Hand.mem_uc Cert.KernelIdeal.main_arg2 (by decide))).trans (Cert.KernelIdeal.Hand.W6_main_arg2 m ρ c)
    · exact (h c _ (Cert.KernelIdeal.Hand.mem_uc Cert.KernelIdeal.main_arg3 (by decide))).trans (Cert.KernelIdeal.Hand.W6_main_arg3 m ρ c)
    · exact (h c _ (Cert.KernelIdeal.Hand.mem_uc Cert.KernelIdeal.main_arg4 (by decide))).trans (Cert.KernelIdeal.Hand.W6_main_arg4 m ρ c)
    · exact (h c _ (Cert.KernelIdeal.Hand.mem_uc Cert.KernelIdeal.main_arg5 (by decide))).trans (Cert.KernelIdeal.Hand.W6_main_arg5 m ρ c)
    · exact (h c _ (Cert.KernelIdeal.Hand.mem_uc Cert.KernelIdeal.main_arg6 (by decide))).trans (Cert.KernelIdeal.Hand.W6_main_arg6 m ρ c)
  · refine (θ_run Cert.ReferenceIdeal.defs _ _).mono (fun r h c => ⟨(h c).1.trans ?_, (h c).2⟩)
      (Cert.ReferenceIdeal.Value.run (F := Ideal) m' ρ')
    rw [ref_out m' c, (hagree c).1, (hagree c).2.1, (hagree c).2.2.1, (hagree c).2.2.2.1, (hagree c).2.2.2.2.1,
      (hagree c).2.2.2.2.2.1, (hagree c).2.2.2.2.2.2]
    exact (Cert.KernelIdeal.Hand.kernel_out m ρ c).symm

/-- The certificate: the three frames, the idealization (the ideal pass rewrote nothing) and the equivalence. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
